-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S128 .f32) (main_arg8 : IVec S1600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg8 main_v39
  let main_c_15 : IVec S_ 32 := constantI S_ 32 100000#32
  let main_v41 : IVec S1600000 32 := broadcastInDim S1600000 ![] bcast_S_S1600000 main_c_15
  let main_v42 : IVec S1600000 1 := cmpi .slt main_arg8 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg4 : FVec F S128x128 .f32) (main_arg5 : FVec F S128 .f32) (main_arg6 : FVec F S128x128 .f32) (main_arg7 : FVec F S128 .f32) (main_arg8 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 179
  | .vmem => 70
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1600000, .i32⟩
  | 9 => ⟨S1600000, .i32⟩
  | 10 => ⟨S2, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S100000x1, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1, .i32⟩
  | 32 => ⟨S_, .i32⟩
  | 33 => ⟨S1600000x1, .i32⟩
  | 34 => ⟨S1600000x1, .i1⟩
  | 35 => ⟨S1x1, .i32⟩
  | 36 => ⟨S1600000x1, .i32⟩
  | 37 => ⟨S1600000x1, .i1⟩
  | 38 => ⟨S1600000x1, .i1⟩
  | 39 => ⟨S_, .i1⟩
  | 40 => ⟨S1600000, .i1⟩
  | 41 => ⟨S1600000x128, .f32⟩
  | 42 => ⟨S1600000x128, .i1⟩
  | 43 => ⟨S_, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x128, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1, .i32⟩
  | 62 => ⟨S_, .i32⟩
  | 63 => ⟨S1600000x1, .i32⟩
  | 64 => ⟨S1600000x1, .i1⟩
  | 65 => ⟨S1x1, .i32⟩
  | 66 => ⟨S1600000x1, .i32⟩
  | 67 => ⟨S1600000x1, .i1⟩
  | 68 => ⟨S1600000x1, .i1⟩
  | 69 => ⟨S_, .i1⟩
  | 70 => ⟨S1600000, .i1⟩
  | 71 => ⟨S1600000x128, .f32⟩
  | 72 => ⟨S1600000x128, .i1⟩
  | 73 => ⟨S_, .f32⟩
  | 74 => ⟨S1600000x128, .f32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S1x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1, .i32⟩
  | 92 => ⟨S_, .i32⟩
  | 93 => ⟨S1600000x1, .i32⟩
  | 94 => ⟨S1600000x1, .i1⟩
  | 95 => ⟨S1x1, .i32⟩
  | 96 => ⟨S1600000x1, .i32⟩
  | 97 => ⟨S1600000x1, .i1⟩
  | 98 => ⟨S1600000x1, .i1⟩
  | 99 => ⟨S_, .i1⟩
  | 100 => ⟨S1600000, .i1⟩
  | 101 => ⟨S1600000x128, .f32⟩
  | 102 => ⟨S1600000x128, .i1⟩
  | 103 => ⟨S_, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S1x128, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1, .i32⟩
  | 122 => ⟨S_, .i32⟩
  | 123 => ⟨S1600000x1, .i32⟩
  | 124 => ⟨S1600000x1, .i1⟩
  | 125 => ⟨S1x1, .i32⟩
  | 126 => ⟨S1600000x1, .i32⟩
  | 127 => ⟨S1600000x1, .i1⟩
  | _ => ⟨S100000x128, .f32⟩

abbrev hbmTy0_1 (i : Nat) : BufTy := match i % 128 with
  | 0 => ⟨S1600000x1, .i1⟩
  | 1 => ⟨S_, .i1⟩
  | 2 => ⟨S1600000, .i1⟩
  | 3 => ⟨S1600000x128, .f32⟩
  | 4 => ⟨S1600000x128, .i1⟩
  | 5 => ⟨S_, .f32⟩
  | 6 => ⟨S1600000x128, .f32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S1x128, .f32⟩
  | 13 => ⟨S100000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S_, .f32⟩
  | 21 => ⟨S_, .f32⟩
  | 22 => ⟨S128, .f32⟩
  | 23 => ⟨S_, .f32⟩
  | 24 => ⟨S_, .f32⟩
  | 25 => ⟨S_, .f32⟩
  | 26 => ⟨S_, .f32⟩
  | 27 => ⟨S_, .f32⟩
  | 28 => ⟨S128, .f32⟩
  | 29 => ⟨S_, .f32⟩
  | 30 => ⟨S_, .f32⟩
  | 31 => ⟨S_, .f32⟩
  | 32 => ⟨S_, .f32⟩
  | 33 => ⟨S_, .f32⟩
  | 34 => ⟨S1, .f32⟩
  | 35 => ⟨S1, .f32⟩
  | 36 => ⟨S2, .f32⟩
  | 37 => ⟨S_, .f32⟩
  | 38 => ⟨S2, .f32⟩
  | 39 => ⟨S2, .f32⟩
  | 40 => ⟨S2, .f32⟩
  | 41 => ⟨S2, .f32⟩
  | 42 => ⟨S2, .f32⟩
  | 43 => ⟨S2, .f32⟩
  | 44 => ⟨S2, .f32⟩
  | 45 => ⟨S2, .f32⟩
  | 46 => ⟨S2, .f32⟩
  | 47 => ⟨S_, .f32⟩
  | 48 => ⟨S_, .f32⟩
  | 49 => ⟨S_, .f32⟩
  | 50 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v9 : Ref sig .tc := ⟨.hbm, 45, rfl⟩
abbrev main_cst_3 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v16 : Ref sig .tc := ⟨.hbm, 75, rfl⟩
abbrev main_cst_4 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v23 : Ref sig .tc := ⟨.hbm, 105, rfl⟩
abbrev main_cst_5 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v30 : Ref sig .tc := ⟨.hbm, 135, rfl⟩
abbrev main_cst_6 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_cst_7 : Ref sig .tc := ⟨.hbm, 146, rfl⟩
abbrev main_v40 : Ref sig .tc := ⟨.hbm, 147, rfl⟩
abbrev main_cst_8 : Ref sig .tc := ⟨.hbm, 148, rfl⟩
abbrev main_v41 : Ref sig .tc := ⟨.hbm, 149, rfl⟩
abbrev main_v42 : Ref sig .tc := ⟨.hbm, 150, rfl⟩
abbrev main_cst_9 : Ref sig .tc := ⟨.hbm, 151, rfl⟩
abbrev main_v43 : Ref sig .tc := ⟨.hbm, 152, rfl⟩
abbrev main_cst_10 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_cst_11 : Ref sig .tc := ⟨.hbm, 157, rfl⟩
abbrev main_v47 : Ref sig .tc := ⟨.hbm, 158, rfl⟩
abbrev main_cst_12 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_cst_13 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_cst_14 : Ref sig .tc := ⟨.hbm, 175, rfl⟩
abbrev main_v62 : Ref sig .tc := ⟨.hbm, 176, rfl⟩
abbrev main_cst_15 : Ref sig .tc := ⟨.hbm, 177, rfl⟩
abbrev main_v63 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc9_sem0_0 : DmaSem sig := 67
abbrev cc9_sem0_1 : DmaSem sig := 68
abbrev cc9_sem1_0 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  reducesTo_S128x128_S128_d1 : S128x128.ReducesTo [1] S128
  reducesTo_S128_S_d0 : S128.ReducesTo [0] S_
  bcast_S_S1 : S_.BroadcastsInDim S1 (![] : Fin 0 → Fin S1.rank)
  concatenates_S1_S1_S2_d0 : Shape.Concatenates [S1, S1] S2 0
  bcast_S_S2 : S_.BroadcastsInDim S2 (![] : Fin 0 → Fin S2.rank)
  reducesTo_S2_S_d0 : S2.ReducesTo [0] S_
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v26) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg2) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v27) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v28) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v28) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v33) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v29) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v34) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v35) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v21) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v36) S1x128.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v35) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v38) S1x128.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1 : Shape := ⟨1, ![1]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1600000, .i32⟩
  | 9 => ⟨S1600000, .i32⟩
  | 10 => ⟨S2, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000x128, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x1, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S100000x1, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x1, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S2, .f32⟩
  | 10 => ⟨S_, .f32⟩
  | 11 => ⟨S2, .f32⟩
  | 12 => ⟨S2, .f32⟩
  | 13 => ⟨S2, .f32⟩
  | 14 => ⟨S2, .f32⟩
  | 15 => ⟨S2, .f32⟩
  | 16 => ⟨S2, .f32⟩
  | 17 => ⟨S2, .f32⟩
  | 18 => ⟨S2, .f32⟩
  | 19 => ⟨S2, .f32⟩
  | 20 => ⟨S_, .f32⟩
  | 21 => ⟨S_, .f32⟩
  | 22 => ⟨S_, .f32⟩
  | 23 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_11 : Ref sig .tc := ⟨.hbm, 102, rfl⟩
abbrev main_v75 : Ref sig .tc := ⟨.hbm, 103, rfl⟩
abbrev main_v76 : Ref sig .tc := ⟨.hbm, 104, rfl⟩
abbrev main_c_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_cst_15 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_16 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_17 : Ref sig .tc := ⟨.hbm, 148, rfl⟩
abbrev main_v115 : Ref sig .tc := ⟨.hbm, 149, rfl⟩
abbrev main_cst_18 : Ref sig .tc := ⟨.hbm, 150, rfl⟩
abbrev main_v116 : Ref sig .tc := ⟨.hbm, 151, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S_d0_1 : S100000x128.ReducesTo [0, 1] S_
  h_S_ : 0 < S_.numel
  bcast_S_S1 : S_.BroadcastsInDim S1 (![] : Fin 0 → Fin S1.rank)
  concatenates_S1_S1_S2_d0 : Shape.Concatenates [S1, S1] S2 0
  bcast_S_S2 : S_.BroadcastsInDim S2 (![] : Fin 0 → Fin S2.rank)
  reducesTo_S2_S_d0 : S2.ReducesTo [0] S_
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The reference's computation as named functions of its argument arrays, in the reference program's own
  operations and shapes: N = 100000 nodes with 128 features, E = 1600000 edges (src, dst).

    norm dst       = rsqrt (deg + 1),  deg i = the number of edges e with dst e = i
    pre x n s d    = ((segment_sum over d of the rows (x · n)[s e]) + x · n) · n      (n broadcast along the rows)
    lin y W b      = y · W + b                                                       (b broadcast over the rows)
    enc x …        = lin (pre (relu (lin (pre x) W1 b1))) W2 b2                        (two graph-convolution layers)
    logit h Wp bp  = the sum of every entry of lin h Wp bp
    bce s1 s2      = the mean over the two logits of max(s, 0) − s · label + log1p (exp (−|s|)), labels (1, 0)

  Everything is stated at any float instance; the value claims read it at the extended reals.
-/
import proofs.«405684_j1614907703322_1_alg».proof.ReferenceIdeal
import proofs.«405684_j1614907703322_1_alg».proof.Proof.Gen.ReferenceIdeal

noncomputable section

namespace Cert.Bridge.Spec

open Idealize.ShloMosaic Idealize.ShloMosaic.TcCoe Cert.ReferenceIdeal Cert.ReferenceIdeal.Gen

variable {F : FTy → Type} [FloatOps F]

/-- An array of floats of shape `s`. -/
abbrev Arr (s : Shape) := (⟨s, .f32⟩ : BufTy).Contents (Elt F)
/-- An array of 32-bit integers of shape `s`. -/
abbrev IArr (s : Shape) := (⟨s, .i32⟩ : BufTy).Contents (Elt F)

/-- The symmetric normalisation: the reciprocal square root of the in-degree plus one (the self loop). -/
def norm (dst : IArr (F := F) S1600000) : Arr (F := F) S100000 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The normalisation as a column, repeated along the 128 features. -/
def ncol (n : Arr (F := F) S100000) : Arr (F := F) S100000x128 :=
  broadcastInDim S100000x128 ![0, 1] bcast_S100000x1_S100000x128_0_1 (broadcastInDim S100000x1 ![0] bcast_S100000_S100000x1_0 n)

/-- The source indices with a negative index counted from the end, as a column of start indices. -/
def widx (src : IArr (F := F) S1600000) : IArr (F := F) S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `h` the edges start from. -/
def rows (h : Arr (F := F) S100000x128) (src : IArr (F := F) S1600000) : Arr (F := F) S1600000x128 :=
  Host.gather gather_S100000x128_S1600000x1_S1600000x128_1_0_n_n_0_1_1128 h (widx src)

/-- The sum, per destination node, of the edge rows `u`. -/
def segsum (u : Arr (F := F) S1600000x128) (dst : IArr (F := F) S1600000) : Arr (F := F) S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) u

/-- Normalise, aggregate over the edges and the self loop, normalise again. -/
def pre (x : Arr (F := F) S100000x128) (n : Arr (F := F) S100000) (src dst : IArr (F := F) S1600000) : Arr (F := F) S100000x128 :=
  mulf (addf (segsum (rows (mulf x (ncol n)) src) dst) (mulf x (ncol n))) (ncol n)

/-- The dense layer: `y · W + b`. -/
def lin (y : Arr (F := F) S100000x128) (W : Arr (F := F) S128x128) (b : Arr (F := F) S128) : Arr (F := F) S100000x128 :=
  addf (Host.dotGeneral dot_S100000x128_S128x128_S100000x128_1_0_0_1_n_n none y W)
    (broadcastInDim S100000x128 ![0, 1] bcast_S1x128_S100000x128_0_1 (broadcastInDim S1x128 ![1] bcast_S128_S1x128_1 b))

/-- The positive part. -/
def relu (y : Arr (F := F) S100000x128) : Arr (F := F) S100000x128 :=
  maximumf y (broadcastInDim S100000x128 ![] bcast_S_S100000x128 (constant S_ .f32 0x00000000#32))

/-- The two-layer encoder. -/
def enc (x : Arr (F := F) S100000x128) (n : Arr (F := F) S100000) (src dst : IArr (F := F) S1600000)
    (W1 : Arr (F := F) S128x128) (b1 : Arr (F := F) S128) (W2 : Arr (F := F) S128x128) (b2 : Arr (F := F) S128) : Arr (F := F) S100000x128 :=
  lin (pre (relu (lin (pre x n src dst) W1 b1)) n src dst) W2 b2

/-- One view's logit: every entry of the projected encoding, summed. -/
def logit (h : Arr (F := F) S100000x128) (Wp : Arr (F := F) S128x128) (bp : Arr (F := F) S128) : Arr (F := F) S_ :=
  Host.reduceAdd (lin h Wp bp) (constant S_ .f32 0x00000000#32) reducesTo_S100000x128_S_d0_1 h_S_

/-- The mean binary cross-entropy of the two logits against the labels `lbl`. -/
def bce (s1 s2 : Arr (F := F) S_) (lbl : Arr (F := F) S2) : Arr (F := F) S_ :=
  let z : Arr (F := F) S2 := concatenate S2 0 [⟨S1, broadcastInDim S1 ![] bcast_S_S1 s1⟩, ⟨S1, broadcastInDim S1 ![] bcast_S_S1 s2⟩] concatenates_S1_S1_S2_d0
  Host.divf
    (Host.reduceAdd
      (addf (subf (maximumf z (broadcastInDim S2 ![] bcast_S_S2 (constant S_ .f32 0x00000000#32))) (mulf z lbl))
        (Host.log1p (Host.exp (Host.negf (Host.absf z)))))
      (constant S_ .f32 0x00000000#32) reducesTo_S2_S_d0 h_S_)
    (constant S_ .f32 0x40000000#32)

/-- The labels (1, 0). -/
def labels : Arr (F := F) S2 := fun i => FloatOps.ofBits .f32 (lit0 (S2.rowMajor i))

/-- The reference's result as a function of its ten arguments. -/
def result (x1 x2 : Arr (F := F) S100000x128) (W1 : Arr (F := F) S128x128) (b1 : Arr (F := F) S128) (W2 : Arr (F := F) S128x128) (b2 : Arr (F := F) S128)
    (Wp : Arr (F := F) S128x128) (bp : Arr (F := F) S128) (src dst : IArr (F := F) S1600000) : Arr (F := F) S_ :=
  bce (logit (enc x1 (norm dst) src dst W1 b1 W2 b2) Wp bp) (logit (enc x2 (norm dst) src dst W1 b1 W2 b2) Wp bp) labels

end Cert.Bridge.Spec

end
-- ==== Proof.RefOps.lean ====
/-
  The reference program's 142 host operations as three lists, one per printed window of @main (62, 62, 18 operations),
  in the order the program runs them; an outlined function's operations stand at its call, over that call's own
  buffer record. With each list, that every operation touches TensorCore buffers only.
-/
import proofs.«405684_j1614907703322_1_alg».proof.Proof.Gen.ReferenceIdeal
import Idealize.ShloMosaic.Lib.StableHlo.Run

noncomputable section

namespace Cert.Bridge.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The operations of @main's window 0, in order (62). -/
abbrev ops0 : List (HloOp τ sig (Elt F)) :=
  [ StableHlo.nullary main_cst (fun i => FloatOps.ofBits .f32 (lit0 (S2.rowMajor i))),
    StableHlo.nullary main_cst_0 (constant S_ .f32 0x3F800000#32),
    StableHlo.unary main_cst_0 main_v0 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v1 (broadcastInDim S100000 ![] bcast_S_S100000 : (⟨S_, .f32⟩ : BufTy).Contents (Elt F) → (⟨S100000, .f32⟩ : BufTy).Contents (Elt F)),
    StableHlo.unary main_arg9 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v4 (broadcastInDim S100000 ![] bcast_S_S100000 : (⟨S_, .f32⟩ : BufTy).Contents (Elt F) → (⟨S100000, .f32⟩ : BufTy).Contents (Elt F)),
    StableHlo.binary main_v3 main_v4 main_v5 (addf : (⟨S100000, .f32⟩ : BufTy).Contents (Elt F) → (⟨S100000, .f32⟩ : BufTy).Contents (Elt F) → (⟨S100000, .f32⟩ : BufTy).Contents (Elt F)),
    StableHlo.unary main_v5 main_v6 (Host.rsqrt : (⟨S100000, .f32⟩ : BufTy).Contents (Elt F) → (⟨S100000, .f32⟩ : BufTy).Contents (Elt F)),
    StableHlo.unary main_v6 main_v7 (broadcastInDim S100000x1 ![0] bcast_S100000_S100000x1_0 : (⟨S100000, .f32⟩ : BufTy).Contents (Elt F) → (⟨S100000x1, .f32⟩ : BufTy).Contents (Elt F)),
    StableHlo.unary main_v7 main_v8 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v8 main_v9 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg8 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg8 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_arg8 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v17 (broadcastInDim S100000x128 ![] bcast_S_S100000x128 : (⟨S_, .f32⟩ : BufTy).Contents (Elt F) → (⟨S100000x128, .f32⟩ : BufTy).Contents (Elt F)),
    StableHlo.unary main_arg9 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_v9 main_v20 (addf : (⟨S100000x128, .f32⟩ : BufTy).Contents (Elt F) → (⟨S100000x128, .f32⟩ : BufTy).Contents (Elt F) → (⟨S100000x128, .f32⟩ : BufTy).Contents (Elt F)),
    StableHlo.unary main_v6 main_v21 (broadcastInDim S100000x1 ![0] bcast_S100000_S100000x1_0 : (⟨S100000, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v22 main_v23 (mulf : (⟨S100000x128, .f32⟩ : BufTy).Contents (Elt F) → (⟨S100000x128, .f32⟩ : BufTy).Contents (Elt F) → (⟨S100000x128, .f32⟩ : BufTy).Contents (Elt F)),
    StableHlo.binary main_v23 main_arg2 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v27) main_call0.v0 main_call0.v1 maximumf,
    StableHlo.unary main_v6 main_v29 (broadcastInDim S100000x1 ![0] bcast_S100000_S100000x1_0 : (⟨S100000, .f32⟩ : BufTy).Contents (Elt F) → (⟨S100000x1, .f32⟩ : BufTy).Contents (Elt F)),
    StableHlo.unary main_v29 main_v30 (broadcastInDim S100000x128 ![0, 1] bcast_S100000x1_S100000x128_0_1 : (⟨S100000x1, .f32⟩ : BufTy).Contents (Elt F) → (⟨S100000x128, .f32⟩ : BufTy).Contents (Elt F)),
    StableHlo.binary main_v28 main_v30 main_v31 (mulf : (⟨S100000x128, .f32⟩ : BufTy).Contents (Elt F) → (⟨S100000x128, .f32⟩ : BufTy).Contents (Elt F) → (⟨S100000x128, .f32⟩ : BufTy).Contents (Elt F)),
    StableHlo.nullary main_c_5 (constantI S_ 32 0#32),
    StableHlo.unary main_c_5 main_v32 (broadcastInDim S1600000 ![] bcast_S_S1600000 : (⟨S_, .i32⟩ : BufTy).Contents (Elt F) → (⟨S1600000, .i32⟩ : BufTy).Contents (Elt F)),
    StableHlo.binary main_arg8 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v34 (broadcastInDim S1600000 ![] bcast_S_S1600000 : (⟨S_, .i32⟩ : BufTy).Contents (Elt F) → (⟨S1600000, .i32⟩ : BufTy).Contents (Elt F)),
    StableHlo.binary main_arg8 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_arg8 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v39 (broadcastInDim S100000x128 ![] bcast_S_S100000x128 : (⟨S_, .f32⟩ : BufTy).Contents (Elt F) → (⟨S100000x128, .f32⟩ : BufTy).Contents (Elt F)),
    StableHlo.unary main_arg9 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v41 main_v31 main_v42 (addf : (⟨S100000x128, .f32⟩ : BufTy).Contents (Elt F) → (⟨S100000x128, .f32⟩ : BufTy).Contents (Elt F) → (⟨S100000x128, .f32⟩ : BufTy).Contents (Elt F)),
    StableHlo.unary main_v6 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v42 main_v44 main_v45 (mulf : (⟨S100000x128, .f32⟩ : BufTy).Contents (Elt F) → (⟨S100000x128, .f32⟩ : BufTy).Contents (Elt F) → (⟨S100000x128, .f32⟩ : BufTy).Contents (Elt F)),
    StableHlo.binary main_v45 main_arg4 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
/-- Every operation of window 0 touches TensorCore buffers only. -/
theorem ops0_sub : (ops0 : List (HloOp τ sig (Elt F))).Forall fun op => op.bufs ⊆ tcRefs τ sig :=
  ⟨nullary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

set_option maxHeartbeats 4000000 in
/-- The operations of @main's window 1, in order (62). -/
abbrev ops1 : List (HloOp τ sig (Elt F)) :=
  [ StableHlo.unary main_v6 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_arg1 main_v51 main_v52 (mulf : (⟨S100000x128, .f32⟩ : BufTy).Contents (Elt F) → (⟨S100000x128, .f32⟩ : BufTy).Contents (Elt F) → (⟨S100000x128, .f32⟩ : BufTy).Contents (Elt F)),
    StableHlo.nullary main_c_8 (constantI S_ 32 0#32),
    StableHlo.unary main_c_8 main_v53 (broadcastInDim S1600000 ![] bcast_S_S1600000 : (⟨S_, .i32⟩ : BufTy).Contents (Elt F) → (⟨S1600000, .i32⟩ : BufTy).Contents (Elt F)),
    StableHlo.binary main_arg8 main_v53 main_v54 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v55 (broadcastInDim S1600000 ![] bcast_S_S1600000 : (⟨S_, .i32⟩ : BufTy).Contents (Elt F) → (⟨S1600000, .i32⟩ : BufTy).Contents (Elt F)),
    StableHlo.binary main_arg8 main_v55 main_v56 (addi : (⟨S1600000, .i32⟩ : BufTy).Contents (Elt F) → (⟨S1600000, .i32⟩ : BufTy).Contents (Elt F) → (⟨S1600000, .i32⟩ : BufTy).Contents (Elt F)),
    StableHlo.ternary main_v54 main_v56 main_arg8 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v57 main_v58 (broadcastInDim S1600000x1 ![0] bcast_S1600000_S1600000x1_0 : (⟨S1600000, .i32⟩ : BufTy).Contents (Elt F) → (⟨S1600000x1, .i32⟩ : BufTy).Contents (Elt F)),
    StableHlo.binary main_v52 main_v58 main_v59 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v60 (broadcastInDim S100000x128 ![] bcast_S_S100000x128 : (⟨S_, .f32⟩ : BufTy).Contents (Elt F) → (⟨S100000x128, .f32⟩ : BufTy).Contents (Elt F)),
    StableHlo.unary main_arg9 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v62 main_v52 main_v63 (addf : (⟨S100000x128, .f32⟩ : BufTy).Contents (Elt F) → (⟨S100000x128, .f32⟩ : BufTy).Contents (Elt F) → (⟨S100000x128, .f32⟩ : BufTy).Contents (Elt F)),
    StableHlo.unary main_v6 main_v64 (broadcastInDim S100000x1 ![0] bcast_S100000_S100000x1_0 : (⟨S100000, .f32⟩ : BufTy).Contents (Elt F) → (⟨S100000x1, .f32⟩ : BufTy).Contents (Elt F)),
    StableHlo.unary main_v64 main_v65 (broadcastInDim S100000x128 ![0, 1] bcast_S100000x1_S100000x128_0_1 : (⟨S100000x1, .f32⟩ : BufTy).Contents (Elt F) → (⟨S100000x128, .f32⟩ : BufTy).Contents (Elt F)),
    StableHlo.binary main_v63 main_v65 main_v66 (mulf : (⟨S100000x128, .f32⟩ : BufTy).Contents (Elt F) → (⟨S100000x128, .f32⟩ : BufTy).Contents (Elt F) → (⟨S100000x128, .f32⟩ : BufTy).Contents (Elt F)),
    StableHlo.binary main_v66 main_arg2 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v70) main_call1.v0 main_call1.v1 maximumf,
    StableHlo.unary main_v6 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v73 main_v74 (mulf : (⟨S100000x128, .f32⟩ : BufTy).Contents (Elt F) → (⟨S100000x128, .f32⟩ : BufTy).Contents (Elt F) → (⟨S100000x128, .f32⟩ : BufTy).Contents (Elt F)),
    StableHlo.nullary main_c_11 (constantI S_ 32 0#32),
    StableHlo.unary main_c_11 main_v75 (broadcastInDim S1600000 ![] bcast_S_S1600000 : (⟨S_, .i32⟩ : BufTy).Contents (Elt F) → (⟨S1600000, .i32⟩ : BufTy).Contents (Elt F)),
    StableHlo.binary main_arg8 main_v75 main_v76 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v77 (broadcastInDim S1600000 ![] bcast_S_S1600000 : (⟨S_, .i32⟩ : BufTy).Contents (Elt F) → (⟨S1600000, .i32⟩ : BufTy).Contents (Elt F)),
    StableHlo.binary main_arg8 main_v77 main_v78 (addi : (⟨S1600000, .i32⟩ : BufTy).Contents (Elt F) → (⟨S1600000, .i32⟩ : BufTy).Contents (Elt F) → (⟨S1600000, .i32⟩ : BufTy).Contents (Elt F)),
    StableHlo.ternary main_v76 main_v78 main_arg8 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v79 main_v80 (broadcastInDim S1600000x1 ![0] bcast_S1600000_S1600000x1_0 : (⟨S1600000, .i32⟩ : BufTy).Contents (Elt F) → (⟨S1600000x1, .i32⟩ : BufTy).Contents (Elt F)),
    StableHlo.binary main_v74 main_v80 main_v81 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_13 (constant S_ .f32 0x00000000#32),
    StableHlo.unary main_cst_13 main_v82 (broadcastInDim S100000x128 ![] bcast_S_S100000x128 : (⟨S_, .f32⟩ : BufTy).Contents (Elt F) → (⟨S100000x128, .f32⟩ : BufTy).Contents (Elt F)),
    StableHlo.unary main_arg9 main_v83 (broadcastInDim S1600000x1 ![0] bcast_S1600000_S1600000x1_0 : (⟨S1600000, .i32⟩ : BufTy).Contents (Elt F) → (⟨S1600000x1, .i32⟩ : BufTy).Contents (Elt F)),
    StableHlo.ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v84 main_v74 main_v85 (addf : (⟨S100000x128, .f32⟩ : BufTy).Contents (Elt F) → (⟨S100000x128, .f32⟩ : BufTy).Contents (Elt F) → (⟨S100000x128, .f32⟩ : BufTy).Contents (Elt F)),
    StableHlo.unary main_v6 main_v86 (broadcastInDim S100000x1 ![0] bcast_S100000_S100000x1_0 : (⟨S100000, .f32⟩ : BufTy).Contents (Elt F) → (⟨S100000x1, .f32⟩ : BufTy).Contents (Elt F)),
    StableHlo.unary main_v86 main_v87 (broadcastInDim S100000x128 ![0, 1] bcast_S100000x1_S100000x128_0_1 : (⟨S100000x1, .f32⟩ : BufTy).Contents (Elt F) → (⟨S100000x128, .f32⟩ : BufTy).Contents (Elt F)),
    StableHlo.binary main_v85 main_v87 main_v88 (mulf : (⟨S100000x128, .f32⟩ : BufTy).Contents (Elt F) → (⟨S100000x128, .f32⟩ : BufTy).Contents (Elt F) → (⟨S100000x128, .f32⟩ : BufTy).Contents (Elt F)),
    StableHlo.binary main_v88 main_arg4 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.binary main_v49 main_arg6 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.binary main_v92 main_arg6 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v99 main_v100 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.binary main_v96 main_cst_14 main_v101 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.nullary main_cst_15 (constant S_ .f32 0x00000000#32) ]

set_option maxHeartbeats 4000000 in
/-- Every operation of window 1 touches TensorCore buffers only. -/
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub ..⟩

set_option maxHeartbeats 4000000 in
/-- The operations of @main's window 2, in order (18). -/
abbrev ops2 : List (HloOp τ sig (Elt F)) :=
  [ StableHlo.binary main_v100 main_cst_15 main_v102 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.unary main_v101 main_v103 (broadcastInDim S1 ![] bcast_S_S1 : (⟨S_, .f32⟩ : BufTy).Contents (Elt F) → (⟨S1, .f32⟩ : BufTy).Contents (Elt F)),
    StableHlo.unary main_v102 main_v104 (broadcastInDim S1 ![] bcast_S_S1 : (⟨S_, .f32⟩ : BufTy).Contents (Elt F) → (⟨S1, .f32⟩ : BufTy).Contents (Elt F)),
    StableHlo.binary main_v103 main_v104 main_v105 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.nullary main_cst_16 (constant S_ .f32 0x00000000#32),
    StableHlo.unary main_cst_16 main_v106 (broadcastInDim S2 ![] bcast_S_S2 : (⟨S_, .f32⟩ : BufTy).Contents (Elt F) → (⟨S2, .f32⟩ : BufTy).Contents (Elt F)),
    StableHlo.binary main_v105 main_v106 main_v107 (maximumf : (⟨S2, .f32⟩ : BufTy).Contents (Elt F) → (⟨S2, .f32⟩ : BufTy).Contents (Elt F) → (⟨S2, .f32⟩ : BufTy).Contents (Elt F)),
    StableHlo.binary main_v105 main_cst main_v108 (mulf : (⟨S2, .f32⟩ : BufTy).Contents (Elt F) → (⟨S2, .f32⟩ : BufTy).Contents (Elt F) → (⟨S2, .f32⟩ : BufTy).Contents (Elt F)),
    StableHlo.binary main_v107 main_v108 main_v109 (subf : (⟨S2, .f32⟩ : BufTy).Contents (Elt F) → (⟨S2, .f32⟩ : BufTy).Contents (Elt F) → (⟨S2, .f32⟩ : BufTy).Contents (Elt F)),
    StableHlo.unary main_v105 main_v110 (Host.absf : (⟨S2, .f32⟩ : BufTy).Contents (Elt F) → (⟨S2, .f32⟩ : BufTy).Contents (Elt F)),
    StableHlo.unary main_v110 main_v111 (Host.negf : (⟨S2, .f32⟩ : BufTy).Contents (Elt F) → (⟨S2, .f32⟩ : BufTy).Contents (Elt F)),
    StableHlo.unary main_v111 main_v112 (Host.exp : (⟨S2, .f32⟩ : BufTy).Contents (Elt F) → (⟨S2, .f32⟩ : BufTy).Contents (Elt F)),
    StableHlo.unary main_v112 main_v113 (Host.log1p : (⟨S2, .f32⟩ : BufTy).Contents (Elt F) → (⟨S2, .f32⟩ : BufTy).Contents (Elt F)),
    StableHlo.binary main_v109 main_v113 main_v114 (addf : (⟨S2, .f32⟩ : BufTy).Contents (Elt F) → (⟨S2, .f32⟩ : BufTy).Contents (Elt F) → (⟨S2, .f32⟩ : BufTy).Contents (Elt F)),
    StableHlo.nullary main_cst_17 (constant S_ .f32 0x00000000#32),
    StableHlo.binary main_v114 main_cst_17 main_v115 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_18 (constant S_ .f32 0x40000000#32),
    StableHlo.binary main_v115 main_cst_18 main_v116 (Host.divf : (⟨S_, .f32⟩ : BufTy).Contents (Elt F) → (⟨S_, .f32⟩ : BufTy).Contents (Elt F) → (⟨S_, .f32⟩ : BufTy).Contents (Elt F)) ]

set_option maxHeartbeats 4000000 in
/-- Every operation of window 2 touches TensorCore buffers only. -/
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., binary_bufs_sub ..⟩

end Cert.Bridge.Ref

end
-- ==== Proof.RefRun.lean ====
/-
  The reference program's run. The program is a host program with no kernel launch: 142 host operations in a straight
  line (its three printed windows, the two calls of the outlined positive part unfolded over their own buffers), so its
  run is the fold of the operations' results over the launch contents. The fold is read back window by window against
  the named functions of the reference's computation: the first window ends with the normalisation, the labels and the
  first view's encoding in their buffers; the second, started from there, with the first view's logit, the second view's
  projected encoding and the zero its sum starts from; the third, started from there, with the mean binary cross-entropy
  of the two logits. No window writes an argument buffer.
-/
import proofs.«405684_j1614907703322_1_alg».proof.Proof.Spec
import proofs.«405684_j1614907703322_1_alg».proof.Proof.RefOps
import Idealize.ShloMosaic.Lib.StableHlo.Run

noncomputable section

namespace Cert.Bridge.Ref

open Cert.ReferenceIdeal Cert.ReferenceIdeal.Gen Idealize.ShloMosaic Idealize.ShloMosaic.TcCoe Idealize.SL.Sem Idealize.ShloMosaic.StableHlo

variable {F : FTy → Type} [FloatOps F]

/-! ## The program is the line of its operations -/

/-- The first window is the line of its operations: the call's body unfolded at the call, sequencing reassociated. -/
theorem main_part0_eq (c : Dev nD) : main_part0 (F := F) c = seq ops0 := by
  simp only [main_part0, fn_relu.body, seq, bind_assoc, pure_bind]
  rfl

/-- The second window likewise. -/
theorem main_part1_eq (c : Dev nD) : main_part1 (F := F) c = seq ops1 := by
  simp only [main_part1, fn_relu.body, seq, bind_assoc, pure_bind]
  rfl

/-- The third window likewise; it ends with the program's return. -/
theorem main_part2_eq (c : Dev nD) : main_part2 (F := F) c = seq ops2 := by
  simp only [main_part2, seq, bind_assoc, pure_bind]

/-- @main's 142 operations, in order: the three windows' one after the other. -/
abbrev ops : List (HloOp τ sig (Elt F)) := ops0 ++ (ops1 ++ ops2)

/-- @main runs its windows in order, and a line of two lists is the first list's line, then the second's. -/
theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: each window's do. -/
theorem ops_sub : (ops : List (HloOp τ sig (Elt F))).Forall fun op => op.bufs ⊆ tcRefs τ sig :=
  List.forall_append.2 ⟨ops0_sub, List.forall_append.2 ⟨ops1_sub, ops2_sub⟩⟩

/-- Every operation of the first window determines its results. -/
theorem ops0_fresh : ∀ op ∈ (ops0 : List (HloOp τ sig (Elt F))), op.fresh = ∅ := by
  intro _ h; (repeat (cases h with | head => rfl | tail _ h => ?_)); exact nomatch h
/-- Every operation of the second window determines its results. -/
theorem ops1_fresh : ∀ op ∈ (ops1 : List (HloOp τ sig (Elt F))), op.fresh = ∅ := by
  intro _ h; (repeat (cases h with | head => rfl | tail _ h => ?_)); exact nomatch h
/-- Every operation of the third window determines its results. -/
theorem ops2_fresh : ∀ op ∈ (ops2 : List (HloOp τ sig (Elt F))), op.fresh = ∅ := by
  intro _ h; (repeat (cases h with | head => rfl | tail _ h => ?_)); exact nomatch h

/-- Every operation of @main determines its results: it lies in one of the windows. -/
theorem ops_fresh : ∀ op ∈ (ops : List (HloOp τ sig (Elt F))), op.fresh = ∅ := by
  intro op h
  rcases List.mem_append.1 h with h | h
  · exact ops0_fresh op h
  · rcases List.mem_append.1 h with h | h
    · exact ops1_fresh op h
    · exact ops2_fresh op h

/-- From any memory with zero counters every weakly fair execution of @main terminates, and every final state has each
    TensorCore buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the buffers hold, window by window -/

/-- The contents after two lines run in a row: the second line's, from the first line's. -/
theorem after_two_lines (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The ten argument buffers. -/
abbrev argRefs : List (Ref sig .tc) :=
  [main_arg0, main_arg1, main_arg2, main_arg3, main_arg4, main_arg5, main_arg6, main_arg7, main_arg8, main_arg9]

-- the gathers, segment sums and reductions are compared as they stand, never opened: no equation below looks inside them
attribute [local irreducible] Host.gather Host.scatterAdd Host.reduceAdd

section Window0

variable (V : Valuation τ sig (Elt F))

set_option maxRecDepth 8192 in
set_option maxHeartbeats 1000000 in
/-- After the first window the normalisation's buffer holds the reciprocal square root of the in-degree plus one. -/
theorem w0_norm : after ops0 V (main_v6 : DevRef τ sig) = Spec.norm (V (main_arg9 : DevRef τ sig)) := by
  after_results_simp
  rfl

set_option maxRecDepth 8192 in
set_option maxHeartbeats 1000000 in
/-- After the first window the table's buffer holds the labels. -/
theorem w0_labels : after ops0 V (main_cst : DevRef τ sig) = Spec.labels := by
  after_results_simp
  rfl

set_option maxRecDepth 8192 in
set_option maxHeartbeats 1000000 in
/-- After the first window the first view's encoding is in its buffer: two graph-convolution layers of the first
    features, each operation's result read at its own buffer and every other buffer left as it was. -/
theorem w0_enc : after ops0 V (main_v49 : DevRef τ sig)
    = Spec.enc (V (main_arg0 : DevRef τ sig)) (Spec.norm (V (main_arg9 : DevRef τ sig))) (V (main_arg8 : DevRef τ sig))
        (V (main_arg9 : DevRef τ sig)) (V (main_arg2 : DevRef τ sig)) (V (main_arg3 : DevRef τ sig))
        (V (main_arg4 : DevRef τ sig)) (V (main_arg5 : DevRef τ sig)) := by
  after_results_simp
  rfl

set_option maxRecDepth 8192 in
set_option maxHeartbeats 4000000 in
/-- The first window writes no argument buffer. -/
theorem w0_arg (b : Ref sig .tc) (hb : b ∈ argRefs) : after ops0 V (b : DevRef τ sig) = V (b : DevRef τ sig) := by
  simp only [argRefs, List.mem_cons, List.mem_nil_iff, or_false] at hb
  rcases hb with rfl | rfl | rfl | rfl | rfl | rfl | rfl | rfl | rfl | rfl <;> after_results_simp

end Window0

section Window1

variable (W : Valuation τ sig (Elt F))

set_option maxRecDepth 8192 in
set_option maxHeartbeats 1000000 in
/-- After the second window the second view's projected encoding is in its buffer: the encoder on the second features,
    with the normalisation the first window left, then the projection layer. -/
theorem w1_proj : after ops1 W (main_v100 : DevRef τ sig)
    = Spec.lin (Spec.enc (W (main_arg1 : DevRef τ sig)) (W (main_v6 : DevRef τ sig)) (W (main_arg8 : DevRef τ sig))
        (W (main_arg9 : DevRef τ sig)) (W (main_arg2 : DevRef τ sig)) (W (main_arg3 : DevRef τ sig))
        (W (main_arg4 : DevRef τ sig)) (W (main_arg5 : DevRef τ sig))) (W (main_arg6 : DevRef τ sig)) (W (main_arg7 : DevRef τ sig)) := by
  after_results_simp
  rfl

set_option maxRecDepth 8192 in
set_option maxHeartbeats 1000000 in
/-- After the second window the first logit is in its buffer: the projection of the encoding the first window left, summed. -/
theorem w1_logit : after ops1 W (main_v101 : DevRef τ sig)
    = Spec.logit (W (main_v49 : DevRef τ sig)) (W (main_arg6 : DevRef τ sig)) (W (main_arg7 : DevRef τ sig)) := by
  after_results_simp
  rfl

set_option maxRecDepth 8192 in
set_option maxHeartbeats 1000000 in
/-- After the second window the zero the second logit's sum starts from is in its buffer. -/
theorem w1_zero : after ops1 W (main_cst_15 : DevRef τ sig) = constant S_ .f32 0x00000000#32 := by
  after_results_simp

set_option maxRecDepth 8192 in
set_option maxHeartbeats 1000000 in
/-- The second window leaves the labels' buffer as it was. -/
theorem w1_labels : after ops1 W (main_cst : DevRef τ sig) = W (main_cst : DevRef τ sig) := by
  after_results_simp

set_option maxRecDepth 8192 in
set_option maxHeartbeats 4000000 in
/-- The second window writes no argument buffer. -/
theorem w1_arg (b : Ref sig .tc) (hb : b ∈ argRefs) : after ops1 W (b : DevRef τ sig) = W (b : DevRef τ sig) := by
  simp only [argRefs, List.mem_cons, List.mem_nil_iff, or_false] at hb
  rcases hb with rfl | rfl | rfl | rfl | rfl | rfl | rfl | rfl | rfl | rfl <;> after_results_simp

end Window1

section Window2

variable (X : Valuation τ sig (Elt F))

set_option maxRecDepth 8192 in
set_option maxHeartbeats 1000000 in
/-- After the third window the result buffer holds the mean binary cross-entropy of the first logit and of the sum of the
    second view's projected encoding, against the labels' buffer. The two logits enter through a concatenation, so each
    operation's result is rewritten in turn at its own buffer, inside the concatenation's operands as well. -/
theorem w2_loss : after ops2 X (main_v116 : DevRef τ sig)
    = Spec.bce (X (main_v101 : DevRef τ sig))
        (Host.reduceAdd (X (main_v100 : DevRef τ sig)) (X (main_cst_15 : DevRef τ sig)) reducesTo_S100000x128_S_d0_1 h_S_)
        (X (main_cst : DevRef τ sig)) := by
  after_results
  rfl

set_option maxRecDepth 8192 in
set_option maxHeartbeats 4000000 in
/-- The third window writes no argument buffer. -/
theorem w2_arg (b : Ref sig .tc) (hb : b ∈ argRefs) : after ops2 X (b : DevRef τ sig) = X (b : DevRef τ sig) := by
  simp only [argRefs, List.mem_cons, List.mem_nil_iff, or_false] at hb
  rcases hb with rfl | rfl | rfl | rfl | rfl | rfl | rfl | rfl | rfl | rfl <;> after_results_simp

end Window2

/-! ## The whole program -/

section Whole

variable (V : Valuation τ sig (Elt F))

/-- The contents after @main: the third window's, from the second's, from the first's. -/
theorem after_ops : after ops V = after ops2 (after ops1 (after ops0 V)) := by
  rw [ops, after_two_lines, after_two_lines]

/-- @main writes no argument buffer: no window does. -/
theorem arg_eq (b : Ref sig .tc) (hb : b ∈ argRefs) : after ops V (b : DevRef τ sig) = V (b : DevRef τ sig) := by
  rw [after_ops, w2_arg _ b hb, w1_arg _ b hb, w0_arg _ b hb]

/-- After @main the result buffer holds the reference's result of the ten arguments: the third window's loss, of what
    the second window left, of what the first window left; the second logit is the sum of the second view's projected
    encoding from zero, which is how the logit is defined. -/
theorem result_eq : after ops V (main_v116 : DevRef τ sig)
    = Spec.result (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg6 : DevRef τ sig)) (V (main_arg7 : DevRef τ sig)) (V (main_arg8 : DevRef τ sig))
        (V (main_arg9 : DevRef τ sig)) := by
  rw [after_ops, w2_loss, w1_logit, w1_proj, w1_zero, w1_labels, w0_enc, w0_norm, w0_labels,
    w0_arg V main_arg1 (by decide), w0_arg V main_arg2 (by decide), w0_arg V main_arg3 (by decide),
    w0_arg V main_arg4 (by decide), w0_arg V main_arg5 (by decide), w0_arg V main_arg6 (by decide),
    w0_arg V main_arg7 (by decide), w0_arg V main_arg8 (by decide), w0_arg V main_arg9 (by decide)]
  rfl

end Whole

/-- The reference program's run: every weakly fair execution terminates with the result buffer at `Spec.result` of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116)
        = Cert.Bridge.Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v116).trans (result_eq (launchContents m c)),
        (h c main_arg0).trans (arg_eq (launchContents m c) main_arg0 (by decide)),
        (h c main_arg1).trans (arg_eq (launchContents m c) main_arg1 (by decide)),
        (h c main_arg2).trans (arg_eq (launchContents m c) main_arg2 (by decide)),
        (h c main_arg3).trans (arg_eq (launchContents m c) main_arg3 (by decide)),
        (h c main_arg4).trans (arg_eq (launchContents m c) main_arg4 (by decide)),
        (h c main_arg5).trans (arg_eq (launchContents m c) main_arg5 (by decide)),
        (h c main_arg6).trans (arg_eq (launchContents m c) main_arg6 (by decide)),
        (h c main_arg7).trans (arg_eq (launchContents m c) main_arg7 (by decide)),
        (h c main_arg8).trans (arg_eq (launchContents m c) main_arg8 (by decide)),
        (h c main_arg9).trans (arg_eq (launchContents m c) main_arg9 (by decide))⟩)
    (run_main m ρ)

end Cert.Bridge.Ref

end
-- ==== Proof.IdxSpec.lean ====
/-
  What each kind of kernel region leaves in its output array, index by index, on the extended reals
  (N = 100000 rows, 128 columns):

    scaleG x n2          (i, j) ↦ x (i, j) · n2 (i, 0)
    mmG act s h n2 W b2  (i, j) ↦ [max · 0 when act] (Σ_k ((s (i, k) + h (i, k)) · n2 (i, 0)) · W (k, j) + b2 (0, j))
    colsumG h            (0, j) ↦ Σ_i h (i, j)
-/
import Idealize.ShloMosaic.Lib.ValueIdx
import Idealize.ShloMosaic.PureOps.Ideal

noncomputable section

namespace Cert.Bridge.Idx

open Idealize.ShloMosaic Idealize.ShloMosaic.ValueIdx

/-- Node features: 100000 rows of 128. -/
abbrev SN : Shape := ⟨2, ![100000, 128]⟩
/-- A column over the nodes. -/
abbrev SC : Shape := ⟨2, ![100000, 1]⟩
/-- A weight matrix. -/
abbrev SW : Shape := ⟨2, ![128, 128]⟩
/-- A row of 128. -/
abbrev SB : Shape := ⟨2, ![1, 128]⟩

/-- Each row of `x` scaled by its entry of the column `n2`. -/
def scaleG (x : SN.Idx → EReal) (n2 : SC.Idx → EReal) : SN.Idx → EReal :=
  fun i => x i * n2 (ix2 (n0 := 100000) (n1 := 1) (i 0) 0)

/-- The dense layer's input: the aggregate plus the self term, scaled by the column. -/
def mmPre (s h : SN.Idx → EReal) (n2 : SC.Idx → EReal) : SN.Idx → EReal :=
  fun i => (s i + h i) * n2 (ix2 (n0 := 100000) (n1 := 1) (i 0) 0)

/-- The dense layer: the scaled aggregate times `W` plus the bias row, with the positive part taken when `act`. -/
def mmG (act : Bool) (s h : SN.Idx → EReal) (n2 : SC.Idx → EReal) (W : SW.Idx → EReal) (b2 : SB.Idx → EReal) : SN.Idx → EReal :=
  fun i =>
    let v := (∑ k : Fin 128, mmPre s h n2 (ix2 (n0 := 100000) (n1 := 128) (i 0) k) * W (ix2 (n0 := 128) (n1 := 128) k (i 1)))
      + b2 (ix2 (n0 := 1) (n1 := 128) 0 (i 1))
    if act then max v 0 else v

/-- The column sums of `h`, as a row. -/
def colsumG (h : SN.Idx → EReal) : SB.Idx → EReal :=
  fun j => ∑ i : Fin 100000, h (ix2 (n0 := 100000) (n1 := 128) i (j 1))

end Cert.Bridge.Idx

end
-- ==== Proof.KSpec.lean ====
/-
  The kernel program's computation between and after its ten regions, as named functions in the kernel program's own
  host operations and shapes; the regions themselves enter as the index-level functions `scaleG`, `mmG`, `colsumG`.

    norm dst        = rsqrt (deg + 1)                       col n = n as a column;  row b = b as a row;  flat v = a row as a vector
    take h src      = the rows h[src e], a row of the fill pattern where the (wrapped) index is outside 0 … 99999
    layer act x …   = mmG act (segment_sum (take (scaleG x n2) src) dst) (scaleG x n2) n2 W b2
    enc x …         = layer false (layer true x … W1 b1) … W2 b2
    logit v Wp bp   = Σ_k v k · (Σ_j Wp (k, j)) + 100000 · Σ_j bp j,   v the column sums of the encoding
    bce s1 s2       = the mean over the two logits of max(s, 0) − s · label + log1p (exp (−|s|))
-/
import proofs.«405684_j1614907703322_1_alg».proof.KernelIdeal
import proofs.«405684_j1614907703322_1_alg».proof.Proof.Gen.KernelIdeal
import proofs.«405684_j1614907703322_1_alg».proof.Proof.IdxSpec

noncomputable section

namespace Cert.Bridge.K

open Idealize.ShloMosaic Idealize.ShloMosaic.TcCoe Cert.KernelIdeal Cert.KernelIdeal.Gen Cert.Bridge.Idx

section Ops

variable {F : FTy → Type} [FloatOps F]

/-- An array of floats of shape `s`. -/
abbrev Arr (s : Shape) := (⟨s, .f32⟩ : BufTy).Contents (Elt F)
/-- An array of 32-bit integers of shape `s`. -/
abbrev IArr (s : Shape) := (⟨s, .i32⟩ : BufTy).Contents (Elt F)
/-- An array of truth values of shape `s`. -/
abbrev BArr (s : Shape) := (⟨s, .i1⟩ : BufTy).Contents (Elt F)

/-- The symmetric normalisation: the reciprocal square root of the in-degree plus one. -/
def norm (dst : IArr (F := F) S1600000) : Arr (F := F) S100000 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- A vector over the nodes as a column. -/
def col (n : Arr (F := F) S100000) : Arr (F := F) S100000x1 := shapeCast S100000x1 n shapeCasts_S100000_S100000x1
/-- A bias vector as a row. -/
def row (b : Arr (F := F) S128) : Arr (F := F) S1x128 := shapeCast S1x128 b shapeCasts_S128_S1x128
/-- A row as a vector. -/
def flat (v : Arr (F := F) S1x128) : Arr (F := F) S128 := shapeCast S128 v shapeCasts_S1x128_S128

/-- The source indices with a negative index counted from the end, as a column of start indices. -/
def widx (src : IArr (F := F) S1600000) : IArr (F := F) S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: is the wrapped source index inside 0 … 99999? -/
def inb (src : IArr (F := F) S1600000) : BArr (F := F) S1600000 :=
  Host.reduce IntOp.andi
    (andi (cmpi .sge (widx src) (broadcastInDim S1600000x1 ![] bcast_S_S1600000x1 (constantI S_ 32 0#32)))
      (cmpi .sle (widx src) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of `h` the edges start from; the fill pattern where the index is out of range. -/
def take (h : Arr (F := F) S100000x128) (src : IArr (F := F) S1600000) : Arr (F := F) S1600000x128 :=
  select (broadcastInDim S1600000x128 ![0] bcast_S1600000_S1600000x128_0 (inb src))
    (Host.gather gather_S100000x128_S1600000x1_S1600000x128_1_0_n_n_0_1_1128 h (widx src))
    (broadcastInDim S1600000x128 ![] bcast_S_S1600000x128 (constant S_ .f32 0x7FC00000#32))

/-- The sum, per destination node, of the edge rows `u`. -/
def segsum (u : Arr (F := F) S1600000x128) (dst : IArr (F := F) S1600000) : Arr (F := F) S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) u

/-- One view's logit from the column sums `v` of its encoding. -/
def logit (v : Arr (F := F) S1x128) (Wp : Arr (F := F) S128x128) (bp : Arr (F := F) S128) : Arr (F := F) S_ :=
  addf
    (Host.reduceAdd (mulf (flat v) (Host.reduceAdd Wp (constant S_ .f32 0x00000000#32) reducesTo_S128x128_S128_d1 h_S_))
      (constant S_ .f32 0x00000000#32) reducesTo_S128_S_d0 h_S_)
    (mulf (constant S_ .f32 0x47C35000#32) (Host.reduceAdd bp (constant S_ .f32 0x00000000#32) reducesTo_S128_S_d0 h_S_))

/-- The mean binary cross-entropy of the two logits against the labels `lbl`. -/
def bce (s1 s2 : Arr (F := F) S_) (lbl : Arr (F := F) S2) : Arr (F := F) S_ :=
  let z : Arr (F := F) S2 := concatenate S2 0 [⟨S1, broadcastInDim S1 ![] bcast_S_S1 s1⟩, ⟨S1, broadcastInDim S1 ![] bcast_S_S1 s2⟩] concatenates_S1_S1_S2_d0
  Host.divf
    (Host.reduceAdd
      (addf (subf (maximumf z (broadcastInDim S2 ![] bcast_S_S2 (constant S_ .f32 0x00000000#32))) (mulf z lbl))
        (Host.log1p (Host.exp (Host.negf (Host.absf z)))))
      (constant S_ .f32 0x00000000#32) reducesTo_S2_S_d0 h_S_)
    (constant S_ .f32 0x40000000#32)

/-- The labels (1, 0). -/
def labels : Arr (F := F) S2 := fun i => FloatOps.ofBits .f32 (lit0 (S2.rowMajor i))

end Ops

/-- One graph-convolution layer: a scale region, the gather and the segment sum on the host, a dense region. -/
def layer (act : Bool) (x : Arr (F := Ideal) S100000x128) (n2 : Arr (F := Ideal) S100000x1) (src dst : IArr (F := Ideal) S1600000) (W : Arr (F := Ideal) S128x128) (b2 : Arr (F := Ideal) S1x128) : Arr (F := Ideal) S100000x128 :=
  mmG act (segsum (F := Ideal) (take (F := Ideal) (scaleG x n2) src) dst) (scaleG x n2) n2 W b2

/-- The two-layer encoder. -/
def enc (x : Arr (F := Ideal) S100000x128) (n2 : Arr (F := Ideal) S100000x1) (src dst : IArr (F := Ideal) S1600000) (W1 : Arr (F := Ideal) S128x128) (b1 : Arr (F := Ideal) S128) (W2 : Arr (F := Ideal) S128x128) (b2 : Arr (F := Ideal) S128) : Arr (F := Ideal) S100000x128 :=
  layer false (layer true x n2 src dst W1 (row (F := Ideal) b1)) n2 src dst W2 (row (F := Ideal) b2)

/-- The kernel program's result as a function of its ten arguments. -/
def result (x1 x2 : Arr (F := Ideal) S100000x128) (W1 : Arr (F := Ideal) S128x128) (b1 : Arr (F := Ideal) S128) (W2 : Arr (F := Ideal) S128x128) (b2 : Arr (F := Ideal) S128)
    (Wp : Arr (F := Ideal) S128x128) (bp : Arr (F := Ideal) S128) (src dst : IArr (F := Ideal) S1600000) : Arr (F := Ideal) S_ :=
  bce (F := Ideal) (logit (F := Ideal) (colsumG (enc x1 (col (F := Ideal) (norm (F := Ideal) dst)) src dst W1 b1 W2 b2)) Wp bp)
    (logit (F := Ideal) (colsumG (enc x2 (col (F := Ideal) (norm (F := Ideal) dst)) src dst W1 b1 W2 b2)) Wp bp) (labels (F := Ideal))

end Cert.Bridge.K

end
-- ==== Proof.Chain0.lean ====
import proofs.«405684_j1614907703322_1_alg».proof.Proof.Gen.KernelIdeal.Frame
import proofs.«405684_j1614907703322_1_alg».proof.Proof.KSpec

set_option maxRecDepth 16384

noncomputable section

namespace Cert.Bridge.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

/-! ## The first host stretch over arbitrary entry contents

The stretch is twelve operations: the labels constant; a vector of ones over the edges, a vector of zeros over the
nodes, the destination indices as a column, and the scatter-add of the ones into the zeros along the destinations (the
in-degree); a vector of ones over the nodes added to it; the reciprocal square root; the reshape to a column. Each
operation writes one buffer of its own, so what a buffer holds afterwards is read off the list: the last operation that
writes it, applied to what its operand buffers held. -/

section Stretch

variable (X : Valuation τ sig (Elt Ideal))

/-- The twelve buffers the first host stretch writes, in order. -/
def written0 : List (Ref sig .tc) :=
  [main_cst, main_cst_0, main_v0, main_cst_1, main_v1, main_v2, main_v3, main_cst_2, main_v4, main_v5, main_v6, main_v7]

/-- Every operation of the stretch writes a buffer of that list. -/
theorem hostOps0_writes_sub :
    (hostOps0 : List (HloOp τ sig (Elt Ideal))).Forall fun op =>
      op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list is left as the stretch found it. -/
theorem after0_of_not_written (b : Ref sig .tc) (hb : b ∉ written0) :
    StableHlo.after hostOps0 X (Proc.devRef .tc b) = X (Proc.devRef .tc b) :=
  StableHlo.after_of_writes_sub hostOps0 X hostOps0_writes_sub hb

/-- The column buffer ends at: the reshape of the reciprocal square root of (the scatter-added ones plus one), over the
    destination indices the stretch found in the last argument: the normalisation as a column. -/
theorem after0_v7 :
    StableHlo.after hostOps0 X (Proc.devRef .tc main_v7) = K.col (K.norm (X (Proc.devRef .tc main_arg9))) := by
  unfold hostOps0 K.col K.norm
  after_results
  first | rfl | fail "the two spellings of the column differ"

/-- The labels buffer is written once, by the first operation, with the labels constant. -/
theorem after0_cst : StableHlo.after hostOps0 X (Proc.devRef .tc main_cst) = K.labels := by
  unfold hostOps0 K.labels
  after_results
  rfl

end Stretch

variable (m : (ℓ : Loc nD τ sig) → Buf (Elt Ideal) ℓ) (ρ : Dev nD → PrngReg) (c : Dev nD)

/-- After the first host stretch the normalisation column is in place. -/
theorem W1_v7 : W1 m ρ c (Proc.devRef .tc main_v7) = K.col (K.norm (m ((c : Thread nD τ).loc main_arg9))) :=
  after0_v7 (W0 m ρ c)
/-- … and so are the labels. -/
theorem W1_cst : W1 m ρ c (Proc.devRef .tc main_cst) = K.labels :=
  after0_cst (W0 m ρ c)
theorem W1_arg0 : W1 m ρ c (Proc.devRef .tc main_arg0) = m ((c : Thread nD τ).loc main_arg0) :=
  after0_of_not_written (W0 m ρ c) main_arg0 (by decide)
theorem W1_arg1 : W1 m ρ c (Proc.devRef .tc main_arg1) = m ((c : Thread nD τ).loc main_arg1) :=
  after0_of_not_written (W0 m ρ c) main_arg1 (by decide)
theorem W1_arg2 : W1 m ρ c (Proc.devRef .tc main_arg2) = m ((c : Thread nD τ).loc main_arg2) :=
  after0_of_not_written (W0 m ρ c) main_arg2 (by decide)
theorem W1_arg3 : W1 m ρ c (Proc.devRef .tc main_arg3) = m ((c : Thread nD τ).loc main_arg3) :=
  after0_of_not_written (W0 m ρ c) main_arg3 (by decide)
theorem W1_arg4 : W1 m ρ c (Proc.devRef .tc main_arg4) = m ((c : Thread nD τ).loc main_arg4) :=
  after0_of_not_written (W0 m ρ c) main_arg4 (by decide)
theorem W1_arg5 : W1 m ρ c (Proc.devRef .tc main_arg5) = m ((c : Thread nD τ).loc main_arg5) :=
  after0_of_not_written (W0 m ρ c) main_arg5 (by decide)
theorem W1_arg6 : W1 m ρ c (Proc.devRef .tc main_arg6) = m ((c : Thread nD τ).loc main_arg6) :=
  after0_of_not_written (W0 m ρ c) main_arg6 (by decide)
theorem W1_arg7 : W1 m ρ c (Proc.devRef .tc main_arg7) = m ((c : Thread nD τ).loc main_arg7) :=
  after0_of_not_written (W0 m ρ c) main_arg7 (by decide)
theorem W1_arg8 : W1 m ρ c (Proc.devRef .tc main_arg8) = m ((c : Thread nD τ).loc main_arg8) :=
  after0_of_not_written (W0 m ρ c) main_arg8 (by decide)
theorem W1_arg9 : W1 m ρ c (Proc.devRef .tc main_arg9) = m ((c : Thread nD τ).loc main_arg9) :=
  after0_of_not_written (W0 m ρ c) main_arg9 (by decide)

end Cert.Bridge.Chain

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.RegScale0.lean ====
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The body's product at an index: the row's entry times the column's entry of that row. -/
theorem scale_payload0 (x : Vec Ideal S5000x128 .f32) (n : Vec Ideal S5000x1 .f32) (p : Fin 5000) (q : Fin 128) :
    k0_pay1 x n (ix2 p q) = x (ix2 p q) * n (ix2 p (0 : Fin 1)) := by
  unfold k0_pay1
  rw [mulf_apply, Keepdims.broadcastTo_a1_ab_apply]
  simp only [shapeCast_self]

/-- A whole-buffer access starts at the zero offsets. -/
theorem zero_offsets0 : (![0, 0] : Fin 2 → Nat) = fun _ => 0 := funext fun a => by fin_cases a <;> rfl

/-- The three windows' block indices, decided over the twenty points: block `t` on the rows, block 0 on the columns. -/
theorem block_indices0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the rows scaled by the column: the three windows sit on the same rows. -/
theorem scale_flushed0 (t : Fin cfg0.N) :
    (dat0 (F := Ideal) V c).flushed 2 t = ((cfg0.win 2).blk t).view.read (Elt Ideal) (scaleG (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets0]
  simp only [View.ld_unit_zero (S := S5000x128) zero_offsets0, View.ld_unit_zero (S := S5000x1) zero_offsets0]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = scaleG (V c (Pipeline.arrRef spec0 0)) (V c (Pipeline.arrRef spec0 1)) (((cfg0.win 2).blk t).view.emb (ix2 p q))
  refine (scale_payload0 (iblk0 V c 0 t) (iblk0 V c 1 t) p q).trans ?_
  obtain ⟨e00, e01, e10, e11, e20, e21⟩ := block_indices0 t
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1)) = ix2 (n0 := 100000) (n1 := 1) ((((cfg0.win 2).blk t).view.emb (ix2 p q)) 0) 0 := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  unfold iblk0 scaleG
  rw [View.read_apply, View.read_apply, h0, h1]
  rfl

/-- An index of the output array lies in point `t`'s block iff, on each axis, its coordinate is in the block's range. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole win0_2.arr.view.ref).slice (win0_2.rect t)).set ↔ _
  rw [View.set_slice_whole, Rect.mem_set_unit]
  exact Iff.rfl

/-- The twenty row blocks fill the output array: row `r` is in the block of point `r / 5000`. -/
theorem blocks_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e20, e21⟩ := block_indices0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 (rows scaled by the column): after its twenty points the output array is `scaleG` of the two input arrays. -/
theorem scale0_final : (dat0 (F := Ideal) V c).arrAt 2 cfg0.N = scaleG (V c (Pipeline.arrRef spec0 0)) (V c (Pipeline.arrRef spec0 1)) := by
  exact (dat0 (F := Ideal) V c).arrAt_eq_of_cover 2 (scaleG (V c (Pipeline.arrRef spec0 0)) (V c (Pipeline.arrRef spec0 1)))
    (fun t _ => scale_flushed0 V c t) blocks_cover0

end Cert.Bridge.Reg

end
-- ==== Proof.RegScale2.lean ====
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The body's product at an index: the row's entry times the column's entry of that row. -/
theorem scale_payload2 (x : Vec Ideal S5000x128 .f32) (n : Vec Ideal S5000x1 .f32) (p : Fin 5000) (q : Fin 128) :
    k2_pay1 x n (ix2 p q) = x (ix2 p q) * n (ix2 p (0 : Fin 1)) := by
  unfold k2_pay1
  rw [mulf_apply, Keepdims.broadcastTo_a1_ab_apply]
  simp only [shapeCast_self]

/-- A whole-buffer access starts at the zero offsets. -/
theorem zero_offsets2 : (![0, 0] : Fin 2 → Nat) = fun _ => 0 := funext fun a => by fin_cases a <;> rfl

/-- The three windows' block indices, decided over the twenty points: block `t` on the rows, block 0 on the columns. -/
theorem block_indices2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the rows scaled by the column: the three windows sit on the same rows. -/
theorem scale_flushed2 (t : Fin cfg2.N) :
    (dat2 (F := Ideal) V c).flushed 2 t = ((cfg2.win 2).blk t).view.read (Elt Ideal) (scaleG (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_offsets2]
  simp only [View.ld_unit_zero (S := S5000x128) zero_offsets2, View.ld_unit_zero (S := S5000x1) zero_offsets2]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = scaleG (V c (Pipeline.arrRef spec2 0)) (V c (Pipeline.arrRef spec2 1)) (((cfg2.win 2).blk t).view.emb (ix2 p q))
  refine (scale_payload2 (iblk2 V c 0 t) (iblk2 V c 1 t) p q).trans ?_
  obtain ⟨e00, e01, e10, e11, e20, e21⟩ := block_indices2 t
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ix2 p (0 : Fin 1)) = ix2 (n0 := 100000) (n1 := 1) ((((cfg2.win 2).blk t).view.emb (ix2 p q)) 0) 0 := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  unfold iblk2 scaleG
  rw [View.read_apply, View.read_apply, h0, h1]
  rfl

/-- An index of the output array lies in point `t`'s block iff, on each axis, its coordinate is in the block's range. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole win2_2.arr.view.ref).slice (win2_2.rect t)).set ↔ _
  rw [View.set_slice_whole, Rect.mem_set_unit]
  exact Iff.rfl

/-- The twenty row blocks fill the output array: row `r` is in the block of point `r / 5000`. -/
theorem blocks_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, e20, e21⟩ := block_indices2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2 (rows scaled by the column): after its twenty points the output array is `scaleG` of the two input arrays. -/
theorem scale2_final : (dat2 (F := Ideal) V c).arrAt 2 cfg2.N = scaleG (V c (Pipeline.arrRef spec2 0)) (V c (Pipeline.arrRef spec2 1)) := by
  exact (dat2 (F := Ideal) V c).arrAt_eq_of_cover 2 (scaleG (V c (Pipeline.arrRef spec2 0)) (V c (Pipeline.arrRef spec2 1)))
    (fun t _ => scale_flushed2 V c t) blocks_cover2

end Cert.Bridge.Reg

end
-- ==== Proof.MMCore.lean ====
/-
  The dense-layer kernel body on one block, read at an index of the block, on the extended reals.

  On a block of 5000 rows the body forms (x0 + x1) * x2 (the column x2 broadcast along the rows), multiplies it by
  the 128 x 128 matrix x3 into a zero accumulator, and adds the row x4 (broadcast down the rows). A change of float
  format is the identity on the extended reals, so at row p and column q the block reads

      sum over k < 128 of ((x0 (p, k) + x1 (p, k)) * x2 (p, 0)) * x3 (k, q)   +   x4 (0, q).

  The layer with the positive part takes the maximum of that with zero. When each loaded block is the matching block
  of its array (row blocks of 5000 rows for the three tall arrays, the whole array for the matrix and the bias row),
  that is the whole-array dense layer `mmG` at the array index of the same row and column.
-/
import proofs.«405684_j1614907703322_1_alg».proof.Proof.Gen.KernelIdeal.Skeleton
import proofs.«405684_j1614907703322_1_alg».proof.Proof.LibKeepdims
import proofs.«405684_j1614907703322_1_alg».proof.Proof.IdxSpec
import Idealize.ShloMosaic.Lib.ValueLayout

set_option maxRecDepth 16384

noncomputable section

namespace Cert.Bridge.MM

open Idealize.ShloMosaic Idealize.ShloMosaic.ValueIdx Idealize.SL.Sem
open Cert.KernelIdeal Cert.KernelIdeal.Gen Cert.Bridge.Idx

/-- The left operand's row is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- The right operand's row is the contraction position. -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

/-- The right operand's column is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a block of 5000 rows with the matrix, into a zero accumulator, read at row `p` and column `q`:
    the row of the left operand against the column of the right. -/
theorem product_apply {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- The body before the positive part, as one term of the five loaded blocks. -/
def dense (x0 x1 : Vec Ideal S5000x128 .f32) (x2 : Vec Ideal S5000x1 .f32) (x3 : Vec Ideal S128x128 .f32) (x4 : Vec Ideal S1x128 .f32) :
    FVec Ideal S5000x128 .f32 :=
  addf
    (matmul dot_S5000x128_S128x128_S5000x128_1_0_0_1_n_n none
      (truncf .bf16 (mulf (addf (shapeCast S5000x128 x0 shapeCasts_S5000x128_S5000x128) (shapeCast S5000x128 x1 shapeCasts_S5000x128_S5000x128))
        (broadcastTo S5000x128 (shapeCast S5000x1 x2 shapeCasts_S5000x1_S5000x1) broadcasts_S5000x1_S5000x128)) bitsLt_bf16_f32)
      (truncf .bf16 x3 bitsLt_bf16_f32)
      (constant S5000x128 .f32 0x00000000#32))
    (broadcastTo S5000x128 (shapeCast S1x128 x4 shapeCasts_S1x128_S1x128) broadcasts_S1x128_S5000x128)

/-- The body before the positive part at row `p`, column `q` of the block. -/
theorem dense_apply (x0 x1 : Vec Ideal S5000x128 .f32) (x2 : Vec Ideal S5000x1 .f32) (x3 : Vec Ideal S128x128 .f32) (x4 : Vec Ideal S1x128 .f32)
    (p : Fin 5000) (q : Fin 128) :
    dense x0 x1 x2 x3 x4 (ix2 p q)
      = (∑ k : Fin 128, ((x0 (ix2 p k) + x1 (ix2 p k)) * x2 (ix2 p (0 : Fin 1))) * x3 (ix2 k q)) + x4 (ix2 (0 : Fin 1) q) := by
  unfold dense
  simp only [shapeCast_self]
  rw [addf_apply, product_apply, broadcastTo_1b_ab_apply]
  refine congrArg (· + x4 (ix2 (0 : Fin 1) q)) (Finset.sum_congr rfl fun k _ => ?_)
  rw [truncf_apply, truncf_apply, mulf_apply, addf_apply, Keepdims.broadcastTo_a1_ab_apply]

/-- The body with the positive part at row `p`, column `q` of the block. -/
theorem dense_pos_apply (x0 x1 : Vec Ideal S5000x128 .f32) (x2 : Vec Ideal S5000x1 .f32) (x3 : Vec Ideal S128x128 .f32) (x4 : Vec Ideal S1x128 .f32)
    (p : Fin 5000) (q : Fin 128) :
    maximumf (dense x0 x1 x2 x3 x4) (broadcast S5000x128 (Scalar.ofBits (F := Ideal) .f32 0x00000000#32)) (ix2 p q)
      = max ((∑ k : Fin 128, ((x0 (ix2 p k) + x1 (ix2 p k)) * x2 (ix2 p (0 : Fin 1))) * x3 (ix2 k q)) + x4 (ix2 (0 : Fin 1) q)) 0 := by
  rw [maximumf_apply, dense_apply, broadcast_apply]
  exact congrArg (max _) Ideal.ofBits_zero_f32

/-- One block of the dense layer is the same block of the whole-array layer: if each loaded block is the matching
    block of its array (rows `T * 5000 + p` for the three row-blocked arrays, the whole array for the matrix and the
    bias row), then the body before the positive part at a block index is `mmG false` of the arrays at the array index
    with the same column and that row. -/
theorem dense_block (x0 x1 : Vec Ideal S5000x128 .f32) (x2 : Vec Ideal S5000x1 .f32) (x3 : Vec Ideal S128x128 .f32) (x4 : Vec Ideal S1x128 .f32)
    (s h : SN.Idx → EReal) (n2 : SC.Idx → EReal) (W : SW.Idx → EReal) (b2 : SB.Idx → EReal) (T : ℕ)
    (h0 : ∀ (y : S5000x128.Idx) (i : SN.Idx), (i 0).val = T * 5000 + (y 0).val → (i 1).val = (y 1).val → x0 y = s i)
    (h1 : ∀ (y : S5000x128.Idx) (i : SN.Idx), (i 0).val = T * 5000 + (y 0).val → (i 1).val = (y 1).val → x1 y = h i)
    (h2 : ∀ (y : S5000x1.Idx) (i : SC.Idx), (i 0).val = T * 5000 + (y 0).val → x2 y = n2 i)
    (h3 : ∀ y : S128x128.Idx, x3 y = W y) (h4 : ∀ y : S1x128.Idx, x4 y = b2 y)
    (y : S5000x128.Idx) (i : SN.Idx) (hi0 : (i 0).val = T * 5000 + (y 0).val) (hi1 : (i 1).val = (y 1).val) :
    dense x0 x1 x2 x3 x4 y = mmG false s h n2 W b2 i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q = q' := (Fin.ext hi1).symm
  have hr : r.val = T * 5000 + p.val := hi0
  rw [dense_apply]
  show _ = (∑ k : Fin 128, mmPre s h n2 (ix2 r k) * W (ix2 k q)) + b2 (ix2 (0 : Fin 1) q)
  rw [h4]
  refine congrArg (· + b2 (ix2 (0 : Fin 1) q)) (Finset.sum_congr rfl fun k _ => ?_)
  rw [h0 (ix2 p k) (ix2 r k) hr rfl, h1 (ix2 p k) (ix2 r k) hr rfl, h2 (ix2 p (0 : Fin 1)) (ix2 r (0 : Fin 1)) hr, h3]
  rfl

/-- The same with the positive part. -/
theorem dense_pos_block (x0 x1 : Vec Ideal S5000x128 .f32) (x2 : Vec Ideal S5000x1 .f32) (x3 : Vec Ideal S128x128 .f32) (x4 : Vec Ideal S1x128 .f32)
    (s h : SN.Idx → EReal) (n2 : SC.Idx → EReal) (W : SW.Idx → EReal) (b2 : SB.Idx → EReal) (T : ℕ)
    (h0 : ∀ (y : S5000x128.Idx) (i : SN.Idx), (i 0).val = T * 5000 + (y 0).val → (i 1).val = (y 1).val → x0 y = s i)
    (h1 : ∀ (y : S5000x128.Idx) (i : SN.Idx), (i 0).val = T * 5000 + (y 0).val → (i 1).val = (y 1).val → x1 y = h i)
    (h2 : ∀ (y : S5000x1.Idx) (i : SC.Idx), (i 0).val = T * 5000 + (y 0).val → x2 y = n2 i)
    (h3 : ∀ y : S128x128.Idx, x3 y = W y) (h4 : ∀ y : S1x128.Idx, x4 y = b2 y)
    (y : S5000x128.Idx) (i : SN.Idx) (hi0 : (i 0).val = T * 5000 + (y 0).val) (hi1 : (i 1).val = (y 1).val) :
    maximumf (dense x0 x1 x2 x3 x4) (broadcast S5000x128 (Scalar.ofBits (F := Ideal) .f32 0x00000000#32)) y = mmG true s h n2 W b2 i := by
  rw [maximumf_apply, dense_block x0 x1 x2 x3 x4 s h n2 W b2 T h0 h1 h2 h3 h4 y i hi0 hi1, broadcast_apply]
  show max (mmG false s h n2 W b2 i) (Ideal.ofBits .f32 0x00000000#32) = mmG true s h n2 W b2 i
  rw [Ideal.ofBits_zero_f32]
  rfl

end Cert.Bridge.MM

end
-- ==== Proof.RegMM1.lean ====
/-
  Region 1 of the kernel program (the dense layer with the positive part): what its output array holds after the twenty grid
  points, as one function of its five input arrays.

  The region walks the 100000 rows in twenty blocks of 5000. At point t it loads rows 5000 t … 5000 t + 4999 of the
  aggregate, of the self term and of the scaling column, the whole 128 x 128 matrix and the whole bias row, computes the
  dense layer on that block, and writes the result back to the same rows of the output. Every loaded block is the
  matching block of its array, so the block written at point t is block t of the whole-array dense layer `mmG true`;
  the twenty blocks tile the output array (row r lies in block r / 5000), hence the array is `mmG true` of the inputs.
-/
import proofs.«405684_j1614907703322_1_alg».proof.Proof.Gen.KernelIdeal.Frame
import proofs.«405684_j1614907703322_1_alg».proof.Proof.IdxSpec
import proofs.«405684_j1614907703322_1_alg».proof.Proof.LibKeepdims
import proofs.«405684_j1614907703322_1_alg».proof.Proof.MMCore

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The offsets of a whole-block access, however the zeros are spelt. -/
theorem zero_offsets1 : (![0, 0] : Fin 2 → Nat) = fun _ => 0 := funext fun a => by fin_cases a <;> rfl

/-- The windows' block indices over the grid: the three tall inputs and the output move down one row block per point;
    the matrix and the bias row stay at their one block. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `5000 t … 5000 t + 4999` of its array. -/
theorem aggregate_block1 (t : Fin cfg1.N) (y : S5000x128.Idx) (i : SN.Idx) (hi0 : (i 0).val = t.val * 5000 + (y 0).val) (hi1 : (i 1).val = (y 1).val) :
    (iblk1 V c 0 t : Vec Ideal S5000x128 .f32) y = (V c (Pipeline.arrRef spec1 0) : SN.Idx → EReal) i := by
  obtain ⟨e0, e1, -⟩ := block_indices1 t
  unfold iblk1
  rw [View.read_apply]
  refine congrArg (V c (Pipeline.arrRef spec1 0)) (funext fun a => Fin.ext ?_)
  match a with
  | ⟨0, _⟩ => show win1_0.index t 0 * 5000 + 1 * (y 0).val = (i 0).val; omega
  | ⟨1, _⟩ => show win1_0.index t 1 * 128 + 1 * (y 1).val = (i 1).val; omega

/-- The self term's block at point `t` is the same rows of its array. -/
theorem self_block1 (t : Fin cfg1.N) (y : S5000x128.Idx) (i : SN.Idx) (hi0 : (i 0).val = t.val * 5000 + (y 0).val) (hi1 : (i 1).val = (y 1).val) :
    (iblk1 V c 1 t : Vec Ideal S5000x128 .f32) y = (V c (Pipeline.arrRef spec1 1) : SN.Idx → EReal) i := by
  obtain ⟨-, -, e0, e1, -⟩ := block_indices1 t
  unfold iblk1
  rw [View.read_apply]
  refine congrArg (V c (Pipeline.arrRef spec1 1)) (funext fun a => Fin.ext ?_)
  match a with
  | ⟨0, _⟩ => show win1_1.index t 0 * 5000 + 1 * (y 0).val = (i 0).val; omega
  | ⟨1, _⟩ => show win1_1.index t 1 * 128 + 1 * (y 1).val = (i 1).val; omega

/-- The scaling column's block at point `t` is the same rows of the column. -/
theorem column_block1 (t : Fin cfg1.N) (y : S5000x1.Idx) (i : SC.Idx) (hi0 : (i 0).val = t.val * 5000 + (y 0).val) :
    (iblk1 V c 2 t : Vec Ideal S5000x1 .f32) y = (V c (Pipeline.arrRef spec1 2) : SC.Idx → EReal) i := by
  obtain ⟨-, -, -, -, e0, e1, -⟩ := block_indices1 t
  unfold iblk1
  rw [View.read_apply]
  refine congrArg (V c (Pipeline.arrRef spec1 2)) (funext fun a => Fin.ext ?_)
  have hy := idx2_lt1 y
  have hi := idx2_lt1 i
  match a with
  | ⟨0, _⟩ => show win1_2.index t 0 * 5000 + 1 * (y 0).val = (i 0).val; omega
  | ⟨1, _⟩ => show win1_2.index t 1 * 1 + 1 * (y 1).val = (i 1).val; omega

/-- The matrix's block at every point is the whole matrix. -/
theorem matrix_block1 (t : Fin cfg1.N) (y : S128x128.Idx) :
    (iblk1 V c 3 t : Vec Ideal S128x128 .f32) y = (V c (Pipeline.arrRef spec1 3) : SW.Idx → EReal) y := by
  obtain ⟨-, -, -, -, -, -, e0, e1, -⟩ := block_indices1 t
  unfold iblk1
  rw [View.read_apply]
  refine congrArg (V c (Pipeline.arrRef spec1 3)) (funext fun a => Fin.ext ?_)
  match a with
  | ⟨0, _⟩ => show win1_3.index t 0 * 128 + 1 * (y 0).val = (y 0).val; omega
  | ⟨1, _⟩ => show win1_3.index t 1 * 128 + 1 * (y 1).val = (y 1).val; omega

/-- The bias row's block at every point is the whole row. -/
theorem bias_block1 (t : Fin cfg1.N) (y : S1x128.Idx) :
    (iblk1 V c 4 t : Vec Ideal S1x128 .f32) y = (V c (Pipeline.arrRef spec1 4) : SB.Idx → EReal) y := by
  obtain ⟨-, -, -, -, -, -, -, -, e0, e1, -⟩ := block_indices1 t
  unfold iblk1
  rw [View.read_apply]
  refine congrArg (V c (Pipeline.arrRef spec1 4)) (funext fun a => Fin.ext ?_)
  match a with
  | ⟨0, _⟩ => show win1_4.index t 0 * 1 + 1 * (y 0).val = (y 0).val; omega
  | ⟨1, _⟩ => show win1_4.index t 1 * 128 + 1 * (y 1).val = (y 1).val; omega

/-- The body's stored value is the dense layer on the loaded blocks, with the positive part. -/
theorem payload1 (x0 x1 : Vec Ideal S5000x128 .f32) (x2 : Vec Ideal S5000x1 .f32) (x3 : Vec Ideal S128x128 .f32) (x4 : Vec Ideal S1x128 .f32) :
    k1_pay1 x0 x1 x2 x3 x4 = maximumf (MM.dense x0 x1 x2 x3 x4) (broadcast S5000x128 (Scalar.ofBits (F := Ideal) .f32 0x00000000#32)) := rfl

/-- What the body leaves in the output's buffer at point `t`: the dense layer with the positive part of the five blocks loaded there. -/
theorem written1 (t : Fin cfg1.N) :
    (dat1 (F := Ideal) V c).after 5 t = maximumf (MM.dense (iblk1 V c 0 t) (iblk1 V c 1 t) (iblk1 V c 2 t) (iblk1 V c 3 t) (iblk1 V c 4 t)) (broadcast S5000x128 (Scalar.ofBits (F := Ideal) .f32 0x00000000#32)) := by
  rw [after1_5]
  unfold out1_5
  rw [View.canon_unit_zero zero_offsets1]
  simp only [View.ld_unit_zero (S := S5000x128) zero_offsets1, View.ld_unit_zero (S := S5000x1) zero_offsets1,
    View.ld_unit_zero (S := S128x128) zero_offsets1, View.ld_unit_zero (S := S1x128) zero_offsets1]
  rw [payload1]

/-- What point `t` writes back is block `t` of the whole-array dense layer of the five input arrays. -/
theorem flushed_output1 (t : Fin cfg1.N) :
    (dat1 (F := Ideal) V c).flushed 5 t = ((cfg1.win 5).blk t).view.read (Elt Ideal)
      (mmG true (V c (Pipeline.arrRef spec1 0)) (V c (Pipeline.arrRef spec1 1)) (V c (Pipeline.arrRef spec1 2)) (V c (Pipeline.arrRef spec1 3)) (V c (Pipeline.arrRef spec1 4))) := by
  refine (congrArg ((cfg1.win 5).cut (grid1.coords t)) (written1 V c t)).trans ?_
  obtain ⟨-, -, -, -, -, -, -, -, -, -, e0, e1⟩ := block_indices1 t
  funext j
  refine MM.dense_pos_block (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2)) (V c (Pipeline.arrRef spec1 3)) (V c (Pipeline.arrRef spec1 4))
    t.val (aggregate_block1 V c t) (self_block1 V c t) (column_block1 V c t) (matrix_block1 V c t) (bias_block1 V c t)
    j (((cfg1.win 5).blk t).view.emb j) ?_ ?_
  · show win1_5.index t 0 * 5000 + 1 * (j 0).val = t.val * 5000 + (j 0).val
    omega
  · show win1_5.index t 1 * 128 + 1 * (j 1).val = (j 1).val
    omega

/-- An index of the output array is in point `t`'s block iff each coordinate is in the block's range on its axis. -/
theorem mem_output_block1 (t : Fin cfg1.N) (i : SN.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (win1_5.arr.view.ref)).slice (win1_5.rect t)).set ↔ _
  rw [View.set_slice_whole, Rect.mem_set_unit]
  exact Iff.rfl

/-- Every index of the output array lies in the block of the point its row block names: row `r` in block `r / 5000`. -/
theorem output_cover1 (i : SN.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : grid1.N = 20 := N_1
  have ht : (i 0).val / 5000 < grid1.N := by rw [hN]; omega
  refine ⟨⟨(i 0).val / 5000, ht⟩, flush1_5 _, ?_⟩
  rw [mem_output_block1]
  obtain ⟨-, -, -, -, -, -, -, -, -, -, e0, e1⟩ := block_indices1 ⟨(i 0).val / 5000, ht⟩
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 128 ≤ (i 1).val ∧ (i 1).val < win1_5.index _ (1 : Fin 2) * 128 + 128
    rw [e1]
    omega

/-- Region 1 (the dense layer with the positive part): after its twenty points the output array is `mmG true` of the five input arrays. -/
theorem mm1_final : (dat1 (F := Ideal) V c).arrAt 5 cfg1.N
    = mmG true (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed_output1 V c t) (output_cover1)

end Cert.Bridge.Reg

end
-- ==== Proof.RegMM3.lean ====
/-
  Region 3 of the kernel program (the dense layer without the positive part): what its output array holds after the twenty grid
  points, as one function of its five input arrays.

  The region walks the 100000 rows in twenty blocks of 5000. At point t it loads rows 5000 t … 5000 t + 4999 of the
  aggregate, of the self term and of the scaling column, the whole 128 x 128 matrix and the whole bias row, computes the
  dense layer on that block, and writes the result back to the same rows of the output. Every loaded block is the
  matching block of its array, so the block written at point t is block t of the whole-array dense layer `mmG false`;
  the twenty blocks tile the output array (row r lies in block r / 5000), hence the array is `mmG false` of the inputs.
-/
import proofs.«405684_j1614907703322_1_alg».proof.Proof.Gen.KernelIdeal.Frame
import proofs.«405684_j1614907703322_1_alg».proof.Proof.IdxSpec
import proofs.«405684_j1614907703322_1_alg».proof.Proof.LibKeepdims
import proofs.«405684_j1614907703322_1_alg».proof.Proof.MMCore

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The offsets of a whole-block access, however the zeros are spelt. -/
theorem zero_offsets3 : (![0, 0] : Fin 2 → Nat) = fun _ => 0 := funext fun a => by fin_cases a <;> rfl

/-- The windows' block indices over the grid: the three tall inputs and the output move down one row block per point;
    the matrix and the bias row stay at their one block. -/
theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The aggregate's block at point `t` is rows `5000 t … 5000 t + 4999` of its array. -/
theorem aggregate_block3 (t : Fin cfg3.N) (y : S5000x128.Idx) (i : SN.Idx) (hi0 : (i 0).val = t.val * 5000 + (y 0).val) (hi1 : (i 1).val = (y 1).val) :
    (iblk3 V c 0 t : Vec Ideal S5000x128 .f32) y = (V c (Pipeline.arrRef spec3 0) : SN.Idx → EReal) i := by
  obtain ⟨e0, e1, -⟩ := block_indices3 t
  unfold iblk3
  rw [View.read_apply]
  refine congrArg (V c (Pipeline.arrRef spec3 0)) (funext fun a => Fin.ext ?_)
  match a with
  | ⟨0, _⟩ => show win3_0.index t 0 * 5000 + 1 * (y 0).val = (i 0).val; omega
  | ⟨1, _⟩ => show win3_0.index t 1 * 128 + 1 * (y 1).val = (i 1).val; omega

/-- The self term's block at point `t` is the same rows of its array. -/
theorem self_block3 (t : Fin cfg3.N) (y : S5000x128.Idx) (i : SN.Idx) (hi0 : (i 0).val = t.val * 5000 + (y 0).val) (hi1 : (i 1).val = (y 1).val) :
    (iblk3 V c 1 t : Vec Ideal S5000x128 .f32) y = (V c (Pipeline.arrRef spec3 1) : SN.Idx → EReal) i := by
  obtain ⟨-, -, e0, e1, -⟩ := block_indices3 t
  unfold iblk3
  rw [View.read_apply]
  refine congrArg (V c (Pipeline.arrRef spec3 1)) (funext fun a => Fin.ext ?_)
  match a with
  | ⟨0, _⟩ => show win3_1.index t 0 * 5000 + 1 * (y 0).val = (i 0).val; omega
  | ⟨1, _⟩ => show win3_1.index t 1 * 128 + 1 * (y 1).val = (i 1).val; omega

/-- The scaling column's block at point `t` is the same rows of the column. -/
theorem column_block3 (t : Fin cfg3.N) (y : S5000x1.Idx) (i : SC.Idx) (hi0 : (i 0).val = t.val * 5000 + (y 0).val) :
    (iblk3 V c 2 t : Vec Ideal S5000x1 .f32) y = (V c (Pipeline.arrRef spec3 2) : SC.Idx → EReal) i := by
  obtain ⟨-, -, -, -, e0, e1, -⟩ := block_indices3 t
  unfold iblk3
  rw [View.read_apply]
  refine congrArg (V c (Pipeline.arrRef spec3 2)) (funext fun a => Fin.ext ?_)
  have hy := idx2_lt1 y
  have hi := idx2_lt1 i
  match a with
  | ⟨0, _⟩ => show win3_2.index t 0 * 5000 + 1 * (y 0).val = (i 0).val; omega
  | ⟨1, _⟩ => show win3_2.index t 1 * 1 + 1 * (y 1).val = (i 1).val; omega

/-- The matrix's block at every point is the whole matrix. -/
theorem matrix_block3 (t : Fin cfg3.N) (y : S128x128.Idx) :
    (iblk3 V c 3 t : Vec Ideal S128x128 .f32) y = (V c (Pipeline.arrRef spec3 3) : SW.Idx → EReal) y := by
  obtain ⟨-, -, -, -, -, -, e0, e1, -⟩ := block_indices3 t
  unfold iblk3
  rw [View.read_apply]
  refine congrArg (V c (Pipeline.arrRef spec3 3)) (funext fun a => Fin.ext ?_)
  match a with
  | ⟨0, _⟩ => show win3_3.index t 0 * 128 + 1 * (y 0).val = (y 0).val; omega
  | ⟨1, _⟩ => show win3_3.index t 1 * 128 + 1 * (y 1).val = (y 1).val; omega

/-- The bias row's block at every point is the whole row. -/
theorem bias_block3 (t : Fin cfg3.N) (y : S1x128.Idx) :
    (iblk3 V c 4 t : Vec Ideal S1x128 .f32) y = (V c (Pipeline.arrRef spec3 4) : SB.Idx → EReal) y := by
  obtain ⟨-, -, -, -, -, -, -, -, e0, e1, -⟩ := block_indices3 t
  unfold iblk3
  rw [View.read_apply]
  refine congrArg (V c (Pipeline.arrRef spec3 4)) (funext fun a => Fin.ext ?_)
  match a with
  | ⟨0, _⟩ => show win3_4.index t 0 * 1 + 1 * (y 0).val = (y 0).val; omega
  | ⟨1, _⟩ => show win3_4.index t 1 * 128 + 1 * (y 1).val = (y 1).val; omega

/-- The body's stored value is the dense layer on the loaded blocks. -/
theorem payload3 (x0 x1 : Vec Ideal S5000x128 .f32) (x2 : Vec Ideal S5000x1 .f32) (x3 : Vec Ideal S128x128 .f32) (x4 : Vec Ideal S1x128 .f32) :
    k3_pay1 x0 x1 x2 x3 x4 = MM.dense x0 x1 x2 x3 x4 := rfl

/-- What the body leaves in the output's buffer at point `t`: the dense layer of the five blocks loaded there. -/
theorem written3 (t : Fin cfg3.N) :
    (dat3 (F := Ideal) V c).after 5 t = MM.dense (iblk3 V c 0 t) (iblk3 V c 1 t) (iblk3 V c 2 t) (iblk3 V c 3 t) (iblk3 V c 4 t) := by
  rw [after3_5]
  unfold out3_5
  rw [View.canon_unit_zero zero_offsets3]
  simp only [View.ld_unit_zero (S := S5000x128) zero_offsets3, View.ld_unit_zero (S := S5000x1) zero_offsets3,
    View.ld_unit_zero (S := S128x128) zero_offsets3, View.ld_unit_zero (S := S1x128) zero_offsets3]
  rw [payload3]

/-- What point `t` writes back is block `t` of the whole-array dense layer of the five input arrays. -/
theorem flushed_output3 (t : Fin cfg3.N) :
    (dat3 (F := Ideal) V c).flushed 5 t = ((cfg3.win 5).blk t).view.read (Elt Ideal)
      (mmG false (V c (Pipeline.arrRef spec3 0)) (V c (Pipeline.arrRef spec3 1)) (V c (Pipeline.arrRef spec3 2)) (V c (Pipeline.arrRef spec3 3)) (V c (Pipeline.arrRef spec3 4))) := by
  refine (congrArg ((cfg3.win 5).cut (grid3.coords t)) (written3 V c t)).trans ?_
  obtain ⟨-, -, -, -, -, -, -, -, -, -, e0, e1⟩ := block_indices3 t
  funext j
  refine MM.dense_block (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2)) (V c (Pipeline.arrRef spec3 3)) (V c (Pipeline.arrRef spec3 4))
    t.val (aggregate_block3 V c t) (self_block3 V c t) (column_block3 V c t) (matrix_block3 V c t) (bias_block3 V c t)
    j (((cfg3.win 5).blk t).view.emb j) ?_ ?_
  · show win3_5.index t 0 * 5000 + 1 * (j 0).val = t.val * 5000 + (j 0).val
    omega
  · show win3_5.index t 1 * 128 + 1 * (j 1).val = (j 1).val
    omega

/-- An index of the output array is in point `t`'s block iff each coordinate is in the block's range on its axis. -/
theorem mem_output_block3 (t : Fin cfg3.N) (i : SN.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (win3_5.arr.view.ref)).slice (win3_5.rect t)).set ↔ _
  rw [View.set_slice_whole, Rect.mem_set_unit]
  exact Iff.rfl

/-- Every index of the output array lies in the block of the point its row block names: row `r` in block `r / 5000`. -/
theorem output_cover3 (i : SN.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : grid3.N = 20 := N_3
  have ht : (i 0).val / 5000 < grid3.N := by rw [hN]; omega
  refine ⟨⟨(i 0).val / 5000, ht⟩, flush3_5 _, ?_⟩
  rw [mem_output_block3]
  obtain ⟨-, -, -, -, -, -, -, -, -, -, e0, e1⟩ := block_indices3 ⟨(i 0).val / 5000, ht⟩
  intro a
  match a with
  | ⟨0, _⟩ =>
    show win3_5.index _ (0 : Fin 2) * 5000 ≤ (i 0).val ∧ (i 0).val < win3_5.index _ (0 : Fin 2) * 5000 + 5000
    rw [e0]
    show (i 0).val / 5000 * 5000 ≤ (i 0).val ∧ (i 0).val < (i 0).val / 5000 * 5000 + 5000
    omega
  | ⟨1, _⟩ =>
    show win3_5.index _ (1 : Fin 2) * 128 ≤ (i 1).val ∧ (i 1).val < win3_5.index _ (1 : Fin 2) * 128 + 128
    rw [e1]
    omega

/-- Region 3 (the dense layer): after its twenty points the output array is `mmG false` of the five input arrays. -/
theorem mm3_final : (dat3 (F := Ideal) V c).arrAt 5 cfg3.N
    = mmG false (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed_output3 V c t) (output_cover3)

end Cert.Bridge.Reg

end
-- ==== Proof.ChainA.lean ====
import proofs.«405684_j1614907703322_1_alg».proof.Proof.Gen.KernelIdeal.Frame
import proofs.«405684_j1614907703322_1_alg».proof.Proof.KSpec
import proofs.«405684_j1614907703322_1_alg».proof.Proof.RegScale0
import proofs.«405684_j1614907703322_1_alg».proof.Proof.RegScale2
import proofs.«405684_j1614907703322_1_alg».proof.Proof.RegMM1
import proofs.«405684_j1614907703322_1_alg».proof.Proof.RegMM3

set_option maxRecDepth 16384

noncomputable section

namespace Cert.Bridge.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (m : (ℓ : Loc nD τ sig) → Buf (Elt Ideal) ℓ) (ρ : Dev nD → PrngReg) (c : Dev nD)
/-! ## What each of the eight boundaries keeps, and what each host stretch and region computes -/
namespace ChainA

/-- The references the first layer's gather writes. -/
abbrev take0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v9]
theorem take0_writes : (hostOps1 : List (HloOp τ sig (Elt Ideal))).Forall fun op => op.writes ⊆ ((take0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references the first layer's segment sum writes. -/
abbrev seg0_W : List (Ref sig .tc) := [main_cst_3, main_v10, main_v11, main_v12, main_v13]
theorem seg0_writes : (hostOps1_1 : List (HloOp τ sig (Elt Ideal))).Forall fun op => op.writes ⊆ ((seg0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references the second layer's gather writes. -/
abbrev take1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]
theorem take1_writes : (hostOps3 : List (HloOp τ sig (Elt Ideal))).Forall fun op => op.writes ⊆ ((take1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references the second layer's segment sum writes. -/
abbrev seg1_W : List (Ref sig .tc) := [main_cst_4, main_v17, main_v18, main_v19, main_v20]
theorem seg1_writes : (hostOps3_1 : List (HloOp τ sig (Elt Ideal))).Forall fun op => op.writes ⊆ ((seg1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- Across the first scale region, every buffer but its output `main_v8` keeps its contents: an input window is left as entered, any other buffer is not touched. -/
theorem keep2 (r : Ref sig .tc) (h : r ≠ main_v8) : W2 m ρ c (Proc.devRef .tc r) = W1 m ρ c (Proc.devRef .tc r) := by
  by_cases hw : ∃ w, Pipeline.arrRef spec0 w = r
  · obtain ⟨w, rfl⟩ := hw
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact absurd (by decide) h
  · exact W2_of_ne m ρ c r fun w e => hw ⟨w, e⟩
/-- Across the first layer's gather, a buffer it does not write keeps its contents. -/
theorem keep3 (r : Ref sig .tc) (h : r ∉ take0_W) : W3 m ρ c (Proc.devRef .tc r) = W2 m ρ c (Proc.devRef .tc r) :=
  StableHlo.after_of_writes_sub hostOps1 _ take0_writes h
/-- Across the first layer's segment sum, a buffer it does not write keeps its contents. -/
theorem keep4 (r : Ref sig .tc) (h : r ∉ seg0_W) : W4 m ρ c (Proc.devRef .tc r) = W3 m ρ c (Proc.devRef .tc r) :=
  StableHlo.after_of_writes_sub hostOps1_1 _ seg0_writes h
/-- Across the first dense region, every buffer but its output `main_v14` keeps its contents: an input window is left as entered, any other buffer is not touched. -/
theorem keep5 (r : Ref sig .tc) (h : r ≠ main_v14) : W5 m ρ c (Proc.devRef .tc r) = W4 m ρ c (Proc.devRef .tc r) := by
  by_cases hw : ∃ w, Pipeline.arrRef spec1 w = r
  · obtain ⟨w, rfl⟩ := hw
    fin_cases w
    · exact (W5_arr m ρ c 0).trans (((dat1 (V4 m ρ) c).arrAt_in 0 rfl _).trans (A_eq1 (V4 m ρ) c 0))
    · exact (W5_arr m ρ c 1).trans (((dat1 (V4 m ρ) c).arrAt_in 1 rfl _).trans (A_eq1 (V4 m ρ) c 1))
    · exact (W5_arr m ρ c 2).trans (((dat1 (V4 m ρ) c).arrAt_in 2 rfl _).trans (A_eq1 (V4 m ρ) c 2))
    · exact (W5_arr m ρ c 3).trans (((dat1 (V4 m ρ) c).arrAt_in 3 rfl _).trans (A_eq1 (V4 m ρ) c 3))
    · exact (W5_arr m ρ c 4).trans (((dat1 (V4 m ρ) c).arrAt_in 4 rfl _).trans (A_eq1 (V4 m ρ) c 4))
    · exact absurd (by decide) h
  · exact W5_of_ne m ρ c r fun w e => hw ⟨w, e⟩
/-- Across the second scale region, every buffer but its output `main_v15` keeps its contents: an input window is left as entered, any other buffer is not touched. -/
theorem keep6 (r : Ref sig .tc) (h : r ≠ main_v15) : W6 m ρ c (Proc.devRef .tc r) = W5 m ρ c (Proc.devRef .tc r) := by
  by_cases hw : ∃ w, Pipeline.arrRef spec2 w = r
  · obtain ⟨w, rfl⟩ := hw
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact absurd (by decide) h
  · exact W6_of_ne m ρ c r fun w e => hw ⟨w, e⟩
/-- Across the second layer's gather, a buffer it does not write keeps its contents. -/
theorem keep7 (r : Ref sig .tc) (h : r ∉ take1_W) : W7 m ρ c (Proc.devRef .tc r) = W6 m ρ c (Proc.devRef .tc r) :=
  StableHlo.after_of_writes_sub hostOps3 _ take1_writes h
/-- Across the second layer's segment sum, a buffer it does not write keeps its contents. -/
theorem keep8 (r : Ref sig .tc) (h : r ∉ seg1_W) : W8 m ρ c (Proc.devRef .tc r) = W7 m ρ c (Proc.devRef .tc r) :=
  StableHlo.after_of_writes_sub hostOps3_1 _ seg1_writes h
/-- Across the second dense region, every buffer but its output `main_v21` keeps its contents: an input window is left as entered, any other buffer is not touched. -/
theorem keep9 (r : Ref sig .tc) (h : r ≠ main_v21) : W9 m ρ c (Proc.devRef .tc r) = W8 m ρ c (Proc.devRef .tc r) := by
  by_cases hw : ∃ w, Pipeline.arrRef spec3 w = r
  · obtain ⟨w, rfl⟩ := hw
    fin_cases w
    · exact (W9_arr m ρ c 0).trans (((dat3 (V8 m ρ) c).arrAt_in 0 rfl _).trans (A_eq3 (V8 m ρ) c 0))
    · exact (W9_arr m ρ c 1).trans (((dat3 (V8 m ρ) c).arrAt_in 1 rfl _).trans (A_eq3 (V8 m ρ) c 1))
    · exact (W9_arr m ρ c 2).trans (((dat3 (V8 m ρ) c).arrAt_in 2 rfl _).trans (A_eq3 (V8 m ρ) c 2))
    · exact (W9_arr m ρ c 3).trans (((dat3 (V8 m ρ) c).arrAt_in 3 rfl _).trans (A_eq3 (V8 m ρ) c 3))
    · exact (W9_arr m ρ c 4).trans (((dat3 (V8 m ρ) c).arrAt_in 4 rfl _).trans (A_eq3 (V8 m ρ) c 4))
    · exact absurd (by decide) h
  · exact W9_of_ne m ρ c r fun w e => hw ⟨w, e⟩

/-- From the first scale region's exit to the first dense region's entry. -/
theorem keep4_2 (r : Ref sig .tc) (h3 : r ∉ take0_W) (h4 : r ∉ seg0_W) :
    W4 m ρ c (Proc.devRef .tc r) = W2 m ρ c (Proc.devRef .tc r) :=
  (keep4 m ρ c r h4).trans (keep3 m ρ c r h3)
/-- From the first scale region's entry to the first dense region's entry. -/
theorem keep4_1 (r : Ref sig .tc) (h2 : r ≠ main_v8) (h3 : r ∉ take0_W) (h4 : r ∉ seg0_W) :
    W4 m ρ c (Proc.devRef .tc r) = W1 m ρ c (Proc.devRef .tc r) :=
  (keep4_2 m ρ c r h3 h4).trans (keep2 m ρ c r h2)
/-- From the first scale region's entry to the second scale region's entry. -/
theorem keep5_1 (r : Ref sig .tc) (h2 : r ≠ main_v8) (h3 : r ∉ take0_W) (h4 : r ∉ seg0_W) (h5 : r ≠ main_v14) :
    W5 m ρ c (Proc.devRef .tc r) = W1 m ρ c (Proc.devRef .tc r) :=
  (keep5 m ρ c r h5).trans (keep4_1 m ρ c r h2 h3 h4)
/-- From the second scale region's exit to the second dense region's entry. -/
theorem keep8_6 (r : Ref sig .tc) (h7 : r ∉ take1_W) (h8 : r ∉ seg1_W) :
    W8 m ρ c (Proc.devRef .tc r) = W6 m ρ c (Proc.devRef .tc r) :=
  (keep8 m ρ c r h8).trans (keep7 m ρ c r h7)
/-- From the first scale region's entry to the second scale region's exit. -/
theorem keep6_1 (r : Ref sig .tc) (h2 : r ≠ main_v8) (h3 : r ∉ take0_W) (h4 : r ∉ seg0_W) (h5 : r ≠ main_v14) (h6 : r ≠ main_v15) :
    W6 m ρ c (Proc.devRef .tc r) = W1 m ρ c (Proc.devRef .tc r) :=
  (keep6 m ρ c r h6).trans (keep5_1 m ρ c r h2 h3 h4 h5)
/-- From the first scale region's entry to the second dense region's entry. -/
theorem keep8_1 (r : Ref sig .tc) (h2 : r ≠ main_v8) (h3 : r ∉ take0_W) (h4 : r ∉ seg0_W) (h5 : r ≠ main_v14) (h6 : r ≠ main_v15)
    (h7 : r ∉ take1_W) (h8 : r ∉ seg1_W) :
    W8 m ρ c (Proc.devRef .tc r) = W1 m ρ c (Proc.devRef .tc r) :=
  (keep8_6 m ρ c r h7 h8).trans (keep6_1 m ρ c r h2 h3 h4 h5 h6)
/-- Through all eight boundaries. -/
theorem keep9_1 (r : Ref sig .tc) (h2 : r ≠ main_v8) (h3 : r ∉ take0_W) (h4 : r ∉ seg0_W) (h5 : r ≠ main_v14) (h6 : r ≠ main_v15)
    (h7 : r ∉ take1_W) (h8 : r ∉ seg1_W) (h9 : r ≠ main_v21) :
    W9 m ρ c (Proc.devRef .tc r) = W1 m ρ c (Proc.devRef .tc r) :=
  (keep9 m ρ c r h9).trans (keep8_1 m ρ c r h2 h3 h4 h5 h6 h7 h8)

section Host
variable {F : FTy → Type} [FloatOps F]

/-- Contents moved to a typed reference's buffer type and back are the contents. -/
theorem ofBuf_toBuf {Val : EltTy → Type} {T : BufTy} (x : StableHlo.TRef sig T) (v : T.Contents Val) : x.ofBuf (x.toBuf v) = v := by
  obtain ⟨r, h, _, _⟩ := x
  subst h
  rfl

/-- At a literal reference the move between the value's type and the buffer's is the identity. -/
theorem ofBuf_arg8 (v : (⟨S1600000, .i32⟩ : BufTy).Contents (Elt F)) :
    (StableHlo.TRef.of main_arg8 : StableHlo.TRef sig ⟨S1600000, .i32⟩).ofBuf v = v := rfl
/-- At a literal reference the move between the value's type and the buffer's is the identity. -/
theorem ofBuf_v8 (v : (⟨S100000x128, .f32⟩ : BufTy).Contents (Elt F)) :
    (StableHlo.TRef.of main_v8 : StableHlo.TRef sig ⟨S100000x128, .f32⟩).ofBuf v = v := rfl
theorem toBuf_v9 (v : (⟨S1600000x128, .f32⟩ : BufTy).Contents (Elt F)) :
    (StableHlo.TRef.of main_v9 : StableHlo.TRef sig ⟨S1600000x128, .f32⟩).toBuf v = v := rfl

/-- What the first layer's gather stretch leaves in its result, from any contents `X`: the rows of `main_v8` the edges start from
    (each intermediate buffer read back as the operation that wrote it). -/
theorem take0_result (X : Valuation τ sig (Elt F)) :
    StableHlo.after hostOps1 X (Proc.devRef .tc main_v9)
      = K.take (F := F) (X (Proc.devRef .tc main_v8)) (X (Proc.devRef .tc main_arg8)) := by
  unfold K.take K.inb K.widx
  after_results_simp
  simp only [ofBuf_toBuf, ofBuf_arg8, ofBuf_v8, toBuf_v9]
/-- At a literal reference the move between the value's type and the buffer's is the identity. -/
theorem ofBuf_v15 (v : (⟨S100000x128, .f32⟩ : BufTy).Contents (Elt F)) :
    (StableHlo.TRef.of main_v15 : StableHlo.TRef sig ⟨S100000x128, .f32⟩).ofBuf v = v := rfl
theorem toBuf_v16 (v : (⟨S1600000x128, .f32⟩ : BufTy).Contents (Elt F)) :
    (StableHlo.TRef.of main_v16 : StableHlo.TRef sig ⟨S1600000x128, .f32⟩).toBuf v = v := rfl

/-- What the second layer's gather stretch leaves in its result, from any contents `X`: the rows of `main_v15` the edges start from
    (each intermediate buffer read back as the operation that wrote it). -/
theorem take1_result (X : Valuation τ sig (Elt F)) :
    StableHlo.after hostOps3 X (Proc.devRef .tc main_v16)
      = K.take (F := F) (X (Proc.devRef .tc main_v15)) (X (Proc.devRef .tc main_arg8)) := by
  unfold K.take K.inb K.widx
  after_results_simp
  simp only [ofBuf_toBuf, ofBuf_arg8, ofBuf_v15, toBuf_v16]
/-- What the first layer's segment-sum stretch leaves in its result, from any contents `X`. -/
theorem seg0_result (X : Valuation τ sig (Elt F)) :
    StableHlo.after hostOps1_1 X (Proc.devRef .tc main_v12)
      = K.segsum (F := F) (X (Proc.devRef .tc main_v9)) (X (Proc.devRef .tc main_arg9)) := by
  unfold K.segsum
  after_results
/-- The same stretch leaves the bias as a row. -/
theorem row0_result (X : Valuation τ sig (Elt F)) :
    StableHlo.after hostOps1_1 X (Proc.devRef .tc main_v13)
      = K.row (F := F) (X (Proc.devRef .tc main_arg3)) := by
  unfold K.row
  after_results
  rfl
/-- What the second layer's segment-sum stretch leaves in its result, from any contents `X`. -/
theorem seg1_result (X : Valuation τ sig (Elt F)) :
    StableHlo.after hostOps3_1 X (Proc.devRef .tc main_v19)
      = K.segsum (F := F) (X (Proc.devRef .tc main_v16)) (X (Proc.devRef .tc main_arg9)) := by
  unfold K.segsum
  after_results
/-- The same stretch leaves the bias as a row. -/
theorem row1_result (X : Valuation τ sig (Elt F)) :
    StableHlo.after hostOps3_1 X (Proc.devRef .tc main_v20)
      = K.row (F := F) (X (Proc.devRef .tc main_arg5)) := by
  unfold K.row
  after_results
  rfl

end Host

/-! ### The first view's encoding, boundary by boundary -/

/-- The first scale region leaves the first feature array scaled by the normalisation column. -/
theorem W2_v8 : W2 m ρ c (Proc.devRef .tc main_v8) = scaleG (W1 m ρ c (Proc.devRef .tc main_arg0)) (W1 m ρ c (Proc.devRef .tc main_v7)) :=
  (W2_arr m ρ c 2).trans (Reg.scale0_final (V1 m ρ) c)
/-- The first gather reads the scaled features at the source indices. -/
theorem W3_v9 : W3 m ρ c (Proc.devRef .tc main_v9) = K.take (F := Ideal) (W2 m ρ c (Proc.devRef .tc main_v8)) (W2 m ρ c (Proc.devRef .tc main_arg8)) :=
  take0_result (W2 m ρ c)
/-- The first segment sum adds the gathered rows per destination. -/
theorem W4_v12 : W4 m ρ c (Proc.devRef .tc main_v12) = K.segsum (F := Ideal) (W3 m ρ c (Proc.devRef .tc main_v9)) (W3 m ρ c (Proc.devRef .tc main_arg9)) :=
  seg0_result (W3 m ρ c)
/-- The first bias as a row. -/
theorem W4_v13 : W4 m ρ c (Proc.devRef .tc main_v13) = K.row (F := Ideal) (W3 m ρ c (Proc.devRef .tc main_arg3)) :=
  row0_result (W3 m ρ c)
/-- The first dense region over its five inputs as it finds them. -/
theorem W5_v14 : W5 m ρ c (Proc.devRef .tc main_v14)
    = mmG true (W4 m ρ c (Proc.devRef .tc main_v12)) (W4 m ρ c (Proc.devRef .tc main_v8)) (W4 m ρ c (Proc.devRef .tc main_v7)) (W4 m ρ c (Proc.devRef .tc main_arg2)) (W4 m ρ c (Proc.devRef .tc main_v13)) :=
  (W5_arr m ρ c 5).trans (Reg.mm1_final (V4 m ρ) c)
/-- The second scale region scales the first layer's output. -/
theorem W6_v15 : W6 m ρ c (Proc.devRef .tc main_v15) = scaleG (W5 m ρ c (Proc.devRef .tc main_v14)) (W5 m ρ c (Proc.devRef .tc main_v7)) :=
  (W6_arr m ρ c 2).trans (Reg.scale2_final (V5 m ρ) c)
/-- The second gather. -/
theorem W7_v16 : W7 m ρ c (Proc.devRef .tc main_v16) = K.take (F := Ideal) (W6 m ρ c (Proc.devRef .tc main_v15)) (W6 m ρ c (Proc.devRef .tc main_arg8)) :=
  take1_result (W6 m ρ c)
/-- The second segment sum. -/
theorem W8_v19 : W8 m ρ c (Proc.devRef .tc main_v19) = K.segsum (F := Ideal) (W7 m ρ c (Proc.devRef .tc main_v16)) (W7 m ρ c (Proc.devRef .tc main_arg9)) :=
  seg1_result (W7 m ρ c)
/-- The second bias as a row. -/
theorem W8_v20 : W8 m ρ c (Proc.devRef .tc main_v20) = K.row (F := Ideal) (W7 m ρ c (Proc.devRef .tc main_arg5)) :=
  row1_result (W7 m ρ c)
/-- The second dense region over its five inputs as it finds them. -/
theorem W9_v21_step : W9 m ρ c (Proc.devRef .tc main_v21)
    = mmG false (W8 m ρ c (Proc.devRef .tc main_v19)) (W8 m ρ c (Proc.devRef .tc main_v15)) (W8 m ρ c (Proc.devRef .tc main_v7)) (W8 m ρ c (Proc.devRef .tc main_arg4)) (W8 m ρ c (Proc.devRef .tc main_v20)) :=
  (W9_arr m ρ c 5).trans (Reg.mm3_final (V8 m ρ) c)

/-- The first layer: every input of the first dense region walked back to the first scale region's entry. -/
theorem W5_v14_layer : W5 m ρ c (Proc.devRef .tc main_v14)
    = K.layer true (W1 m ρ c (Proc.devRef .tc main_arg0)) (W1 m ρ c (Proc.devRef .tc main_v7)) (W1 m ρ c (Proc.devRef .tc main_arg8)) (W1 m ρ c (Proc.devRef .tc main_arg9))
        (W1 m ρ c (Proc.devRef .tc main_arg2)) (K.row (F := Ideal) (W1 m ρ c (Proc.devRef .tc main_arg3))) := by
  unfold K.layer
  rw [W5_v14, W4_v12, W4_v13, W3_v9,
    keep4_2 m ρ c main_v8 (by decide) (by decide), W2_v8,
    keep4_1 m ρ c main_v7 (by decide) (by decide) (by decide),
    keep4_1 m ρ c main_arg2 (by decide) (by decide) (by decide),
    keep3 m ρ c main_arg9 (by decide), keep2 m ρ c main_arg9 (by decide),
    keep3 m ρ c main_arg3 (by decide), keep2 m ρ c main_arg3 (by decide),
    keep2 m ρ c main_arg8 (by decide)]

/-- The second layer over the first layer's output `h` = `main_v14`. -/
theorem W9_v21_layer : W9 m ρ c (Proc.devRef .tc main_v21)
    = K.layer false (W5 m ρ c (Proc.devRef .tc main_v14)) (W1 m ρ c (Proc.devRef .tc main_v7)) (W1 m ρ c (Proc.devRef .tc main_arg8)) (W1 m ρ c (Proc.devRef .tc main_arg9))
        (W1 m ρ c (Proc.devRef .tc main_arg4)) (K.row (F := Ideal) (W1 m ρ c (Proc.devRef .tc main_arg5))) := by
  unfold K.layer
  rw [W9_v21_step, W8_v19, W8_v20, W7_v16,
    keep8_6 m ρ c main_v15 (by decide) (by decide), W6_v15,
    keep5_1 m ρ c main_v7 (by decide) (by decide) (by decide) (by decide),
    keep8_1 m ρ c main_v7 (by decide) (by decide) (by decide) (by decide) (by decide) (by decide) (by decide),
    keep8_1 m ρ c main_arg4 (by decide) (by decide) (by decide) (by decide) (by decide) (by decide) (by decide),
    keep7 m ρ c main_arg9 (by decide), keep6_1 m ρ c main_arg9 (by decide) (by decide) (by decide) (by decide) (by decide),
    keep7 m ρ c main_arg5 (by decide), keep6_1 m ρ c main_arg5 (by decide) (by decide) (by decide) (by decide) (by decide),
    keep6_1 m ρ c main_arg8 (by decide) (by decide) (by decide) (by decide) (by decide)]

end ChainA

open ChainA

/-- The first view's encoding: regions 0 to 3 with the gathers and segment sums between them compute `K.enc` of the first feature array. -/
theorem W9_v21 : W9 m ρ c (Proc.devRef .tc main_v21)
    = K.enc (W1 m ρ c (Proc.devRef .tc main_arg0)) (W1 m ρ c (Proc.devRef .tc main_v7)) (W1 m ρ c (Proc.devRef .tc main_arg8)) (W1 m ρ c (Proc.devRef .tc main_arg9))
        (W1 m ρ c (Proc.devRef .tc main_arg2)) (W1 m ρ c (Proc.devRef .tc main_arg3)) (W1 m ρ c (Proc.devRef .tc main_arg4)) (W1 m ρ c (Proc.devRef .tc main_arg5)) := by
  unfold K.enc
  rw [W9_v21_layer, W5_v14_layer]
theorem W9_arg1 : W9 m ρ c (Proc.devRef .tc main_arg1) = W1 m ρ c (Proc.devRef .tc main_arg1) :=
  keep9_1 m ρ c main_arg1 (by decide) (by decide) (by decide) (by decide) (by decide) (by decide) (by decide) (by decide)
theorem W9_arg2 : W9 m ρ c (Proc.devRef .tc main_arg2) = W1 m ρ c (Proc.devRef .tc main_arg2) :=
  keep9_1 m ρ c main_arg2 (by decide) (by decide) (by decide) (by decide) (by decide) (by decide) (by decide) (by decide)
theorem W9_arg3 : W9 m ρ c (Proc.devRef .tc main_arg3) = W1 m ρ c (Proc.devRef .tc main_arg3) :=
  keep9_1 m ρ c main_arg3 (by decide) (by decide) (by decide) (by decide) (by decide) (by decide) (by decide) (by decide)
theorem W9_arg4 : W9 m ρ c (Proc.devRef .tc main_arg4) = W1 m ρ c (Proc.devRef .tc main_arg4) :=
  keep9_1 m ρ c main_arg4 (by decide) (by decide) (by decide) (by decide) (by decide) (by decide) (by decide) (by decide)
theorem W9_arg5 : W9 m ρ c (Proc.devRef .tc main_arg5) = W1 m ρ c (Proc.devRef .tc main_arg5) :=
  keep9_1 m ρ c main_arg5 (by decide) (by decide) (by decide) (by decide) (by decide) (by decide) (by decide) (by decide)
theorem W9_arg6 : W9 m ρ c (Proc.devRef .tc main_arg6) = W1 m ρ c (Proc.devRef .tc main_arg6) :=
  keep9_1 m ρ c main_arg6 (by decide) (by decide) (by decide) (by decide) (by decide) (by decide) (by decide) (by decide)
theorem W9_arg7 : W9 m ρ c (Proc.devRef .tc main_arg7) = W1 m ρ c (Proc.devRef .tc main_arg7) :=
  keep9_1 m ρ c main_arg7 (by decide) (by decide) (by decide) (by decide) (by decide) (by decide) (by decide) (by decide)
theorem W9_arg8 : W9 m ρ c (Proc.devRef .tc main_arg8) = W1 m ρ c (Proc.devRef .tc main_arg8) :=
  keep9_1 m ρ c main_arg8 (by decide) (by decide) (by decide) (by decide) (by decide) (by decide) (by decide) (by decide)
theorem W9_arg9 : W9 m ρ c (Proc.devRef .tc main_arg9) = W1 m ρ c (Proc.devRef .tc main_arg9) :=
  keep9_1 m ρ c main_arg9 (by decide) (by decide) (by decide) (by decide) (by decide) (by decide) (by decide) (by decide)
theorem W9_v7 : W9 m ρ c (Proc.devRef .tc main_v7) = W1 m ρ c (Proc.devRef .tc main_v7) :=
  keep9_1 m ρ c main_v7 (by decide) (by decide) (by decide) (by decide) (by decide) (by decide) (by decide) (by decide)
theorem W9_cst : W9 m ρ c (Proc.devRef .tc main_cst) = W1 m ρ c (Proc.devRef .tc main_cst) :=
  keep9_1 m ρ c main_cst (by decide) (by decide) (by decide) (by decide) (by decide) (by decide) (by decide) (by decide)

end Cert.Bridge.Chain

end
-- ==== Proof.RegScale4.lean ====
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The body's product at an index: the row's entry times the column's entry of that row. -/
theorem scale_payload4 (x : Vec Ideal S5000x128 .f32) (n : Vec Ideal S5000x1 .f32) (p : Fin 5000) (q : Fin 128) :
    k4_pay1 x n (ix2 p q) = x (ix2 p q) * n (ix2 p (0 : Fin 1)) := by
  unfold k4_pay1
  rw [mulf_apply, Keepdims.broadcastTo_a1_ab_apply]
  simp only [shapeCast_self]

/-- A whole-buffer access starts at the zero offsets. -/
theorem zero_offsets4 : (![0, 0] : Fin 2 → Nat) = fun _ => 0 := funext fun a => by fin_cases a <;> rfl

/-- The three windows' block indices, decided over the twenty points: block `t` on the rows, block 0 on the columns. -/
theorem block_indices4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the rows scaled by the column: the three windows sit on the same rows. -/
theorem scale_flushed4 (t : Fin cfg4.N) :
    (dat4 (F := Ideal) V c).flushed 2 t = ((cfg4.win 2).blk t).view.read (Elt Ideal) (scaleG (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_offsets4]
  simp only [View.ld_unit_zero (S := S5000x128) zero_offsets4, View.ld_unit_zero (S := S5000x1) zero_offsets4]
  funext j
  obtain ⟨p, q, rfl⟩ : ∃ (p : Fin 5000) (q : Fin 128), j = ix2 p q := ⟨j 0, j 1, eq_ix2 j⟩
  show k4_pay1 (iblk4 V c 0 t) (iblk4 V c 1 t) (ix2 p q) = scaleG (V c (Pipeline.arrRef spec4 0)) (V c (Pipeline.arrRef spec4 1)) (((cfg4.win 2).blk t).view.emb (ix2 p q))
  refine (scale_payload4 (iblk4 V c 0 t) (iblk4 V c 1 t) p q).trans ?_
  obtain ⟨e00, e01, e10, e11, e20, e21⟩ := block_indices4 t
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1)) = ix2 (n0 := 100000) (n1 := 1) ((((cfg4.win 2).blk t).view.emb (ix2 p q)) 0) 0 := by
    funext a; apply Fin.ext
    match a with
    | ⟨0, _⟩ => show win4_1.index t (0 : Fin 2) * 5000 + 1 * p.val = win4_2.index t (0 : Fin 2) * 5000 + 1 * p.val; omega
    | ⟨1, _⟩ => show win4_1.index t (1 : Fin 2) * 1 + 1 * 0 = 0; omega
  unfold iblk4 scaleG
  rw [View.read_apply, View.read_apply, h0, h1]
  rfl

/-- An index of the output array lies in point `t`'s block iff, on each axis, its coordinate is in the block's range. -/
theorem mem_block4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole win4_2.arr.view.ref).slice (win4_2.rect t)).set ↔ _
  rw [View.set_slice_whole, Rect.mem_set_unit]
  exact Iff.rfl

/-- The twenty row blocks fill the output array: row `r` is in the block of point `r / 5000`. -/
theorem blocks_cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, e20, e21⟩ := block_indices4 t
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- Region 4 (rows scaled by the column): after its twenty points the output array is `scaleG` of the two input arrays. -/
theorem scale4_final : (dat4 (F := Ideal) V c).arrAt 2 cfg4.N = scaleG (V c (Pipeline.arrRef spec4 0)) (V c (Pipeline.arrRef spec4 1)) := by
  exact (dat4 (F := Ideal) V c).arrAt_eq_of_cover 2 (scaleG (V c (Pipeline.arrRef spec4 0)) (V c (Pipeline.arrRef spec4 1)))
    (fun t _ => scale_flushed4 V c t) blocks_cover4

end Cert.Bridge.Reg

end
-- ==== Proof.RegScale6.lean ====
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The body's product at an index: the row's entry times the column's entry of that row. -/
theorem scale_payload6 (x : Vec Ideal S5000x128 .f32) (n : Vec Ideal S5000x1 .f32) (p : Fin 5000) (q : Fin 128) :
    k6_pay1 x n (ix2 p q) = x (ix2 p q) * n (ix2 p (0 : Fin 1)) := by
  unfold k6_pay1
  rw [mulf_apply, Keepdims.broadcastTo_a1_ab_apply]
  simp only [shapeCast_self]

/-- A whole-buffer access starts at the zero offsets. -/
theorem zero_offsets6 : (![0, 0] : Fin 2 → Nat) = fun _ => 0 := funext fun a => by fin_cases a <;> rfl

/-- The three windows' block indices, decided over the twenty points: block `t` on the rows, block 0 on the columns. -/
theorem block_indices6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the rows scaled by the column: the three windows sit on the same rows. -/
theorem scale_flushed6 (t : Fin cfg6.N) :
    (dat6 (F := Ideal) V c).flushed 2 t = ((cfg6.win 2).blk t).view.read (Elt Ideal) (scaleG (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero zero_offsets6]
  simp only [View.ld_unit_zero (S := S5000x128) zero_offsets6, View.ld_unit_zero (S := S5000x1) zero_offsets6]
  funext j
  obtain ⟨p, q, rfl⟩ : ∃ (p : Fin 5000) (q : Fin 128), j = ix2 p q := ⟨j 0, j 1, eq_ix2 j⟩
  show k6_pay1 (iblk6 V c 0 t) (iblk6 V c 1 t) (ix2 p q) = scaleG (V c (Pipeline.arrRef spec6 0)) (V c (Pipeline.arrRef spec6 1)) (((cfg6.win 2).blk t).view.emb (ix2 p q))
  refine (scale_payload6 (iblk6 V c 0 t) (iblk6 V c 1 t) p q).trans ?_
  obtain ⟨e00, e01, e10, e11, e20, e21⟩ := block_indices6 t
  have h0 : ((cfg6.win 0).blk t).view.emb (ix2 p q) = ((cfg6.win 2).blk t).view.emb (ix2 p q) := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * q.val = win6_2.index t (1 : Fin 2) * 128 + 1 * q.val; omega
  have h1 : ((cfg6.win 1).blk t).view.emb (ix2 p (0 : Fin 1)) = ix2 (n0 := 100000) (n1 := 1) ((((cfg6.win 2).blk t).view.emb (ix2 p q)) 0) 0 := by
    funext a; apply Fin.ext
    match a with
    | ⟨0, _⟩ => show win6_1.index t (0 : Fin 2) * 5000 + 1 * p.val = win6_2.index t (0 : Fin 2) * 5000 + 1 * p.val; omega
    | ⟨1, _⟩ => show win6_1.index t (1 : Fin 2) * 1 + 1 * 0 = 0; omega
  unfold iblk6 scaleG
  rw [View.read_apply, View.read_apply, h0, h1]
  rfl

/-- An index of the output array lies in point `t`'s block iff, on each axis, its coordinate is in the block's range. -/
theorem mem_block6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole win6_2.arr.view.ref).slice (win6_2.rect t)).set ↔ _
  rw [View.set_slice_whole, Rect.mem_set_unit]
  exact Iff.rfl

/-- The twenty row blocks fill the output array: row `r` is in the block of point `r / 5000`. -/
theorem blocks_cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ : ∃ t : Fin cfg6.N, t.val = (i 0).val / 5000 :=
    ⟨⟨(i 0).val / 5000, lt_of_lt_of_eq (by omega) N_6.symm⟩, rfl⟩
  obtain ⟨-, -, -, -, e20, e21⟩ := block_indices6 t
  refine ⟨t, flush6_2 t, ?_⟩
  rw [mem_block6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- Region 6 (rows scaled by the column): after its twenty points the output array is `scaleG` of the two input arrays. -/
theorem scale6_final : (dat6 (F := Ideal) V c).arrAt 2 cfg6.N = scaleG (V c (Pipeline.arrRef spec6 0)) (V c (Pipeline.arrRef spec6 1)) := by
  exact (dat6 (F := Ideal) V c).arrAt_eq_of_cover 2 (scaleG (V c (Pipeline.arrRef spec6 0)) (V c (Pipeline.arrRef spec6 1)))
    (fun t _ => scale_flushed6 V c t) blocks_cover6

end Cert.Bridge.Reg

end
-- ==== Proof.RegMM5.lean ====
/-
  Region 5 of the kernel program (the dense layer with the positive part): what its output array holds after the twenty grid
  points, as one function of its five input arrays.

  The region walks the 100000 rows in twenty blocks of 5000. At point t it loads rows 5000 t … 5000 t + 4999 of the
  aggregate, of the self term and of the scaling column, the whole 128 x 128 matrix and the whole bias row, computes the
  dense layer on that block, and writes the result back to the same rows of the output. Every loaded block is the
  matching block of its array, so the block written at point t is block t of the whole-array dense layer `mmG true`;
  the twenty blocks tile the output array (row r lies in block r / 5000), hence the array is `mmG true` of the inputs.
-/
import proofs.«405684_j1614907703322_1_alg».proof.Proof.Gen.KernelIdeal.Frame
import proofs.«405684_j1614907703322_1_alg».proof.Proof.IdxSpec
import proofs.«405684_j1614907703322_1_alg».proof.Proof.LibKeepdims
import proofs.«405684_j1614907703322_1_alg».proof.Proof.MMCore

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The offsets of a whole-block access, however the zeros are spelt. -/
theorem zero_offsets5 : (![0, 0] : Fin 2 → Nat) = fun _ => 0 := funext fun a => by fin_cases a <;> rfl

/-- The windows' block indices over the grid: the three tall inputs and the output move down one row block per point;
    the matrix and the bias row stay at their one block. -/
theorem block_indices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The aggregate's block at point `t` is rows `5000 t … 5000 t + 4999` of its array. -/
theorem aggregate_block5 (t : Fin cfg5.N) (y : S5000x128.Idx) (i : SN.Idx) (hi0 : (i 0).val = t.val * 5000 + (y 0).val) (hi1 : (i 1).val = (y 1).val) :
    (iblk5 V c 0 t : Vec Ideal S5000x128 .f32) y = (V c (Pipeline.arrRef spec5 0) : SN.Idx → EReal) i := by
  obtain ⟨e0, e1, -⟩ := block_indices5 t
  unfold iblk5
  rw [View.read_apply]
  refine congrArg (V c (Pipeline.arrRef spec5 0)) (funext fun a => Fin.ext ?_)
  match a with
  | ⟨0, _⟩ => show win5_0.index t 0 * 5000 + 1 * (y 0).val = (i 0).val; omega
  | ⟨1, _⟩ => show win5_0.index t 1 * 128 + 1 * (y 1).val = (i 1).val; omega

/-- The self term's block at point `t` is the same rows of its array. -/
theorem self_block5 (t : Fin cfg5.N) (y : S5000x128.Idx) (i : SN.Idx) (hi0 : (i 0).val = t.val * 5000 + (y 0).val) (hi1 : (i 1).val = (y 1).val) :
    (iblk5 V c 1 t : Vec Ideal S5000x128 .f32) y = (V c (Pipeline.arrRef spec5 1) : SN.Idx → EReal) i := by
  obtain ⟨-, -, e0, e1, -⟩ := block_indices5 t
  unfold iblk5
  rw [View.read_apply]
  refine congrArg (V c (Pipeline.arrRef spec5 1)) (funext fun a => Fin.ext ?_)
  match a with
  | ⟨0, _⟩ => show win5_1.index t 0 * 5000 + 1 * (y 0).val = (i 0).val; omega
  | ⟨1, _⟩ => show win5_1.index t 1 * 128 + 1 * (y 1).val = (i 1).val; omega

/-- The scaling column's block at point `t` is the same rows of the column. -/
theorem column_block5 (t : Fin cfg5.N) (y : S5000x1.Idx) (i : SC.Idx) (hi0 : (i 0).val = t.val * 5000 + (y 0).val) :
    (iblk5 V c 2 t : Vec Ideal S5000x1 .f32) y = (V c (Pipeline.arrRef spec5 2) : SC.Idx → EReal) i := by
  obtain ⟨-, -, -, -, e0, e1, -⟩ := block_indices5 t
  unfold iblk5
  rw [View.read_apply]
  refine congrArg (V c (Pipeline.arrRef spec5 2)) (funext fun a => Fin.ext ?_)
  have hy := idx2_lt1 y
  have hi := idx2_lt1 i
  match a with
  | ⟨0, _⟩ => show win5_2.index t 0 * 5000 + 1 * (y 0).val = (i 0).val; omega
  | ⟨1, _⟩ => show win5_2.index t 1 * 1 + 1 * (y 1).val = (i 1).val; omega

/-- The matrix's block at every point is the whole matrix. -/
theorem matrix_block5 (t : Fin cfg5.N) (y : S128x128.Idx) :
    (iblk5 V c 3 t : Vec Ideal S128x128 .f32) y = (V c (Pipeline.arrRef spec5 3) : SW.Idx → EReal) y := by
  obtain ⟨-, -, -, -, -, -, e0, e1, -⟩ := block_indices5 t
  unfold iblk5
  rw [View.read_apply]
  refine congrArg (V c (Pipeline.arrRef spec5 3)) (funext fun a => Fin.ext ?_)
  match a with
  | ⟨0, _⟩ => show win5_3.index t 0 * 128 + 1 * (y 0).val = (y 0).val; omega
  | ⟨1, _⟩ => show win5_3.index t 1 * 128 + 1 * (y 1).val = (y 1).val; omega

/-- The bias row's block at every point is the whole row. -/
theorem bias_block5 (t : Fin cfg5.N) (y : S1x128.Idx) :
    (iblk5 V c 4 t : Vec Ideal S1x128 .f32) y = (V c (Pipeline.arrRef spec5 4) : SB.Idx → EReal) y := by
  obtain ⟨-, -, -, -, -, -, -, -, e0, e1, -⟩ := block_indices5 t
  unfold iblk5
  rw [View.read_apply]
  refine congrArg (V c (Pipeline.arrRef spec5 4)) (funext fun a => Fin.ext ?_)
  match a with
  | ⟨0, _⟩ => show win5_4.index t 0 * 1 + 1 * (y 0).val = (y 0).val; omega
  | ⟨1, _⟩ => show win5_4.index t 1 * 128 + 1 * (y 1).val = (y 1).val; omega

/-- The body's stored value is the dense layer on the loaded blocks, with the positive part. -/
theorem payload5 (x0 x1 : Vec Ideal S5000x128 .f32) (x2 : Vec Ideal S5000x1 .f32) (x3 : Vec Ideal S128x128 .f32) (x4 : Vec Ideal S1x128 .f32) :
    k5_pay1 x0 x1 x2 x3 x4 = maximumf (MM.dense x0 x1 x2 x3 x4) (broadcast S5000x128 (Scalar.ofBits (F := Ideal) .f32 0x00000000#32)) := rfl

/-- What the body leaves in the output's buffer at point `t`: the dense layer with the positive part of the five blocks loaded there. -/
theorem written5 (t : Fin cfg5.N) :
    (dat5 (F := Ideal) V c).after 5 t = maximumf (MM.dense (iblk5 V c 0 t) (iblk5 V c 1 t) (iblk5 V c 2 t) (iblk5 V c 3 t) (iblk5 V c 4 t)) (broadcast S5000x128 (Scalar.ofBits (F := Ideal) .f32 0x00000000#32)) := by
  rw [after5_5]
  unfold out5_5
  rw [View.canon_unit_zero zero_offsets5]
  simp only [View.ld_unit_zero (S := S5000x128) zero_offsets5, View.ld_unit_zero (S := S5000x1) zero_offsets5,
    View.ld_unit_zero (S := S128x128) zero_offsets5, View.ld_unit_zero (S := S1x128) zero_offsets5]
  rw [payload5]

/-- What point `t` writes back is block `t` of the whole-array dense layer of the five input arrays. -/
theorem flushed_output5 (t : Fin cfg5.N) :
    (dat5 (F := Ideal) V c).flushed 5 t = ((cfg5.win 5).blk t).view.read (Elt Ideal)
      (mmG true (V c (Pipeline.arrRef spec5 0)) (V c (Pipeline.arrRef spec5 1)) (V c (Pipeline.arrRef spec5 2)) (V c (Pipeline.arrRef spec5 3)) (V c (Pipeline.arrRef spec5 4))) := by
  refine (congrArg ((cfg5.win 5).cut (grid5.coords t)) (written5 V c t)).trans ?_
  obtain ⟨-, -, -, -, -, -, -, -, -, -, e0, e1⟩ := block_indices5 t
  funext j
  refine MM.dense_pos_block (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2)) (V c (Pipeline.arrRef spec5 3)) (V c (Pipeline.arrRef spec5 4))
    t.val (aggregate_block5 V c t) (self_block5 V c t) (column_block5 V c t) (matrix_block5 V c t) (bias_block5 V c t)
    j (((cfg5.win 5).blk t).view.emb j) ?_ ?_
  · show win5_5.index t 0 * 5000 + 1 * (j 0).val = t.val * 5000 + (j 0).val
    omega
  · show win5_5.index t 1 * 128 + 1 * (j 1).val = (j 1).val
    omega

/-- An index of the output array is in point `t`'s block iff each coordinate is in the block's range on its axis. -/
theorem mem_output_block5 (t : Fin cfg5.N) (i : SN.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (win5_5.arr.view.ref)).slice (win5_5.rect t)).set ↔ _
  rw [View.set_slice_whole, Rect.mem_set_unit]
  exact Iff.rfl

/-- Every index of the output array lies in the block of the point its row block names: row `r` in block `r / 5000`. -/
theorem output_cover5 (i : SN.Idx) : ∃ t : Fin cfg5.N, (cfg5.win 5).flush t = true ∧ i ∈ ((cfg5.win 5).blk t).view.set := by
  have hi0 : (i 0).val < 100000 := idx2_lt0 i
  have hi1 : (i 1).val < 128 := idx2_lt1 i
  have hN : grid5.N = 20 := N_5
  have ht : (i 0).val / 5000 < grid5.N := by rw [hN]; omega
  refine ⟨⟨(i 0).val / 5000, ht⟩, flush5_5 _, ?_⟩
  rw [mem_output_block5]
  obtain ⟨-, -, -, -, -, -, -, -, -, -, e0, e1⟩ := block_indices5 ⟨(i 0).val / 5000, ht⟩
  intro a
  match a with
  | ⟨0, _⟩ =>
    show win5_5.index _ (0 : Fin 2) * 5000 ≤ (i 0).val ∧ (i 0).val < win5_5.index _ (0 : Fin 2) * 5000 + 5000
    rw [e0]
    show (i 0).val / 5000 * 5000 ≤ (i 0).val ∧ (i 0).val < (i 0).val / 5000 * 5000 + 5000
    omega
  | ⟨1, _⟩ =>
    show win5_5.index _ (1 : Fin 2) * 128 ≤ (i 1).val ∧ (i 1).val < win5_5.index _ (1 : Fin 2) * 128 + 128
    rw [e1]
    omega

/-- Region 5 (the dense layer with the positive part): after its twenty points the output array is `mmG true` of the five input arrays. -/
theorem mm5_final : (dat5 (F := Ideal) V c).arrAt 5 cfg5.N
    = mmG true (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed_output5 V c t) (output_cover5)

end Cert.Bridge.Reg

end
-- ==== Proof.RegMM7.lean ====
/-
  Region 7 of the kernel program (the dense layer without the positive part): what its output array holds after the twenty grid
  points, as one function of its five input arrays.

  The region walks the 100000 rows in twenty blocks of 5000. At point t it loads rows 5000 t … 5000 t + 4999 of the
  aggregate, of the self term and of the scaling column, the whole 128 x 128 matrix and the whole bias row, computes the
  dense layer on that block, and writes the result back to the same rows of the output. Every loaded block is the
  matching block of its array, so the block written at point t is block t of the whole-array dense layer `mmG false`;
  the twenty blocks tile the output array (row r lies in block r / 5000), hence the array is `mmG false` of the inputs.
-/
import proofs.«405684_j1614907703322_1_alg».proof.Proof.Gen.KernelIdeal.Frame
import proofs.«405684_j1614907703322_1_alg».proof.Proof.IdxSpec
import proofs.«405684_j1614907703322_1_alg».proof.Proof.LibKeepdims
import proofs.«405684_j1614907703322_1_alg».proof.Proof.MMCore

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (V : (c : Dev nD) → (b : Ref sig .tc) → Buf (Elt Ideal) ((c : Thread nD τ).loc b)) (c : Dev nD)

/-- The offsets of a whole-block access, however the zeros are spelt. -/
theorem zero_offsets7 : (![0, 0] : Fin 2 → Nat) = fun _ => 0 := funext fun a => by fin_cases a <;> rfl

/-- The windows' block indices over the grid: the three tall inputs and the output move down one row block per point;
    the matrix and the bias row stay at their one block. -/
theorem block_indices7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The aggregate's block at point `t` is rows `5000 t … 5000 t + 4999` of its array. -/
theorem aggregate_block7 (t : Fin cfg7.N) (y : S5000x128.Idx) (i : SN.Idx) (hi0 : (i 0).val = t.val * 5000 + (y 0).val) (hi1 : (i 1).val = (y 1).val) :
    (iblk7 V c 0 t : Vec Ideal S5000x128 .f32) y = (V c (Pipeline.arrRef spec7 0) : SN.Idx → EReal) i := by
  obtain ⟨e0, e1, -⟩ := block_indices7 t
  unfold iblk7
  rw [View.read_apply]
  refine congrArg (V c (Pipeline.arrRef spec7 0)) (funext fun a => Fin.ext ?_)
  match a with
  | ⟨0, _⟩ => show win7_0.index t 0 * 5000 + 1 * (y 0).val = (i 0).val; omega
  | ⟨1, _⟩ => show win7_0.index t 1 * 128 + 1 * (y 1).val = (i 1).val; omega

/-- The self term's block at point `t` is the same rows of its array. -/
theorem self_block7 (t : Fin cfg7.N) (y : S5000x128.Idx) (i : SN.Idx) (hi0 : (i 0).val = t.val * 5000 + (y 0).val) (hi1 : (i 1).val = (y 1).val) :
    (iblk7 V c 1 t : Vec Ideal S5000x128 .f32) y = (V c (Pipeline.arrRef spec7 1) : SN.Idx → EReal) i := by
  obtain ⟨-, -, e0, e1, -⟩ := block_indices7 t
  unfold iblk7
  rw [View.read_apply]
  refine congrArg (V c (Pipeline.arrRef spec7 1)) (funext fun a => Fin.ext ?_)
  match a with
  | ⟨0, _⟩ => show win7_1.index t 0 * 5000 + 1 * (y 0).val = (i 0).val; omega
  | ⟨1, _⟩ => show win7_1.index t 1 * 128 + 1 * (y 1).val = (i 1).val; omega

/-- The scaling column's block at point `t` is the same rows of the column. -/
theorem column_block7 (t : Fin cfg7.N) (y : S5000x1.Idx) (i : SC.Idx) (hi0 : (i 0).val = t.val * 5000 + (y 0).val) :
    (iblk7 V c 2 t : Vec Ideal S5000x1 .f32) y = (V c (Pipeline.arrRef spec7 2) : SC.Idx → EReal) i := by
  obtain ⟨-, -, -, -, e0, e1, -⟩ := block_indices7 t
  unfold iblk7
  rw [View.read_apply]
  refine congrArg (V c (Pipeline.arrRef spec7 2)) (funext fun a => Fin.ext ?_)
  have hy := idx2_lt1 y
  have hi := idx2_lt1 i
  match a with
  | ⟨0, _⟩ => show win7_2.index t 0 * 5000 + 1 * (y 0).val = (i 0).val; omega
  | ⟨1, _⟩ => show win7_2.index t 1 * 1 + 1 * (y 1).val = (i 1).val; omega

/-- The matrix's block at every point is the whole matrix. -/
theorem matrix_block7 (t : Fin cfg7.N) (y : S128x128.Idx) :
    (iblk7 V c 3 t : Vec Ideal S128x128 .f32) y = (V c (Pipeline.arrRef spec7 3) : SW.Idx → EReal) y := by
  obtain ⟨-, -, -, -, -, -, e0, e1, -⟩ := block_indices7 t
  unfold iblk7
  rw [View.read_apply]
  refine congrArg (V c (Pipeline.arrRef spec7 3)) (funext fun a => Fin.ext ?_)
  match a with
  | ⟨0, _⟩ => show win7_3.index t 0 * 128 + 1 * (y 0).val = (y 0).val; omega
  | ⟨1, _⟩ => show win7_3.index t 1 * 128 + 1 * (y 1).val = (y 1).val; omega

/-- The bias row's block at every point is the whole row. -/
theorem bias_block7 (t : Fin cfg7.N) (y : S1x128.Idx) :
    (iblk7 V c 4 t : Vec Ideal S1x128 .f32) y = (V c (Pipeline.arrRef spec7 4) : SB.Idx → EReal) y := by
  obtain ⟨-, -, -, -, -, -, -, -, e0, e1, -⟩ := block_indices7 t
  unfold iblk7
  rw [View.read_apply]
  refine congrArg (V c (Pipeline.arrRef spec7 4)) (funext fun a => Fin.ext ?_)
  match a with
  | ⟨0, _⟩ => show win7_4.index t 0 * 1 + 1 * (y 0).val = (y 0).val; omega
  | ⟨1, _⟩ => show win7_4.index t 1 * 128 + 1 * (y 1).val = (y 1).val; omega

/-- The body's stored value is the dense layer on the loaded blocks. -/
theorem payload7 (x0 x1 : Vec Ideal S5000x128 .f32) (x2 : Vec Ideal S5000x1 .f32) (x3 : Vec Ideal S128x128 .f32) (x4 : Vec Ideal S1x128 .f32) :
    k7_pay1 x0 x1 x2 x3 x4 = MM.dense x0 x1 x2 x3 x4 := rfl

/-- What the body leaves in the output's buffer at point `t`: the dense layer of the five blocks loaded there. -/
theorem written7 (t : Fin cfg7.N) :
    (dat7 (F := Ideal) V c).after 5 t = MM.dense (iblk7 V c 0 t) (iblk7 V c 1 t) (iblk7 V c 2 t) (iblk7 V c 3 t) (iblk7 V c 4 t) := by
  rw [after7_5]
  unfold out7_5
  rw [View.canon_unit_zero zero_offsets7]
  simp only [View.ld_unit_zero (S := S5000x128) zero_offsets7, View.ld_unit_zero (S := S5000x1) zero_offsets7,
    View.ld_unit_zero (S := S128x128) zero_offsets7, View.ld_unit_zero (S := S1x128) zero_offsets7]
  rw [payload7]

/-- What point `t` writes back is block `t` of the whole-array dense layer of the five input arrays. -/
theorem flushed_output7 (t : Fin cfg7.N) :
    (dat7 (F := Ideal) V c).flushed 5 t = ((cfg7.win 5).blk t).view.read (Elt Ideal)
      (mmG false (V c (Pipeline.arrRef spec7 0)) (V c (Pipeline.arrRef spec7 1)) (V c (Pipeline.arrRef spec7 2)) (V c (Pipeline.arrRef spec7 3)) (V c (Pipeline.arrRef spec7 4))) := by
  refine (congrArg ((cfg7.win 5).cut (grid7.coords t)) (written7 V c t)).trans ?_
  obtain ⟨-, -, -, -, -, -, -, -, -, -, e0, e1⟩ := block_indices7 t
  funext j
  refine MM.dense_block (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2)) (V c (Pipeline.arrRef spec7 3)) (V c (Pipeline.arrRef spec7 4))
    t.val (aggregate_block7 V c t) (self_block7 V c t) (column_block7 V c t) (matrix_block7 V c t) (bias_block7 V c t)
    j (((cfg7.win 5).blk t).view.emb j) ?_ ?_
  · show win7_5.index t 0 * 5000 + 1 * (j 0).val = t.val * 5000 + (j 0).val
    omega
  · show win7_5.index t 1 * 128 + 1 * (j 1).val = (j 1).val
    omega

/-- An index of the output array is in point `t`'s block iff each coordinate is in the block's range on its axis. -/
theorem mem_output_block7 (t : Fin cfg7.N) (i : SN.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole (win7_5.arr.view.ref)).slice (win7_5.rect t)).set ↔ _
  rw [View.set_slice_whole, Rect.mem_set_unit]
  exact Iff.rfl

/-- Every index of the output array lies in the block of the point its row block names: row `r` in block `r / 5000`. -/
theorem output_cover7 (i : SN.Idx) : ∃ t : Fin cfg7.N, (cfg7.win 5).flush t = true ∧ i ∈ ((cfg7.win 5).blk t).view.set := by
  have hi0 : (i 0).val < 100000 := idx2_lt0 i
  have hi1 : (i 1).val < 128 := idx2_lt1 i
  have hN : grid7.N = 20 := N_7
  have ht : (i 0).val / 5000 < grid7.N := by rw [hN]; omega
  refine ⟨⟨(i 0).val / 5000, ht⟩, flush7_5 _, ?_⟩
  rw [mem_output_block7]
  obtain ⟨-, -, -, -, -, -, -, -, -, -, e0, e1⟩ := block_indices7 ⟨(i 0).val / 5000, ht⟩
  intro a
  match a with
  | ⟨0, _⟩ =>
    show win7_5.index _ (0 : Fin 2) * 5000 ≤ (i 0).val ∧ (i 0).val < win7_5.index _ (0 : Fin 2) * 5000 + 5000
    rw [e0]
    show (i 0).val / 5000 * 5000 ≤ (i 0).val ∧ (i 0).val < (i 0).val / 5000 * 5000 + 5000
    omega
  | ⟨1, _⟩ =>
    show win7_5.index _ (1 : Fin 2) * 128 ≤ (i 1).val ∧ (i 1).val < win7_5.index _ (1 : Fin 2) * 128 + 128
    rw [e1]
    omega

/-- Region 7 (the dense layer): after its twenty points the output array is `mmG false` of the five input arrays. -/
theorem mm7_final : (dat7 (F := Ideal) V c).arrAt 5 cfg7.N
    = mmG false (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => flushed_output7 V c t) (output_cover7)

end Cert.Bridge.Reg

end
-- ==== Proof.ChainB.lean ====
import proofs.«405684_j1614907703322_1_alg».proof.Proof.Gen.KernelIdeal.Frame
import proofs.«405684_j1614907703322_1_alg».proof.Proof.KSpec
import proofs.«405684_j1614907703322_1_alg».proof.Proof.RegScale4
import proofs.«405684_j1614907703322_1_alg».proof.Proof.RegScale6
import proofs.«405684_j1614907703322_1_alg».proof.Proof.RegMM5
import proofs.«405684_j1614907703322_1_alg».proof.Proof.RegMM7

set_option maxRecDepth 16384

noncomputable section

namespace Cert.Bridge.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

/-! ## The host stretches, over any contents and any float instance

Each of the four stretches between the regions is a short straight line of operations. Over arbitrary entry contents
`X` we read off what it leaves in the buffers it computes (the gather as `K.take`, the scatter as `K.segsum`, the bias
as `K.row`), and that every buffer outside the list of those it writes is left alone. -/

section Host

variable {F : FTy → Type} [FloatOps F]

/-- Reading back what was just put: the two transports along one type equation cancel. -/
theorem ofBuf_toBuf {T : BufTy} (x : StableHlo.TRef sig T) (v : T.Contents (Elt F)) : x.ofBuf (x.toBuf v) = v := by
  simp only [StableHlo.TRef.ofBuf, StableHlo.TRef.toBuf, cast_cast, cast_eq]

/-! At a literal buffer the transport is along `rfl`: the identity. -/
theorem ofBuf_arg8 (v : (main_arg8 : Ref sig .tc).ty.Contents (Elt F)) :
    (StableHlo.TRef.of main_arg8 : StableHlo.TRef sig ⟨S1600000, .i32⟩).ofBuf v = v := rfl
theorem ofBuf_v22 (v : (main_v22 : Ref sig .tc).ty.Contents (Elt F)) :
    (StableHlo.TRef.of main_v22 : StableHlo.TRef sig ⟨S100000x128, .f32⟩).ofBuf v = v := rfl
theorem ofBuf_v29 (v : (main_v29 : Ref sig .tc).ty.Contents (Elt F)) :
    (StableHlo.TRef.of main_v29 : StableHlo.TRef sig ⟨S100000x128, .f32⟩).ofBuf v = v := rfl
theorem toBuf_v23 (v : (⟨S1600000x128, .f32⟩ : BufTy).Contents (Elt F)) :
    (StableHlo.TRef.of main_v23 : StableHlo.TRef sig ⟨S1600000x128, .f32⟩).toBuf v = v := rfl
theorem toBuf_v30 (v : (⟨S1600000x128, .f32⟩ : BufTy).Contents (Elt F)) :
    (StableHlo.TRef.of main_v30 : StableHlo.TRef sig ⟨S1600000x128, .f32⟩).toBuf v = v := rfl

/-- The gather after region 4 leaves in `main_v23` the rows of `main_v22` the edges start from. -/
theorem take5_v23 (X : Valuation τ sig (Elt F)) :
    StableHlo.after (hostOps5 (F := F)) X (Proc.devRef .tc main_v23)
      = K.take (F := F) (X (Proc.devRef .tc main_v22)) (X (Proc.devRef .tc main_arg8)) := by
  after_results_simp
  simp only [ofBuf_toBuf, ofBuf_arg8, ofBuf_v22, toBuf_v23]
  rfl

/-- The gather after region 6 leaves in `main_v30` the rows of `main_v29` the edges start from. -/
theorem take7_v30 (X : Valuation τ sig (Elt F)) :
    StableHlo.after (hostOps7 (F := F)) X (Proc.devRef .tc main_v30)
      = K.take (F := F) (X (Proc.devRef .tc main_v29)) (X (Proc.devRef .tc main_arg8)) := by
  after_results_simp
  simp only [ofBuf_toBuf, ofBuf_arg8, ofBuf_v29, toBuf_v30]
  rfl

/-- The segment sum before region 5: `main_v26` is the per-node sum of the edge rows `main_v23`. -/
theorem seg5_v26 (X : Valuation τ sig (Elt F)) :
    StableHlo.after (hostOps5_1 (F := F)) X (Proc.devRef .tc main_v26)
      = K.segsum (F := F) (X (Proc.devRef .tc main_v23)) (X (Proc.devRef .tc main_arg9)) := by
  after_results
  rfl

/-- The first bias as a row, before region 5. -/
theorem seg5_v27 (X : Valuation τ sig (Elt F)) :
    StableHlo.after (hostOps5_1 (F := F)) X (Proc.devRef .tc main_v27) = K.row (F := F) (X (Proc.devRef .tc main_arg3)) := by
  after_results
  rfl

/-- The segment sum before region 7: `main_v33` is the per-node sum of the edge rows `main_v30`. -/
theorem seg7_v33 (X : Valuation τ sig (Elt F)) :
    StableHlo.after (hostOps7_1 (F := F)) X (Proc.devRef .tc main_v33)
      = K.segsum (F := F) (X (Proc.devRef .tc main_v30)) (X (Proc.devRef .tc main_arg9)) := by
  after_results
  rfl

/-- The second bias as a row, before region 7. -/
theorem seg7_v34 (X : Valuation τ sig (Elt F)) :
    StableHlo.after (hostOps7_1 (F := F)) X (Proc.devRef .tc main_v34) = K.row (F := F) (X (Proc.devRef .tc main_arg5)) := by
  after_results
  rfl

/-- The buffers the gather after region 4 writes. -/
abbrev take5_W : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v23]
/-- The buffers the segment-sum stretch before region 5 writes. -/
abbrev seg5_W : List (Ref sig .tc) := [main_cst_5, main_v24, main_v25, main_v26, main_v27]
/-- The buffers the gather after region 6 writes. -/
abbrev take7_W : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v30]
/-- The buffers the segment-sum stretch before region 7 writes. -/
abbrev seg7_W : List (Ref sig .tc) := [main_cst_6, main_v31, main_v32, main_v33, main_v34]

theorem take5_writes : (hostOps5 : List (HloOp τ sig (Elt F))).Forall fun op => op.writes ⊆ (take5_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem seg5_writes : (hostOps5_1 : List (HloOp τ sig (Elt F))).Forall fun op => op.writes ⊆ (seg5_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem take7_writes : (hostOps7 : List (HloOp τ sig (Elt F))).Forall fun op => op.writes ⊆ (take7_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem seg7_writes : (hostOps7_1 : List (HloOp τ sig (Elt F))).Forall fun op => op.writes ⊆ (seg7_W.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)

end Host

/-! ## The walk from region 4's entry to region 7's exit -/

variable (m : (ℓ : Loc nD τ sig) → Buf (Elt Ideal) ℓ) (ρ : Dev nD → PrngReg) (c : Dev nD)

/-! ### What each host stretch leaves alone -/

theorem W11_keep (r : Ref sig .tc) (h : r ∉ take5_W) : W11 m ρ c (Proc.devRef .tc r) = W10 m ρ c (Proc.devRef .tc r) :=
  StableHlo.after_of_writes_sub hostOps5 (W10 m ρ c) take5_writes h
theorem W12_keep (r : Ref sig .tc) (h : r ∉ seg5_W) : W12 m ρ c (Proc.devRef .tc r) = W11 m ρ c (Proc.devRef .tc r) :=
  StableHlo.after_of_writes_sub hostOps5_1 (W11 m ρ c) seg5_writes h
theorem W15_keep (r : Ref sig .tc) (h : r ∉ take7_W) : W15 m ρ c (Proc.devRef .tc r) = W14 m ρ c (Proc.devRef .tc r) :=
  StableHlo.after_of_writes_sub hostOps7 (W14 m ρ c) take7_writes h
theorem W16_keep (r : Ref sig .tc) (h : r ∉ seg7_W) : W16 m ρ c (Proc.devRef .tc r) = W15 m ρ c (Proc.devRef .tc r) :=
  StableHlo.after_of_writes_sub hostOps7_1 (W15 m ρ c) seg7_writes h

/-! ### The normalisation column: an input window of every region, written by none -/

theorem W10_v7 : W10 m ρ c (Proc.devRef .tc main_v7) = W9 m ρ c (Proc.devRef .tc main_v7) :=
  (W10_arr m ρ c 1).trans (((dat4 (V9 m ρ) c).arrAt_in 1 rfl _).trans (A_eq4 (V9 m ρ) c 1))
theorem W12_v7 : W12 m ρ c (Proc.devRef .tc main_v7) = W9 m ρ c (Proc.devRef .tc main_v7) := by
  rw [W12_keep m ρ c main_v7 (by decide), W11_keep m ρ c main_v7 (by decide), W10_v7]
theorem W13_v7 : W13 m ρ c (Proc.devRef .tc main_v7) = W9 m ρ c (Proc.devRef .tc main_v7) :=
  ((W13_arr m ρ c 2).trans (((dat5 (V12 m ρ) c).arrAt_in 2 rfl _).trans (A_eq5 (V12 m ρ) c 2))).trans (W12_v7 m ρ c)
theorem W14_v7 : W14 m ρ c (Proc.devRef .tc main_v7) = W9 m ρ c (Proc.devRef .tc main_v7) :=
  ((W14_arr m ρ c 1).trans (((dat6 (V13 m ρ) c).arrAt_in 1 rfl _).trans (A_eq6 (V13 m ρ) c 1))).trans (W13_v7 m ρ c)
theorem W16_v7 : W16 m ρ c (Proc.devRef .tc main_v7) = W9 m ρ c (Proc.devRef .tc main_v7) := by
  rw [W16_keep m ρ c main_v7 (by decide), W15_keep m ρ c main_v7 (by decide), W14_v7]

/-! ### The arguments the second view reads, up to the boundary where each is read -/

theorem W10_arg8 : W10 m ρ c (Proc.devRef .tc main_arg8) = W9 m ρ c (Proc.devRef .tc main_arg8) :=
  W10_of_ne m ρ c main_arg8 (by decide)
theorem W14_arg8 : W14 m ρ c (Proc.devRef .tc main_arg8) = W9 m ρ c (Proc.devRef .tc main_arg8) := by
  rw [W14_of_ne m ρ c main_arg8 (by decide), W13_of_ne m ρ c main_arg8 (by decide), W12_keep m ρ c main_arg8 (by decide),
    W11_keep m ρ c main_arg8 (by decide), W10_arg8]
theorem W11_arg9 : W11 m ρ c (Proc.devRef .tc main_arg9) = W9 m ρ c (Proc.devRef .tc main_arg9) := by
  rw [W11_keep m ρ c main_arg9 (by decide), W10_of_ne m ρ c main_arg9 (by decide)]
theorem W15_arg9 : W15 m ρ c (Proc.devRef .tc main_arg9) = W9 m ρ c (Proc.devRef .tc main_arg9) := by
  rw [W15_keep m ρ c main_arg9 (by decide), W14_of_ne m ρ c main_arg9 (by decide), W13_of_ne m ρ c main_arg9 (by decide),
    W12_keep m ρ c main_arg9 (by decide), W11_arg9]
theorem W11_arg3 : W11 m ρ c (Proc.devRef .tc main_arg3) = W9 m ρ c (Proc.devRef .tc main_arg3) := by
  rw [W11_keep m ρ c main_arg3 (by decide), W10_of_ne m ρ c main_arg3 (by decide)]
theorem W12_arg2 : W12 m ρ c (Proc.devRef .tc main_arg2) = W9 m ρ c (Proc.devRef .tc main_arg2) := by
  rw [W12_keep m ρ c main_arg2 (by decide), W11_keep m ρ c main_arg2 (by decide), W10_of_ne m ρ c main_arg2 (by decide)]
theorem W15_arg5 : W15 m ρ c (Proc.devRef .tc main_arg5) = W9 m ρ c (Proc.devRef .tc main_arg5) := by
  rw [W15_keep m ρ c main_arg5 (by decide), W14_of_ne m ρ c main_arg5 (by decide), W13_of_ne m ρ c main_arg5 (by decide),
    W12_keep m ρ c main_arg5 (by decide), W11_keep m ρ c main_arg5 (by decide), W10_of_ne m ρ c main_arg5 (by decide)]
theorem W16_arg4 : W16 m ρ c (Proc.devRef .tc main_arg4) = W9 m ρ c (Proc.devRef .tc main_arg4) := by
  rw [W16_keep m ρ c main_arg4 (by decide), W15_keep m ρ c main_arg4 (by decide), W14_of_ne m ρ c main_arg4 (by decide),
    W13_of_ne m ρ c main_arg4 (by decide), W12_keep m ρ c main_arg4 (by decide), W11_keep m ρ c main_arg4 (by decide),
    W10_of_ne m ρ c main_arg4 (by decide)]

/-! ### The first layer: regions 4 and 5 -/

/-- Region 4 scales the second feature array by the normalisation column. -/
theorem W10_v22 : W10 m ρ c (Proc.devRef .tc main_v22)
    = scaleG (W9 m ρ c (Proc.devRef .tc main_arg1)) (W9 m ρ c (Proc.devRef .tc main_v7)) :=
  (W10_arr m ρ c 2).trans (Reg.scale4_final (V9 m ρ) c)
theorem W12_v22 : W12 m ρ c (Proc.devRef .tc main_v22)
    = scaleG (W9 m ρ c (Proc.devRef .tc main_arg1)) (W9 m ρ c (Proc.devRef .tc main_v7)) := by
  rw [W12_keep m ρ c main_v22 (by decide), W11_keep m ρ c main_v22 (by decide), W10_v22]
theorem W11_v23 : W11 m ρ c (Proc.devRef .tc main_v23)
    = K.take (F := Ideal) (scaleG (W9 m ρ c (Proc.devRef .tc main_arg1)) (W9 m ρ c (Proc.devRef .tc main_v7)))
        (W9 m ρ c (Proc.devRef .tc main_arg8)) := by
  rw [← W10_v22, ← W10_arg8]; exact take5_v23 (W10 m ρ c)
theorem W12_v26 : W12 m ρ c (Proc.devRef .tc main_v26)
    = K.segsum (F := Ideal) (K.take (F := Ideal) (scaleG (W9 m ρ c (Proc.devRef .tc main_arg1)) (W9 m ρ c (Proc.devRef .tc main_v7)))
        (W9 m ρ c (Proc.devRef .tc main_arg8))) (W9 m ρ c (Proc.devRef .tc main_arg9)) := by
  rw [← W11_v23, ← W11_arg9]; exact seg5_v26 (W11 m ρ c)
theorem W12_v27 : W12 m ρ c (Proc.devRef .tc main_v27) = K.row (F := Ideal) (W9 m ρ c (Proc.devRef .tc main_arg3)) := by
  rw [← W11_arg3]; exact seg5_v27 (W11 m ρ c)

/-- Region 5 leaves the first layer of the second view. -/
theorem W13_v28 : W13 m ρ c (Proc.devRef .tc main_v28)
    = K.layer true (W9 m ρ c (Proc.devRef .tc main_arg1)) (W9 m ρ c (Proc.devRef .tc main_v7)) (W9 m ρ c (Proc.devRef .tc main_arg8))
        (W9 m ρ c (Proc.devRef .tc main_arg9)) (W9 m ρ c (Proc.devRef .tc main_arg2)) (K.row (F := Ideal) (W9 m ρ c (Proc.devRef .tc main_arg3))) := by
  unfold K.layer
  rw [← W12_v26, ← W12_v22, ← W12_v7, ← W12_arg2, ← W12_v27]
  exact (W13_arr m ρ c 5).trans (Reg.mm5_final (V12 m ρ) c)

/-! ### The second layer: regions 6 and 7 -/

/-- Region 6 scales the first layer's output by the normalisation column. -/
theorem W14_v29 : W14 m ρ c (Proc.devRef .tc main_v29)
    = scaleG (W13 m ρ c (Proc.devRef .tc main_v28)) (W9 m ρ c (Proc.devRef .tc main_v7)) := by
  rw [← W13_v7]; exact (W14_arr m ρ c 2).trans (Reg.scale6_final (V13 m ρ) c)
theorem W16_v29 : W16 m ρ c (Proc.devRef .tc main_v29)
    = scaleG (W13 m ρ c (Proc.devRef .tc main_v28)) (W9 m ρ c (Proc.devRef .tc main_v7)) := by
  rw [W16_keep m ρ c main_v29 (by decide), W15_keep m ρ c main_v29 (by decide), W14_v29]
theorem W15_v30 : W15 m ρ c (Proc.devRef .tc main_v30)
    = K.take (F := Ideal) (scaleG (W13 m ρ c (Proc.devRef .tc main_v28)) (W9 m ρ c (Proc.devRef .tc main_v7)))
        (W9 m ρ c (Proc.devRef .tc main_arg8)) := by
  rw [← W14_v29, ← W14_arg8]; exact take7_v30 (W14 m ρ c)
theorem W16_v33 : W16 m ρ c (Proc.devRef .tc main_v33)
    = K.segsum (F := Ideal) (K.take (F := Ideal) (scaleG (W13 m ρ c (Proc.devRef .tc main_v28)) (W9 m ρ c (Proc.devRef .tc main_v7)))
        (W9 m ρ c (Proc.devRef .tc main_arg8))) (W9 m ρ c (Proc.devRef .tc main_arg9)) := by
  rw [← W15_v30, ← W15_arg9]; exact seg7_v33 (W15 m ρ c)
theorem W16_v34 : W16 m ρ c (Proc.devRef .tc main_v34) = K.row (F := Ideal) (W9 m ρ c (Proc.devRef .tc main_arg5)) := by
  rw [← W15_arg5]; exact seg7_v34 (W15 m ρ c)

/-- Region 7 leaves the second layer over whatever region 5 left. -/
theorem W17_v35_layer : W17 m ρ c (Proc.devRef .tc main_v35)
    = K.layer false (W13 m ρ c (Proc.devRef .tc main_v28)) (W9 m ρ c (Proc.devRef .tc main_v7)) (W9 m ρ c (Proc.devRef .tc main_arg8))
        (W9 m ρ c (Proc.devRef .tc main_arg9)) (W9 m ρ c (Proc.devRef .tc main_arg4)) (K.row (F := Ideal) (W9 m ρ c (Proc.devRef .tc main_arg5))) := by
  unfold K.layer
  rw [← W16_v33, ← W16_v29, ← W16_v7, ← W16_arg4, ← W16_v34]
  exact (W17_arr m ρ c 5).trans (Reg.mm7_final (V16 m ρ) c)

/-- The second view's encoding: regions 4 to 7 with the gathers and segment sums between them compute `K.enc` of the second feature array. -/
theorem W17_v35 : W17 m ρ c (Proc.devRef .tc main_v35)
    = K.enc (W9 m ρ c (Proc.devRef .tc main_arg1)) (W9 m ρ c (Proc.devRef .tc main_v7)) (W9 m ρ c (Proc.devRef .tc main_arg8)) (W9 m ρ c (Proc.devRef .tc main_arg9))
        (W9 m ρ c (Proc.devRef .tc main_arg2)) (W9 m ρ c (Proc.devRef .tc main_arg3)) (W9 m ρ c (Proc.devRef .tc main_arg4)) (W9 m ρ c (Proc.devRef .tc main_arg5)) := by
  unfold K.enc
  rw [← W13_v28]
  exact W17_v35_layer m ρ c
theorem W17_v21 : W17 m ρ c (Proc.devRef .tc main_v21) = W9 m ρ c (Proc.devRef .tc main_v21) := by
  rw [W17_of_ne m ρ c main_v21 (by decide), W16_keep m ρ c main_v21 (by decide), W15_keep m ρ c main_v21 (by decide),
    W14_of_ne m ρ c main_v21 (by decide), W13_of_ne m ρ c main_v21 (by decide), W12_keep m ρ c main_v21 (by decide),
    W11_keep m ρ c main_v21 (by decide), W10_of_ne m ρ c main_v21 (by decide)]
theorem W17_arg6 : W17 m ρ c (Proc.devRef .tc main_arg6) = W9 m ρ c (Proc.devRef .tc main_arg6) := by
  rw [W17_of_ne m ρ c main_arg6 (by decide), W16_keep m ρ c main_arg6 (by decide), W15_keep m ρ c main_arg6 (by decide),
    W14_of_ne m ρ c main_arg6 (by decide), W13_of_ne m ρ c main_arg6 (by decide), W12_keep m ρ c main_arg6 (by decide),
    W11_keep m ρ c main_arg6 (by decide), W10_of_ne m ρ c main_arg6 (by decide)]
theorem W17_arg7 : W17 m ρ c (Proc.devRef .tc main_arg7) = W9 m ρ c (Proc.devRef .tc main_arg7) := by
  rw [W17_of_ne m ρ c main_arg7 (by decide), W16_keep m ρ c main_arg7 (by decide), W15_keep m ρ c main_arg7 (by decide),
    W14_of_ne m ρ c main_arg7 (by decide), W13_of_ne m ρ c main_arg7 (by decide), W12_keep m ρ c main_arg7 (by decide),
    W11_keep m ρ c main_arg7 (by decide), W10_of_ne m ρ c main_arg7 (by decide)]
theorem W17_cst : W17 m ρ c (Proc.devRef .tc main_cst) = W9 m ρ c (Proc.devRef .tc main_cst) := by
  rw [W17_of_ne m ρ c main_cst (by decide), W16_keep m ρ c main_cst (by decide), W15_keep m ρ c main_cst (by decide),
    W14_of_ne m ρ c main_cst (by decide), W13_of_ne m ρ c main_cst (by decide), W12_keep m ρ c main_cst (by decide),
    W11_keep m ρ c main_cst (by decide), W10_of_ne m ρ c main_cst (by decide)]

end Cert.Bridge.Chain

end
-- ==== Proof.RegColsum8.lean ====
/-
  Region 8, the column sums. The grid has twenty points; point `t` sees rows `5000 t … 5000 t + 4999` of the input array
  (100000 × 128) and ONE output block, the whole output row (1 × 128), whose index never moves: the row is carried from
  point to point and written back after the last point only. At the first point the row is set to zero; at every point
  the column sums of the point's 5000 rows are added to it.

  The invariant: after point `n` the carried row holds, at column `j`, the sum of the first `5000 (n + 1)` entries of
  column `j` of the input array. It is proved by induction on the point, with the column written as a sequence over the
  naturals so that twenty consecutive stretches of 5000 terms join into one stretch of 100000 (`Finset.sum_range_add`);
  on the extended reals this uses only that `+` is associative with `0` neutral. After the last point the row is
  `colsumG` of the input array, the last point's write-back puts it in the output array, and the one block covers the array.
-/
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

/-- The zero offsets of a whole-block rectangle, as the constant function. -/
theorem zeroOffsets8 : (![0, 0] : Fin 2 → Nat) = fun _ => 0 := funext fun a => by fin_cases a <;> rfl

/-- AT A LATER POINT (the reset not taken) the body leaves, in the output's staging buffer holding `xo`, the accumulation's
    payload of `xo` and the input block `x`: its one covering store, whose loads read the whole buffers. -/
theorem stepLeaves8 (c : Dev nD) (i : grid8.Coords) (a1 : Memref sig .tc .vmem S5000x128 .f32) (h1 : a1.IsWhole)
    (a2 : Memref sig .tc .vmem S1x128 .f32) (h2 : a2.IsWhole) (hc : ¬cond8_0 i) (x : Vec Ideal S5000x128 .f32) (xo : Vec Ideal S1x128 .f32) :
    out8_B_1 (F := Ideal) c i a1 h1 a2 h2 hc x xo = k8_pay2 (F := Ideal) xo x := by
  unfold out8_B_1
  rw [View.read_writes_eq_canon _ _ _ (cover8_B_1 c i a1 h1 a2 h2 hc x xo)]
  unfold kernelRun8_B
  dsimp only
  sl_unfold_words
  rw [View.canon_unit_zero zeroOffsets8]
  simp only [View.readAt_eq_ld, h1.read_unread, h2.read_unread, View.ld_unit_zero (S := S5000x128) zeroOffsets8, View.ld_unit_zero (S := S1x128) zeroOffsets8]

/-- AT THE FIRST POINT (the reset taken) the body stores the zero row, reads it back, and leaves the accumulation's payload
    of the zero row and the input block `x`. -/
theorem resetLeaves8 (c : Dev nD) (i : grid8.Coords) (a1 : Memref sig .tc .vmem S5000x128 .f32) (h1 : a1.IsWhole)
    (a2 : Memref sig .tc .vmem S1x128 .f32) (h2 : a2.IsWhole) (hc : cond8_0 i) (x : Vec Ideal S5000x128 .f32) :
    out8_A_1 (F := Ideal) c i a1 h1 a2 h2 hc x = k8_pay2 (F := Ideal) (k8_pay1 (F := Ideal)) x := by
  unfold out8_A_1
  rw [View.read_writes_eq_canon _ _ _ (cover8_A_1 c i a1 h1 a2 h2 hc x)]
  unfold kernelRun8_A
  dsimp only
  sl_unfold_words
  rw [View.canon_cons_unit_zero (S := S1x128) zeroOffsets8, View.readCov_unit_zero (S := S1x128) _ zeroOffsets8]
  simp only [View.readAt_eq_ld, h1.read_unread, View.ld_unit_zero (S := S5000x128) zeroOffsets8]

/-- A row `[128]` viewed as the one-row array `[1, 128]` reads, at `(u, j)`, the row at `j`. -/
theorem rowAsOneRow8 {α : Type} (x : S128.Idx → α) (h : S128.ShapeCasts S1x128) (u : Fin 1) (j : Fin 128) :
    shapeCast S1x128 x h (ix2 u j) = x (ix1 j) :=
  shapeCast_apply x h _ _ (by
    have hu : u.val = 0 := by omega
    rw [Shape.rowMajor_val_two, Shape.rowMajor_val_one]
    show j.val = u.val * 128 + j.val
    rw [hu, Nat.zero_mul, Nat.zero_add])

/-- At the extended reals the sum of a `[5000, 128]` block over its rows, from the zero accumulator, reads at column `j`
    as the plain sum of the column. -/
theorem rowSum8 (src : FVec Ideal S5000x128 .f32) (acc : BitVec 32)
    (h : S5000x128.Reduces [0] S128) (hφ : FKind.Formats .f32) (hacc : acc = FKind.add.neutral .f32 hφ) (j : Fin 128) :
    multiReduction .add [0] S128 src acc h hφ hacc (ix1 j) = ∑ r : Fin 5000, src (ix2 r j) := by
  refine (Ideal.multiReduction_add_single src acc h hφ hacc (ix1 j)).trans ?_
  refine Finset.sum_congr rfl fun k _ => ?_
  refine congrArg src (funext fun ax => Fin.ext ?_)
  rw [Shape.Reduces.lift_val]
  match ax with
  | ⟨0, _⟩ => rfl
  | ⟨1, _⟩ => rfl

/-- The accumulation's payload at column `j`: the carried row's entry plus the column sum of the input block. -/
theorem stepAt8 (xo : Vec Ideal S1x128 .f32) (x : Vec Ideal S5000x128 .f32) (j : Fin 128) :
    k8_pay2 (F := Ideal) xo x (ix2 (0 : Fin 1) j) = xo (ix2 (0 : Fin 1) j) + ∑ r : Fin 5000, x (ix2 r j) := by
  unfold k8_pay2
  simp only [shapeCast_self]
  rw [addf_apply, rowAsOneRow8]
  exact congrArg (fun z => xo (ix2 (0 : Fin 1) j) + z) (rowSum8 x _ _ _ _ j)

/-- The reset's payload is the zero row. -/
theorem resetAt8 (j : Fin 128) : k8_pay1 (F := Ideal) (ix2 (0 : Fin 1) j) = 0 := by
  unfold k8_pay1
  exact Ideal.ofBits_zero_f32

variable (V : (c : Dev nD) → (b : Ref sig .tc) → Buf (Elt Ideal) ((c : Thread nD τ).loc b)) (c : Dev nD)

/-- The printed index maps, decided over the grid: the input's block index is (the point, 0), the output's is (0, 0). -/
theorem blockIndex8 : ∀ t : Fin cfg8.N, win8_0.index t (0 : Fin 2) = t.val ∧ win8_0.index t (1 : Fin 2) = 0
    ∧ win8_1.index t (0 : Fin 2) = 0 ∧ win8_1.index t (1 : Fin 2) = 0 :=
  (by decide +kernel : ∀ t : Fin grid8.N, _)

/-- The input array as the region finds it, at its literal type. -/
abbrev srcArray8 : SN.Idx → EReal := V c (Pipeline.arrRef spec8 0)

/-- The input's row block at point `t`, at its literal type. -/
abbrev srcBlock8 (t : Fin cfg8.N) : Vec Ideal S5000x128 .f32 := iblk8 V c 0 t

/-- Row `r` of the block at point `t` is row `5000 t + r` of the array. -/
theorem blockEntry8 (t : Fin cfg8.N) (r : Fin 5000) (j : Fin 128) (i : Fin 100000) (hi : i.val = 5000 * t.val + r.val) :
    srcBlock8 V c t (ix2 r j) = srcArray8 V c (ix2 i j) := by
  obtain ⟨e0, e1, -, -⟩ := blockIndex8 t
  unfold srcBlock8 srcArray8 iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * r.val = i.val; rw [e0]; omega
  | ⟨1, _⟩ => show win8_0.index t (1 : Fin 2) * 128 + 1 * j.val = j.val; rw [e1]; omega

/-- Column `j` of an array of 100000 rows as a sequence over the naturals (zero past the last row). -/
def colSeq8 (A : SN.Idx → EReal) (j : Fin 128) (i : ℕ) : EReal :=
  if h : i < 100000 then A (ix2 (⟨i, h⟩ : Fin 100000) j) else 0

/-- The column sum of the block at point `t` is the sum of the 5000 terms of the column's sequence from `5000 t` on. -/
theorem blockSum8 (t : Fin cfg8.N) (j : Fin 128) :
    ∑ r : Fin 5000, srcBlock8 V c t (ix2 r j)
      = ∑ r ∈ Finset.range 5000, colSeq8 (srcArray8 V c) j (5000 * t.val + r) := by
  have hN : t.val < 20 := lt_of_lt_of_eq t.isLt (show cfg8.N = 20 from N_8)
  rw [Finset.sum_range]
  refine Finset.sum_congr rfl fun r _ => ?_
  have hr : r.val < 5000 := r.isLt
  have hlt : 5000 * t.val + r.val < 100000 := by omega
  rw [colSeq8, dif_pos hlt]
  exact blockEntry8 V c t r j ⟨_, hlt⟩ rfl

/-- At the first point the carried row is left at the column sums of the first block (the zero row plus them). -/
theorem carriedReset8 (t : Fin cfg8.N) (h0 : t.val % 20 = 0) (j : Fin 128) :
    outsAt8 V c t.val t.isLt (ix2 (0 : Fin 1) j) = ∑ r : Fin 5000, srcBlock8 V c t (ix2 r j) := by
  rw [outsAt8_A V c t h0,
    resetLeaves8 c (grid8.coords t) (ms8_0 t) (hs8_0 t) (ms8_1 t) (hs8_1 t) ((hcond8_0 t).mpr h0) (srcBlock8 V c t),
    stepAt8, resetAt8, zero_add]

/-- At every later point the carried row is what the point before left plus the column sums of the point's block. -/
theorem carriedStep8 (t : Fin cfg8.N) (h0 : ¬t.val % 20 = 0) (j : Fin 128) :
    outsAt8 V c t.val t.isLt (ix2 (0 : Fin 1) j)
      = outsAt8 V c (t.val - 1) (Nat.lt_of_le_of_lt (Nat.sub_le _ _) t.isLt) (ix2 (0 : Fin 1) j)
        + ∑ r : Fin 5000, srcBlock8 V c t (ix2 r j) := by
  rw [outsAt8_B V c t h0,
    stepLeaves8 c (grid8.coords t) (ms8_0 t) (hs8_0 t) (ms8_1 t) (hs8_1 t) (fun h => h0 ((hcond8_0 t).mp h)) (srcBlock8 V c t)
      (outsAt8 V c (t.val - 1) (Nat.lt_of_le_of_lt (Nat.sub_le _ _) t.isLt)),
    stepAt8]

/-- THE INVARIANT: after point `n` the carried row holds, at column `j`, the sum of the column's first `5000 (n + 1)` entries. -/
theorem carried8 : ∀ (n : ℕ) (h : n < cfg8.N) (j : Fin 128),
    outsAt8 V c n h (ix2 (0 : Fin 1) j) = ∑ i ∈ Finset.range (5000 * (n + 1)), colSeq8 (srcArray8 V c) j i
  | 0, h, j => by
    refine (carriedReset8 V c ⟨0, h⟩ rfl j).trans ?_
    rw [blockSum8 V c ⟨0, h⟩ j]
    refine Finset.sum_congr rfl fun r _ => ?_
    show colSeq8 _ j (5000 * 0 + r) = _
    rw [Nat.mul_zero, Nat.zero_add]
  | n + 1, h, j => by
    have hN : cfg8.N = 20 := N_8
    have hB : ¬(⟨n + 1, h⟩ : Fin cfg8.N).val % 20 = 0 := by dsimp only; omega
    refine (carriedStep8 V c ⟨n + 1, h⟩ hB j).trans ?_
    show outsAt8 V c n _ (ix2 (0 : Fin 1) j) + _ = _
    rw [carried8 n (Nat.lt_of_succ_lt h) j, blockSum8 V c ⟨n + 1, h⟩ j]
    show _ + ∑ r ∈ Finset.range 5000, colSeq8 _ j (5000 * (n + 1) + r) = _
    rw [show 5000 * (n + 1 + 1) = 5000 * (n + 1) + 5000 from by omega, Finset.sum_range_add]

/-- The whole sequence's first 100000 terms sum to the column sum over the rows. -/
theorem colSeqSum8 (A : SN.Idx → EReal) (j : Fin 128) :
    ∑ i ∈ Finset.range 100000, colSeq8 A j i = ∑ i : Fin 100000, A (ix2 i j) := by
  rw [Finset.sum_range]
  refine Finset.sum_congr rfl fun i _ => ?_
  rw [colSeq8, dif_pos i.isLt]

/-- What a write-back of the output's staging buffer writes is the buffer's contents read through the window's one
    block, which sits at the array's own indices. -/
theorem cutIsRead8 (t : Fin cfg8.N) (G : S1x128.Idx → EReal) :
    (cfg8.win 1).cut (grid8.coords t) G = ((cfg8.win 1).blk t).view.read (Elt Ideal) G := by
  obtain ⟨-, -, e0, e1⟩ := blockIndex8 t
  funext y
  rw [View.read_apply]
  show G _ = G _
  congr 1
  funext a
  apply Fin.ext
  match a with
  | ⟨0, _⟩ => show (y 0).val = win8_1.index t (0 : Fin 2) * 1 + 1 * (y 0).val; rw [e0]; omega
  | ⟨1, _⟩ => show (y 1).val = win8_1.index t (1 : Fin 2) * 128 + 1 * (y 1).val; rw [e1]; omega

/-- After the last point the carried row is the row of column sums. -/
theorem carriedLast8 (t : Fin cfg8.N) (h19 : t.val = 19) :
    (outsAt8 V c t.val t.isLt : S1x128.Idx → EReal) = colsumG (srcArray8 V c) := by
  funext y
  obtain ⟨u, j, rfl⟩ : ∃ (u : Fin 1) (j : Fin 128), y = ix2 u j := ⟨y 0, y 1, eq_ix2 y⟩
  obtain rfl : u = 0 := Subsingleton.elim _ _
  rw [carried8 V c t.val t.isLt j, h19]
  exact colSeqSum8 (srcArray8 V c) j

/-- WHAT THE LAST POINT WRITES BACK is the row of column sums (the one block is the whole row). -/
theorem flushedColsum8 (t : Fin cfg8.N) (hf : (cfg8.win 1).flush t = true) :
    (dat8 (F := Ideal) V c).flushed 1 t = ((cfg8.win 1).blk t).view.read (Elt Ideal) (colsumG (srcArray8 V c)) := by
  have hN : cfg8.N = 20 := N_8
  have h19 : t.val = 19 := by have := (flush8_1 t).mp hf; have := t.isLt; omega
  show (cfg8.win 1).cut (grid8.coords t) ((dat8 (F := Ideal) V c).after 1 t) = _
  rw [after8_1, carriedLast8 V c t h19]
  exact cutIsRead8 t _

/-- An index of the output row is in point `t`'s block iff each coordinate is in the block's range on its axis. -/
theorem outBlockMem8 (t : Fin cfg8.N) (i : S1x128.Idx) :
    i ∈ ((cfg8.win 1).blk t).view.set ↔ ∀ a : Fin 2, win8_1.index t a * S1x128.size a ≤ (i a).val ∧ (i a).val < win8_1.index t a * S1x128.size a + S1x128.size a := by
  show i ∈ ((View.whole (Pipeline.arrRef spec8 1)).slice (win8_1.rect t)).set ↔ _
  rw [View.set_slice_whole, Rect.mem_set_unit]
  exact Iff.rfl

/-- Every index of the output row lies in the block the last point writes back. -/
theorem outCovered8 (i : S1x128.Idx) :
    ∃ t : Fin cfg8.N, (cfg8.win 1).flush t = true ∧ i ∈ ((cfg8.win 1).blk t).view.set := by
  have hN : cfg8.N = 20 := N_8
  have hi0 : (i 0).val < 1 := (i 0).isLt
  have hi1 : (i 1).val < 128 := (i 1).isLt
  refine ⟨⟨19, by rw [hN]; decide⟩, (flush8_1 _).mpr rfl, ?_⟩
  rw [outBlockMem8]
  obtain ⟨-, -, e0, e1⟩ := blockIndex8 ⟨19, by rw [hN]; decide⟩
  intro a
  match a with
  | ⟨0, _⟩ => show win8_1.index _ (0 : Fin 2) * 1 ≤ (i 0).val ∧ (i 0).val < win8_1.index _ (0 : Fin 2) * 1 + 1; rw [e0]; omega
  | ⟨1, _⟩ => show win8_1.index _ (1 : Fin 2) * 128 ≤ (i 1).val ∧ (i 1).val < win8_1.index _ (1 : Fin 2) * 128 + 128; rw [e1]; omega

/-- Region 8 (column sums accumulated over the twenty row blocks): the output row ends at `colsumG` of the input array. -/
theorem colsum8_final : (dat8 (F := Ideal) V c).arrAt 1 cfg8.N = colsumG (V c (Pipeline.arrRef spec8 0)) :=
  (dat8 (F := Ideal) V c).arrAt_eq_of_cover 1 (colsumG (srcArray8 V c)) (flushedColsum8 V c) fun i => outCovered8 i

end Cert.Bridge.Reg

end
-- ==== Proof.RegColsum9.lean ====
/-
  Region 9, the column sums. The grid has twenty points; point `t` sees rows `5000 t … 5000 t + 4999` of the input array
  (100000 × 128) and ONE output block, the whole output row (1 × 128), whose index never moves: the row is carried from
  point to point and written back after the last point only. At the first point the row is set to zero; at every point
  the column sums of the point's 5000 rows are added to it.

  The invariant: after point `n` the carried row holds, at column `j`, the sum of the first `5000 (n + 1)` entries of
  column `j` of the input array. It is proved by induction on the point, with the column written as a sequence over the
  naturals so that twenty consecutive stretches of 5000 terms join into one stretch of 100000 (`Finset.sum_range_add`);
  on the extended reals this uses only that `+` is associative with `0` neutral. After the last point the row is
  `colsumG` of the input array, the last point's write-back puts it in the output array, and the one block covers the array.
-/
import proofs.«405684_j1614907703322_1_alg».proof.Proof.Gen.KernelIdeal.Frame
import proofs.«405684_j1614907703322_1_alg».proof.Proof.IdxSpec
import proofs.«405684_j1614907703322_1_alg».proof.Proof.LibKeepdims

set_option maxRecDepth 16384

noncomputable section

namespace Cert.Bridge.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

/-- The zero offsets of a whole-block rectangle, as the constant function. -/
theorem zeroOffsets9 : (![0, 0] : Fin 2 → Nat) = fun _ => 0 := funext fun a => by fin_cases a <;> rfl

/-- AT A LATER POINT (the reset not taken) the body leaves, in the output's staging buffer holding `xo`, the accumulation's
    payload of `xo` and the input block `x`: its one covering store, whose loads read the whole buffers. -/
theorem stepLeaves9 (c : Dev nD) (i : grid9.Coords) (a1 : Memref sig .tc .vmem S5000x128 .f32) (h1 : a1.IsWhole)
    (a2 : Memref sig .tc .vmem S1x128 .f32) (h2 : a2.IsWhole) (hc : ¬cond9_0 i) (x : Vec Ideal S5000x128 .f32) (xo : Vec Ideal S1x128 .f32) :
    out9_B_1 (F := Ideal) c i a1 h1 a2 h2 hc x xo = k9_pay2 (F := Ideal) xo x := by
  unfold out9_B_1
  rw [View.read_writes_eq_canon _ _ _ (cover9_B_1 c i a1 h1 a2 h2 hc x xo)]
  unfold kernelRun9_B
  dsimp only
  sl_unfold_words
  rw [View.canon_unit_zero zeroOffsets9]
  simp only [View.readAt_eq_ld, h1.read_unread, h2.read_unread, View.ld_unit_zero (S := S5000x128) zeroOffsets9, View.ld_unit_zero (S := S1x128) zeroOffsets9]

/-- AT THE FIRST POINT (the reset taken) the body stores the zero row, reads it back, and leaves the accumulation's payload
    of the zero row and the input block `x`. -/
theorem resetLeaves9 (c : Dev nD) (i : grid9.Coords) (a1 : Memref sig .tc .vmem S5000x128 .f32) (h1 : a1.IsWhole)
    (a2 : Memref sig .tc .vmem S1x128 .f32) (h2 : a2.IsWhole) (hc : cond9_0 i) (x : Vec Ideal S5000x128 .f32) :
    out9_A_1 (F := Ideal) c i a1 h1 a2 h2 hc x = k9_pay2 (F := Ideal) (k9_pay1 (F := Ideal)) x := by
  unfold out9_A_1
  rw [View.read_writes_eq_canon _ _ _ (cover9_A_1 c i a1 h1 a2 h2 hc x)]
  unfold kernelRun9_A
  dsimp only
  sl_unfold_words
  rw [View.canon_cons_unit_zero (S := S1x128) zeroOffsets9, View.readCov_unit_zero (S := S1x128) _ zeroOffsets9]
  simp only [View.readAt_eq_ld, h1.read_unread, View.ld_unit_zero (S := S5000x128) zeroOffsets9]

/-- A row `[128]` viewed as the one-row array `[1, 128]` reads, at `(u, j)`, the row at `j`. -/
theorem rowAsOneRow9 {α : Type} (x : S128.Idx → α) (h : S128.ShapeCasts S1x128) (u : Fin 1) (j : Fin 128) :
    shapeCast S1x128 x h (ix2 u j) = x (ix1 j) :=
  shapeCast_apply x h _ _ (by
    have hu : u.val = 0 := by omega
    rw [Shape.rowMajor_val_two, Shape.rowMajor_val_one]
    show j.val = u.val * 128 + j.val
    rw [hu, Nat.zero_mul, Nat.zero_add])

/-- At the extended reals the sum of a `[5000, 128]` block over its rows, from the zero accumulator, reads at column `j`
    as the plain sum of the column. -/
theorem rowSum9 (src : FVec Ideal S5000x128 .f32) (acc : BitVec 32)
    (h : S5000x128.Reduces [0] S128) (hφ : FKind.Formats .f32) (hacc : acc = FKind.add.neutral .f32 hφ) (j : Fin 128) :
    multiReduction .add [0] S128 src acc h hφ hacc (ix1 j) = ∑ r : Fin 5000, src (ix2 r j) := by
  refine (Ideal.multiReduction_add_single src acc h hφ hacc (ix1 j)).trans ?_
  refine Finset.sum_congr rfl fun k _ => ?_
  refine congrArg src (funext fun ax => Fin.ext ?_)
  rw [Shape.Reduces.lift_val]
  match ax with
  | ⟨0, _⟩ => rfl
  | ⟨1, _⟩ => rfl

/-- The accumulation's payload at column `j`: the carried row's entry plus the column sum of the input block. -/
theorem stepAt9 (xo : Vec Ideal S1x128 .f32) (x : Vec Ideal S5000x128 .f32) (j : Fin 128) :
    k9_pay2 (F := Ideal) xo x (ix2 (0 : Fin 1) j) = xo (ix2 (0 : Fin 1) j) + ∑ r : Fin 5000, x (ix2 r j) := by
  unfold k9_pay2
  simp only [shapeCast_self]
  rw [addf_apply, rowAsOneRow9]
  exact congrArg (fun z => xo (ix2 (0 : Fin 1) j) + z) (rowSum9 x _ _ _ _ j)

/-- The reset's payload is the zero row. -/
theorem resetAt9 (j : Fin 128) : k9_pay1 (F := Ideal) (ix2 (0 : Fin 1) j) = 0 := by
  unfold k9_pay1
  exact Ideal.ofBits_zero_f32

variable (V : (c : Dev nD) → (b : Ref sig .tc) → Buf (Elt Ideal) ((c : Thread nD τ).loc b)) (c : Dev nD)

/-- The printed index maps, decided over the grid: the input's block index is (the point, 0), the output's is (0, 0). -/
theorem blockIndex9 : ∀ t : Fin cfg9.N, win9_0.index t (0 : Fin 2) = t.val ∧ win9_0.index t (1 : Fin 2) = 0
    ∧ win9_1.index t (0 : Fin 2) = 0 ∧ win9_1.index t (1 : Fin 2) = 0 :=
  (by decide +kernel : ∀ t : Fin grid9.N, _)

/-- The input array as the region finds it, at its literal type. -/
abbrev srcArray9 : SN.Idx → EReal := V c (Pipeline.arrRef spec9 0)

/-- The input's row block at point `t`, at its literal type. -/
abbrev srcBlock9 (t : Fin cfg9.N) : Vec Ideal S5000x128 .f32 := iblk9 V c 0 t

/-- Row `r` of the block at point `t` is row `5000 t + r` of the array. -/
theorem blockEntry9 (t : Fin cfg9.N) (r : Fin 5000) (j : Fin 128) (i : Fin 100000) (hi : i.val = 5000 * t.val + r.val) :
    srcBlock9 V c t (ix2 r j) = srcArray9 V c (ix2 i j) := by
  obtain ⟨e0, e1, -, -⟩ := blockIndex9 t
  unfold srcBlock9 srcArray9 iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * r.val = i.val; rw [e0]; omega
  | ⟨1, _⟩ => show win9_0.index t (1 : Fin 2) * 128 + 1 * j.val = j.val; rw [e1]; omega

/-- Column `j` of an array of 100000 rows as a sequence over the naturals (zero past the last row). -/
def colSeq9 (A : SN.Idx → EReal) (j : Fin 128) (i : ℕ) : EReal :=
  if h : i < 100000 then A (ix2 (⟨i, h⟩ : Fin 100000) j) else 0

/-- The column sum of the block at point `t` is the sum of the 5000 terms of the column's sequence from `5000 t` on. -/
theorem blockSum9 (t : Fin cfg9.N) (j : Fin 128) :
    ∑ r : Fin 5000, srcBlock9 V c t (ix2 r j)
      = ∑ r ∈ Finset.range 5000, colSeq9 (srcArray9 V c) j (5000 * t.val + r) := by
  have hN : t.val < 20 := lt_of_lt_of_eq t.isLt (show cfg9.N = 20 from N_9)
  rw [Finset.sum_range]
  refine Finset.sum_congr rfl fun r _ => ?_
  have hr : r.val < 5000 := r.isLt
  have hlt : 5000 * t.val + r.val < 100000 := by omega
  rw [colSeq9, dif_pos hlt]
  exact blockEntry9 V c t r j ⟨_, hlt⟩ rfl

/-- At the first point the carried row is left at the column sums of the first block (the zero row plus them). -/
theorem carriedReset9 (t : Fin cfg9.N) (h0 : t.val % 20 = 0) (j : Fin 128) :
    outsAt9 V c t.val t.isLt (ix2 (0 : Fin 1) j) = ∑ r : Fin 5000, srcBlock9 V c t (ix2 r j) := by
  rw [outsAt9_A V c t h0,
    resetLeaves9 c (grid9.coords t) (ms9_0 t) (hs9_0 t) (ms9_1 t) (hs9_1 t) ((hcond9_0 t).mpr h0) (srcBlock9 V c t),
    stepAt9, resetAt9, zero_add]

/-- At every later point the carried row is what the point before left plus the column sums of the point's block. -/
theorem carriedStep9 (t : Fin cfg9.N) (h0 : ¬t.val % 20 = 0) (j : Fin 128) :
    outsAt9 V c t.val t.isLt (ix2 (0 : Fin 1) j)
      = outsAt9 V c (t.val - 1) (Nat.lt_of_le_of_lt (Nat.sub_le _ _) t.isLt) (ix2 (0 : Fin 1) j)
        + ∑ r : Fin 5000, srcBlock9 V c t (ix2 r j) := by
  rw [outsAt9_B V c t h0,
    stepLeaves9 c (grid9.coords t) (ms9_0 t) (hs9_0 t) (ms9_1 t) (hs9_1 t) (fun h => h0 ((hcond9_0 t).mp h)) (srcBlock9 V c t)
      (outsAt9 V c (t.val - 1) (Nat.lt_of_le_of_lt (Nat.sub_le _ _) t.isLt)),
    stepAt9]

/-- THE INVARIANT: after point `n` the carried row holds, at column `j`, the sum of the column's first `5000 (n + 1)` entries. -/
theorem carried9 : ∀ (n : ℕ) (h : n < cfg9.N) (j : Fin 128),
    outsAt9 V c n h (ix2 (0 : Fin 1) j) = ∑ i ∈ Finset.range (5000 * (n + 1)), colSeq9 (srcArray9 V c) j i
  | 0, h, j => by
    refine (carriedReset9 V c ⟨0, h⟩ rfl j).trans ?_
    rw [blockSum9 V c ⟨0, h⟩ j]
    refine Finset.sum_congr rfl fun r _ => ?_
    show colSeq9 _ j (5000 * 0 + r) = _
    rw [Nat.mul_zero, Nat.zero_add]
  | n + 1, h, j => by
    have hN : cfg9.N = 20 := N_9
    have hB : ¬(⟨n + 1, h⟩ : Fin cfg9.N).val % 20 = 0 := by dsimp only; omega
    refine (carriedStep9 V c ⟨n + 1, h⟩ hB j).trans ?_
    show outsAt9 V c n _ (ix2 (0 : Fin 1) j) + _ = _
    rw [carried9 n (Nat.lt_of_succ_lt h) j, blockSum9 V c ⟨n + 1, h⟩ j]
    show _ + ∑ r ∈ Finset.range 5000, colSeq9 _ j (5000 * (n + 1) + r) = _
    rw [show 5000 * (n + 1 + 1) = 5000 * (n + 1) + 5000 from by omega, Finset.sum_range_add]

/-- The whole sequence's first 100000 terms sum to the column sum over the rows. -/
theorem colSeqSum9 (A : SN.Idx → EReal) (j : Fin 128) :
    ∑ i ∈ Finset.range 100000, colSeq9 A j i = ∑ i : Fin 100000, A (ix2 i j) := by
  rw [Finset.sum_range]
  refine Finset.sum_congr rfl fun i _ => ?_
  rw [colSeq9, dif_pos i.isLt]

/-- What a write-back of the output's staging buffer writes is the buffer's contents read through the window's one
    block, which sits at the array's own indices. -/
theorem cutIsRead9 (t : Fin cfg9.N) (G : S1x128.Idx → EReal) :
    (cfg9.win 1).cut (grid9.coords t) G = ((cfg9.win 1).blk t).view.read (Elt Ideal) G := by
  obtain ⟨-, -, e0, e1⟩ := blockIndex9 t
  funext y
  rw [View.read_apply]
  show G _ = G _
  congr 1
  funext a
  apply Fin.ext
  match a with
  | ⟨0, _⟩ => show (y 0).val = win9_1.index t (0 : Fin 2) * 1 + 1 * (y 0).val; rw [e0]; omega
  | ⟨1, _⟩ => show (y 1).val = win9_1.index t (1 : Fin 2) * 128 + 1 * (y 1).val; rw [e1]; omega

/-- After the last point the carried row is the row of column sums. -/
theorem carriedLast9 (t : Fin cfg9.N) (h19 : t.val = 19) :
    (outsAt9 V c t.val t.isLt : S1x128.Idx → EReal) = colsumG (srcArray9 V c) := by
  funext y
  obtain ⟨u, j, rfl⟩ : ∃ (u : Fin 1) (j : Fin 128), y = ix2 u j := ⟨y 0, y 1, eq_ix2 y⟩
  obtain rfl : u = 0 := Subsingleton.elim _ _
  rw [carried9 V c t.val t.isLt j, h19]
  exact colSeqSum9 (srcArray9 V c) j

/-- WHAT THE LAST POINT WRITES BACK is the row of column sums (the one block is the whole row). -/
theorem flushedColsum9 (t : Fin cfg9.N) (hf : (cfg9.win 1).flush t = true) :
    (dat9 (F := Ideal) V c).flushed 1 t = ((cfg9.win 1).blk t).view.read (Elt Ideal) (colsumG (srcArray9 V c)) := by
  have hN : cfg9.N = 20 := N_9
  have h19 : t.val = 19 := by have := (flush9_1 t).mp hf; have := t.isLt; omega
  show (cfg9.win 1).cut (grid9.coords t) ((dat9 (F := Ideal) V c).after 1 t) = _
  rw [after9_1, carriedLast9 V c t h19]
  exact cutIsRead9 t _

/-- An index of the output row is in point `t`'s block iff each coordinate is in the block's range on its axis. -/
theorem outBlockMem9 (t : Fin cfg9.N) (i : S1x128.Idx) :
    i ∈ ((cfg9.win 1).blk t).view.set ↔ ∀ a : Fin 2, win9_1.index t a * S1x128.size a ≤ (i a).val ∧ (i a).val < win9_1.index t a * S1x128.size a + S1x128.size a := by
  show i ∈ ((View.whole (Pipeline.arrRef spec9 1)).slice (win9_1.rect t)).set ↔ _
  rw [View.set_slice_whole, Rect.mem_set_unit]
  exact Iff.rfl

/-- Every index of the output row lies in the block the last point writes back. -/
theorem outCovered9 (i : S1x128.Idx) :
    ∃ t : Fin cfg9.N, (cfg9.win 1).flush t = true ∧ i ∈ ((cfg9.win 1).blk t).view.set := by
  have hN : cfg9.N = 20 := N_9
  have hi0 : (i 0).val < 1 := (i 0).isLt
  have hi1 : (i 1).val < 128 := (i 1).isLt
  refine ⟨⟨19, by rw [hN]; decide⟩, (flush9_1 _).mpr rfl, ?_⟩
  rw [outBlockMem9]
  obtain ⟨-, -, e0, e1⟩ := blockIndex9 ⟨19, by rw [hN]; decide⟩
  intro a
  match a with
  | ⟨0, _⟩ => show win9_1.index _ (0 : Fin 2) * 1 ≤ (i 0).val ∧ (i 0).val < win9_1.index _ (0 : Fin 2) * 1 + 1; rw [e0]; omega
  | ⟨1, _⟩ => show win9_1.index _ (1 : Fin 2) * 128 ≤ (i 1).val ∧ (i 1).val < win9_1.index _ (1 : Fin 2) * 128 + 128; rw [e1]; omega

/-- Region 9 (column sums accumulated over the twenty row blocks): the output row ends at `colsumG` of the input array. -/
theorem colsum9_final : (dat9 (F := Ideal) V c).arrAt 1 cfg9.N = colsumG (V c (Pipeline.arrRef spec9 0)) :=
  (dat9 (F := Ideal) V c).arrAt_eq_of_cover 1 (colsumG (srcArray9 V c)) (flushedColsum9 V c) fun i => outCovered9 i

end Cert.Bridge.Reg

end
-- ==== Proof.ChainC.lean ====
import proofs.«405684_j1614907703322_1_alg».proof.Proof.Gen.KernelIdeal.Frame
import proofs.«405684_j1614907703322_1_alg».proof.Proof.KSpec
import proofs.«405684_j1614907703322_1_alg».proof.Proof.RegColsum8
import proofs.«405684_j1614907703322_1_alg».proof.Proof.RegColsum9

set_option maxRecDepth 16384

noncomputable section

namespace Cert.Bridge.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bridge.Idx

variable (m : (ℓ : Loc nD τ sig) → Buf (Elt Ideal) ℓ) (ρ : Dev nD → PrngReg) (c : Dev nD)

/-- Region 8 leaves the column sums of the first view's encoding in its output row. -/
theorem W18_v36 : W18 m ρ c (Proc.devRef .tc main_v36) = colsumG (W17 m ρ c (Proc.devRef .tc main_v21)) :=
  (W18_arr m ρ c 1).trans (Reg.colsum8_final (V17 m ρ) c)

/-- The reshape between the two column-sum regions writes the row as a vector. -/
theorem after9_v37 (X : Valuation τ sig (Elt Ideal)) :
    StableHlo.after hostOps9 X (Proc.devRef .tc main_v37) = K.flat (F := Ideal) (X (Proc.devRef .tc main_v36)) := by
  after_results
  rfl

/-- The reshape writes no other buffer. -/
theorem after9_of_ne (X : Valuation τ sig (Elt Ideal)) (b : Ref sig .tc) (hb : b ≠ main_v37) :
    StableHlo.after hostOps9 X (Proc.devRef .tc b) = X (Proc.devRef .tc b) := by
  simp only [StableHlo.after_cons, StableHlo.after_nil]
  rw [StableHlo.reshape_result_ne]
  exact hb

/-- A buffer that neither column-sum region has as a window and that is not the reshaped vector is, at region 9's exit,
    what it was at region 8's entry. -/
theorem W20_eq_W17 (b : Ref sig .tc) (h9 : ∀ w, Pipeline.arrRef spec9 w ≠ b) (hb : b ≠ main_v37)
    (h8 : ∀ w, Pipeline.arrRef spec8 w ≠ b) :
    W20 m ρ c (Proc.devRef .tc b) = W17 m ρ c (Proc.devRef .tc b) :=
  (W20_of_ne m ρ c b h9).trans ((after9_of_ne (W18 m ρ c) b hb).trans (W18_of_ne m ρ c b h8))

/-- At region 9's exit the reshaped vector is still the first view's column sums, flattened. -/
theorem W20_v37 : W20 m ρ c (Proc.devRef .tc main_v37)
    = K.flat (F := Ideal) (colsumG (W17 m ρ c (Proc.devRef .tc main_v21))) :=
  (W20_of_ne m ρ c main_v37 (by decide)).trans ((after9_v37 (W18 m ρ c)).trans (congrArg (K.flat (F := Ideal)) (W18_v36 m ρ c)))

/-- Region 9 leaves the column sums of the second view's encoding in its output row. -/
theorem W20_v38 : W20 m ρ c (Proc.devRef .tc main_v38) = colsumG (W17 m ρ c (Proc.devRef .tc main_v35)) :=
  ((W20_arr m ρ c 1).trans (Reg.colsum9_final (V19 m ρ) c)).trans
    (congrArg colsumG ((after9_of_ne (W18 m ρ c) main_v35 (by decide)).trans (W18_of_ne m ρ c main_v35 (by decide))))

set_option maxHeartbeats 2000000 in
/-- The scalar tail: two logits from the two rows of column sums, then their mean cross-entropy against the labels.
    The first row arrives already flattened (`h1`); the second is flattened by the tail's first operation. -/
theorem after10_v63 (X : Valuation τ sig (Elt Ideal)) (v1 : K.Arr (F := Ideal) S1x128)
    (h1 : X (Proc.devRef .tc main_v37) = K.flat (F := Ideal) v1) :
    StableHlo.after hostOps10 X (Proc.devRef .tc main_v63)
      = K.bce (F := Ideal) (K.logit (F := Ideal) v1 (X (Proc.devRef .tc main_arg6)) (X (Proc.devRef .tc main_arg7)))
          (K.logit (F := Ideal) (X (Proc.devRef .tc main_v38)) (X (Proc.devRef .tc main_arg6)) (X (Proc.devRef .tc main_arg7)))
          (X (Proc.devRef .tc main_cst)) := by
  -- every operation's result at its own buffer, and the other buffers unchanged by it
  after_results_simp
  -- the same inside the operand list of the concatenation of the two logits
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rw [h1]
  rfl

/-- The two column-sum regions and the scalar tail: the result is the cross-entropy of the two logits. -/
theorem W21_v63 : W21 m ρ c (Proc.devRef .tc main_v63)
    = K.bce (K.logit (colsumG (W17 m ρ c (Proc.devRef .tc main_v21))) (W17 m ρ c (Proc.devRef .tc main_arg6)) (W17 m ρ c (Proc.devRef .tc main_arg7)))
        (K.logit (colsumG (W17 m ρ c (Proc.devRef .tc main_v35))) (W17 m ρ c (Proc.devRef .tc main_arg6)) (W17 m ρ c (Proc.devRef .tc main_arg7)))
        (W17 m ρ c (Proc.devRef .tc main_cst)) := by
  have h := after10_v63 (W20 m ρ c) (colsumG (W17 m ρ c (Proc.devRef .tc main_v21))) (W20_v37 m ρ c)
  rw [W20_v38 m ρ c, W20_eq_W17 m ρ c main_arg6 (by decide) (by decide) (by decide),
    W20_eq_W17 m ρ c main_arg7 (by decide) (by decide) (by decide),
    W20_eq_W17 m ρ c main_cst (by decide) (by decide) (by decide)] at h
  exact h

end Cert.Bridge.Chain

end
-- ==== Proof.FormBridge.lean ====
import proofs.«405684_j1614907703322_1_alg».proof.Proof.Spec
import proofs.«405684_j1614907703322_1_alg».proof.Proof.KSpec
import proofs.«405684_j1614907703322_1_alg».proof.Proof.LibKeepdims
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.Bridge.Form

open Idealize.ShloMosaic Idealize.ShloMosaic.TcCoe Idealize.ShloMosaic.ValueIdx Cert.Bridge Cert.Bridge.Idx

/-- Node features, a vector over the nodes, a weight matrix, a bias vector: arrays of extended reals. -/
abbrev AN := Spec.Arr (F := Ideal) Cert.ReferenceIdeal.S100000x128
abbrev AV := Spec.Arr (F := Ideal) Cert.ReferenceIdeal.S100000
abbrev AW := Spec.Arr (F := Ideal) Cert.ReferenceIdeal.S128x128
abbrev AB := Spec.Arr (F := Ideal) Cert.ReferenceIdeal.S128

theorem norm_eq (dst : K.IArr (F := Ideal) Cert.KernelIdeal.S1600000) : K.norm (F := Ideal) dst = Spec.norm (F := Ideal) dst := by
  unfold K.norm Spec.norm
  rfl
theorem segsum_eq (u : K.Arr (F := Ideal) Cert.KernelIdeal.S1600000x128) (dst : K.IArr (F := Ideal) Cert.KernelIdeal.S1600000) :
    K.segsum (F := Ideal) u dst = Spec.segsum (F := Ideal) u dst := by
  unfold K.segsum Spec.segsum
  rfl
theorem labels_eq : K.labels (F := Ideal) = Spec.labels (F := Ideal) := by
  unfold K.labels Spec.labels
  rfl
theorem bce_eq (s1 s2 : K.Arr (F := Ideal) Cert.KernelIdeal.S_) (lbl : K.Arr (F := Ideal) Cert.KernelIdeal.S2) :
    K.bce (F := Ideal) s1 s2 lbl = Spec.bce (F := Ideal) s1 s2 lbl := by
  unfold K.bce Spec.bce
  rfl

/-- The normalisation vector as a column, repeated along the features, read at `(p, q)`, is the vector at `p`. -/
theorem ncol_apply (n : AV) (p : Fin 100000) (q : Fin 128) : Spec.ncol (F := Ideal) n (ix2 p q) = n (ix1 p) := by
  unfold Spec.ncol
  refine (broadcastInDim_apply _ _ _ (ix2 p q) (ix2 p (0 : Fin 1)) fun a => ?_).trans
    (broadcastInDim_apply _ _ n (ix2 p (0 : Fin 1)) (ix1 p) fun a => ?_)
  · match a with
    | ⟨0, _⟩ =>
      show p.val = if (100000 : ℕ) = 1 then 0 else p.val
      exact (if_neg (by decide)).symm
    | ⟨1, _⟩ => rfl
  · match a with
    | ⟨0, _⟩ =>
      show p.val = if (100000 : ℕ) = 1 then 0 else p.val
      exact (if_neg (by decide)).symm

/-- The normalisation vector reshaped to a column, read at `(p, u)`, is the vector at `p`. -/
theorem col_apply (n : AV) (p : Fin 100000) (u : Fin 1) : K.col (F := Ideal) n (ix2 p u) = n (ix1 p) := by
  unfold K.col
  exact Keepdims.shapeCast_a_a1_apply n _ p u

/-- Rows scaled by the normalisation column: the region's index form is the reference's product with the broadcast column. -/
theorem scale_form (x : AN) (n : AV) : scaleG x (K.col (F := Ideal) n) = mulf (F := Ideal) (φ := .f32) x (Spec.ncol (F := Ideal) n) := by
  funext i
  obtain ⟨p, q, rfl⟩ : ∃ (p : Fin 100000) (q : Fin 128), i = ix2 p q := ⟨i 0, i 1, eq_ix2 i⟩
  show x (ix2 p q) * K.col (F := Ideal) n (ix2 p (0 : Fin 1)) = x (ix2 p q) * Spec.ncol (F := Ideal) n (ix2 p q)
  rw [col_apply, ncol_apply]

/-- The reference's contraction is the plain product of a 100000 × 128 by a 128 × 128 matrix: rows against columns. -/
theorem dot_eq_plain : Cert.ReferenceIdeal.dot_S100000x128_S128x128_S100000x128_1_0_0_1_n_n = DotDims.plain 100000 128 128 := rfl

/-- The bias vector reshaped to a row, read at `(u, q)`, is the vector at `q`. -/
theorem row_apply (b : AB) (u : Fin 1) (q : Fin 128) : K.row (F := Ideal) b (ix2 u q) = b (ix1 q) := by
  unfold K.row
  exact shapeCast_a_1a_apply b _ u q

/-- The bias vector as a row, repeated over the nodes, read at `(p, q)`, is the vector at `q`. -/
theorem brow_apply (b : AB) (h2 : Cert.ReferenceIdeal.S128.BroadcastsInDim Cert.ReferenceIdeal.S1x128 ![1])
    (h1 : Cert.ReferenceIdeal.S1x128.BroadcastsInDim Cert.ReferenceIdeal.S100000x128 ![0, 1]) (p : Fin 100000) (q : Fin 128) :
    broadcastInDim Cert.ReferenceIdeal.S100000x128 ![0, 1] h1 (broadcastInDim Cert.ReferenceIdeal.S1x128 ![1] h2 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ =>
      show q.val = if (128 : ℕ) = 1 then 0 else q.val
      exact (if_neg (by decide)).symm
  · match a with
    | ⟨0, _⟩ =>
      show q.val = if (128 : ℕ) = 1 then 0 else q.val
      exact (if_neg (by decide)).symm

/-- The dense layer read at `(p, q)`: the row of `y` against the column of `W`, plus the bias at `q`. -/
theorem lin_apply (y : AN) (W : AW) (b : AB) (p : Fin 100000) (q : Fin 128) :
    Spec.lin (F := Ideal) y W b (ix2 p q) = (∑ k : Fin 128, y (ix2 p k) * W (ix2 k q)) + b (ix1 q) := by
  unfold Spec.lin
  rw [addf_apply, brow_apply, dot_eq_plain, StackMember.dotGeneral_plain_apply]

/-- The positive part read at an index. -/
theorem relu_apply (y : AN) (i : Cert.ReferenceIdeal.S100000x128.Idx) : Spec.relu (F := Ideal) y i = max (y i) 0 := by
  unfold Spec.relu
  rw [maximumf_apply, broadcastInDim_apply _ _ _ i ix0 (fun a => a.elim0), constant_apply, Ideal.ofBits_zero_f32]

/-- The dense region's index form is the reference's scaled product plus bias, with the positive part when `act`. -/
theorem mm_form (act : Bool) (s h : AN) (n : AV) (W : AW) (b : AB) :
    mmG act s h (K.col (F := Ideal) n) W (K.row (F := Ideal) b)
      = (if act then Spec.relu (F := Ideal) else id) (Spec.lin (F := Ideal) (mulf (F := Ideal) (φ := .f32) (addf (F := Ideal) (φ := .f32) s h) (Spec.ncol (F := Ideal) n)) W b) := by
  funext i
  obtain ⟨p, q, rfl⟩ : ∃ (p : Fin 100000) (q : Fin 128), i = ix2 p q := ⟨i 0, i 1, eq_ix2 i⟩
  have hv : (∑ k : Fin 128, mmPre s h (K.col (F := Ideal) n) (ix2 (n0 := 100000) (n1 := 128) p k) * W (ix2 (n0 := 128) (n1 := 128) k q))
        + K.row (F := Ideal) b (ix2 (n0 := 1) (n1 := 128) 0 q)
      = Spec.lin (F := Ideal) (mulf (F := Ideal) (φ := .f32) (addf (F := Ideal) (φ := .f32) s h) (Spec.ncol (F := Ideal) n)) W b (ix2 p q) := by
    rw [lin_apply, row_apply]
    refine congrArg (· + b (ix1 q)) (Finset.sum_congr rfl fun k _ => ?_)
    show (s (ix2 p k) + h (ix2 p k)) * K.col (F := Ideal) n (ix2 p (0 : Fin 1)) * W (ix2 k q)
      = (s (ix2 p k) + h (ix2 p k)) * Spec.ncol (F := Ideal) n (ix2 p k) * W (ix2 k q)
    rw [col_apply, ncol_apply]
  cases act
  · exact hv
  · show max _ 0 = Spec.relu (F := Ideal) _ (ix2 p q)
    rw [relu_apply]
    exact congrArg (max · 0) hv

/-- One layer of the kernel program is the reference's dense layer on the reference's aggregation, with the positive part when `act`. -/
theorem layer_form (act : Bool) (x : AN) (n : AV) (src dst : K.IArr (F := Ideal) Cert.KernelIdeal.S1600000) (W : AW) (b : AB)
    (htake : ∀ h : AN, K.take (F := Ideal) h src = Spec.rows (F := Ideal) h src) :
    K.layer act x (K.col (F := Ideal) n) src dst W (K.row (F := Ideal) b)
      = (if act then Spec.relu (F := Ideal) else id) (Spec.lin (F := Ideal) (Spec.pre (F := Ideal) x n src dst) W b) := by
  unfold K.layer Spec.pre
  rw [scale_form, htake, segsum_eq, mm_form]

/-- The kernel program's encoder is the reference's, wherever the gather of the kernel program agrees with the reference's. -/
theorem enc_form (x : AN) (n : AV) (src dst : K.IArr (F := Ideal) Cert.KernelIdeal.S1600000)
    (W1 : AW) (b1 : AB) (W2 : AW) (b2 : AB)
    (htake : ∀ h : AN, K.take (F := Ideal) h src = Spec.rows (F := Ideal) h src) :
    K.enc x (K.col (F := Ideal) n) src dst W1 b1 W2 b2 = Spec.enc (F := Ideal) x n src dst W1 b1 W2 b2 := by
  unfold K.enc Spec.enc
  rw [layer_form true x n src dst W1 b1 htake, layer_form false _ n src dst W2 b2 htake]
  rfl

end Cert.Bridge.Form

end
-- ==== Proof.TakeRange.lean ====
import proofs.«405684_j1614907703322_1_alg».proof.Proof.Spec
import proofs.«405684_j1614907703322_1_alg».proof.Proof.KSpec
import Idealize.ShloMosaic.Lib.ValueIdx
import Idealize.ShloMosaic.Lib.StableHlo.Predicate

noncomputable section

namespace Cert.Bridge.Take

open Idealize.ShloMosaic Idealize.ShloMosaic.TcCoe Idealize.ShloMosaic.ValueIdx Cert.Bridge

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- A word that is not negative is left alone by the wrap (add 100000 when below zero). -/
theorem wrap_eq_self (w : BitVec 32) (hw : 0 ≤ w.toInt) :
    Scalar.select (IntOp.cmpi .slt w 0#32) (IntOp.addi w 100000#32) w = w := by
  have h0 : ¬ IntOp.cmpi .slt w 0#32 = 1#1 := by
    rw [IntOp.cmpi_slt]
    have : (0#32 : BitVec 32).toInt = 0 := by decide
    omega
  exact if_neg h0

/-- Every entry of the wrapped index column is an entry of `src` itself, so it lies in 0 … 99999. -/
theorem widx_range (src : K.IArr (F := Ideal) Cert.KernelIdeal.S1600000)
    (hsrc : ∀ e, 0 ≤ (src e).toInt ∧ (src e).toInt < 100000) (j : Cert.KernelIdeal.S1600000x1.Idx) :
    0 ≤ (K.widx (F := Ideal) src j).toInt ∧ (K.widx (F := Ideal) src j).toInt < 100000 := by
  unfold K.widx
  simp only [broadcastInDim, select, cmpi, addi, constantI]
  rw [wrap_eq_self _ (hsrc _).1]
  exact hsrc _

/-- Both range tests (0 ≤ · and · ≤ 99999) hold at every entry of the wrapped index column. -/
theorem range_tests_one (src : K.IArr (F := Ideal) Cert.KernelIdeal.S1600000)
    (hsrc : ∀ e, 0 ≤ (src e).toInt ∧ (src e).toInt < 100000) (j : Cert.KernelIdeal.S1600000x1.Idx) :
    IntOp.andi (IntOp.cmpi .sge (K.widx (F := Ideal) src j) 0#32) (IntOp.cmpi .sle (K.widx (F := Ideal) src j) 99999#32) = 1#1 := by
  obtain ⟨h0, h1⟩ := widx_range src hsrc j
  rw [IntOp.andi_eq_one, IntOp.cmpi_sge, IntOp.cmpi_sle]
  have e0 : (0#32 : BitVec 32).toInt = 0 := by decide
  have e1 : (99999#32 : BitVec 32).toInt = 99999 := by decide
  omega

/-- The guard is true at every edge: the conjunction over the unit axis, from 1, of tests that all hold. -/
theorem inb_one (src : K.IArr (F := Ideal) Cert.KernelIdeal.S1600000)
    (hsrc : ∀ e, 0 ≤ (src e).toInt ∧ (src e).toInt < 100000) (e : Cert.KernelIdeal.S1600000.Idx) :
    K.inb (F := Ideal) src e = 1#1 := by
  unfold K.inb
  rw [Host.reduce_eq_foldl]
  exact foldl_andi_of_all_one _ (fun j => range_tests_one src hsrc j) _

/-- With every source index inside 0 … 99999 the guarded gather of the kernel program keeps every gathered row: it is the
    reference's gather. -/
theorem take_eq_rows (src : K.IArr (F := Ideal) Cert.KernelIdeal.S1600000)
    (hsrc : ∀ e, 0 ≤ (src e).toInt ∧ (src e).toInt < 100000) (h : K.Arr (F := Ideal) Cert.KernelIdeal.S100000x128) :
    K.take (F := Ideal) h src = Spec.rows (F := Ideal) h src := by
  funext i
  unfold K.take
  -- the selection at entry i reads the guard of i's edge, which is true: it keeps the gathered entry
  show Scalar.select (K.inb (F := Ideal) src _) _ _ = _
  rw [inb_one src hsrc]
  -- the two gathers have the same dimension numbers and the same wrapped index column
  rfl

end Cert.Bridge.Take

end
-- ==== Proof.LibReal.lean ====
/-
  Arrays of extended reals all of whose entries are real numbers, and the closure of that property under the
  operations of exact arithmetic: sums, products, finite sums, maxima.
-/
import Idealize.ShloMosaic.PureOps.Ideal

noncomputable section

namespace Idealize.ShloMosaic.RealArr

open Idealize.ShloMosaic

/-- Every entry of `x` is a real number (neither infinity). -/
def IsReal {ι : Type} (x : ι → EReal) : Prop := ∀ i, ∃ r : ℝ, x i = (r : EReal)

end Idealize.ShloMosaic.RealArr

end
-- ==== Proof.PreDecode.lean ====
import proofs.«405684_j1614907703322_1_alg».proof.Defs
import proofs.«405684_j1614907703322_1_alg».proof.Proof.Gen.Pre_finite_inputs
import proofs.«405684_j1614907703322_1_alg».proof.Proof.LibReal
import Idealize.ShloMosaic.Lib.ReduceAll
import Idealize.ShloMosaic.Lib.StableHlo.Predicate
import Idealize.ShloMosaic.Lib.ValueIdx

noncomputable section

namespace Cert.Bridge.Pre

open Idealize.ShloMosaic Idealize.ShloMosaic.TcCoe Idealize.SL.Sem Idealize.ShloMosaic.RealArr Cert.KernelIdeal

/-- The shape of a scalar has exactly one index. -/
instance scalarIdxSubsingleton : Subsingleton Cert.Pre_finite_inputs.S_.Idx := ⟨fun _ _ => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) lies strictly below +∞ is a real number:
    at x = -∞ the absolute value is +∞, at x = +∞ likewise, and +∞ < +∞ fails. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The conjunction over all entries of "|x| < +∞", reduced to one bit that is 1, says every entry of x is real. -/
theorem isReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) : IsReal x := by
  intro i
  have hi := Host.reduce_andi_all _ _ hr hu _ e i
  exact real_of_abs_lt_inf (x i) hi

/-- The conjunction over all entries of "0 ≤ x ∧ x < 100000" (signed), reduced to one bit that is 1,
    bounds every entry of x. -/
theorem range_of_all_in_range {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (andi (cmpi .sge x (broadcastInDim s ![] hb (constantI Cert.Pre_finite_inputs.S_ 32 0#32)))
            (cmpi .slt x (broadcastInDim s ![] hb (constantI Cert.Pre_finite_inputs.S_ 32 100000#32))))
          (constantI Cert.Pre_finite_inputs.S_ 1 1#1) hr hu ValueIdx.ix0 = 1#1) (i : s.Idx) :
    0 ≤ (x i).toInt ∧ (x i).toInt < 100000 := by
  have hi := Host.reduce_andi_all _ _ hr hu _ e i
  obtain ⟨h0, h1⟩ := IntOp.andi_eq_one.1 hi
  have z : (0#32 : BitVec 32).toInt = 0 := by decide
  have k : (100000#32 : BitVec 32).toInt = 100000 := by decide
  have g0 := IntOp.cmpi_sge.1 h0
  have g1 := IntOp.cmpi_slt.1 h1
  exact ⟨z ▸ g0, k ▸ g1⟩

variable (m : (ℓ : Loc nD τ sig) → Buf (Elt Ideal) ℓ)

/-- Under the precondition every float argument holds real numbers only. -/
theorem real_args (hpre : Cert.Pre_KernelIdeal m) (c : Dev nD) :
    IsReal (m ((c.tc : Thread nD τ).loc main_arg0)) ∧ IsReal (m ((c.tc : Thread nD τ).loc main_arg1))
    ∧ IsReal (m ((c.tc : Thread nD τ).loc main_arg2)) ∧ IsReal (m ((c.tc : Thread nD τ).loc main_arg3))
    ∧ IsReal (m ((c.tc : Thread nD τ).loc main_arg4)) ∧ IsReal (m ((c.tc : Thread nD τ).loc main_arg5))
    ∧ IsReal (m ((c.tc : Thread nD τ).loc main_arg6)) ∧ IsReal (m ((c.tc : Thread nD τ).loc main_arg7)) := by
  have h := congrFun (hpre c) ValueIdx.ix0
  dsimp only [Cert.Pre_finite_inputs.fn, Cert.Pre_finite_inputs.fn_part1, Cert.Pre_finite_inputs.fn_part2] at h
  simp only [andi, IntOp.andi_eq_one] at h
  obtain ⟨⟨⟨⟨⟨⟨⟨⟨h0, h1⟩, h2⟩, h3⟩, h4⟩, h5⟩, h6⟩, h7⟩, -⟩ := h
  exact ⟨isReal_of_all_finite _ _ _ _ h0, isReal_of_all_finite _ _ _ _ h1, isReal_of_all_finite _ _ _ _ h2,
    isReal_of_all_finite _ _ _ _ h3, isReal_of_all_finite _ _ _ _ h4, isReal_of_all_finite _ _ _ _ h5,
    isReal_of_all_finite _ _ _ _ h6, isReal_of_all_finite _ _ _ _ h7⟩

/-- Under the precondition every source index is a node: 0 ≤ src e < 100000. -/
theorem src_range (hpre : Cert.Pre_KernelIdeal m) (c : Dev nD) : ∀ e, 0 ≤ (m ((c.tc : Thread nD τ).loc main_arg8) e).toInt ∧ (m ((c.tc : Thread nD τ).loc main_arg8) e).toInt < 100000 := by
  have h := congrFun (hpre c) ValueIdx.ix0
  dsimp only [Cert.Pre_finite_inputs.fn, Cert.Pre_finite_inputs.fn_part1, Cert.Pre_finite_inputs.fn_part2] at h
  simp only [andi, IntOp.andi_eq_one] at h
  exact range_of_all_in_range _ _ _ _ h.2

end Cert.Bridge.Pre

end
-- ==== Proof.LogitMath.lean ====
/-
  The two ways of taking one view's logit agree on real arrays.

  The reference projects the 100000 × 128 encoding h through the dense layer (Wp, bp) and sums every entry:
      Σ_{i, j} (Σ_k h (i, k) · Wp (k, j) + bp j).
  The kernel program takes the column sums of h, multiplies them by the row sums of Wp, sums over the features, and adds
  100000 times the sum of bp:
      Σ_k (Σ_i h (i, k)) · (Σ_j Wp (k, j)) + 100000 · Σ_j bp j.
  Over the reals the two are equal by distributivity and an exchange of finite sums (`real_logit_identity`). On the extended
  reals distributivity fails at the infinities, so the equality is stated for arrays all of whose entries are real: each side
  is first read at the one index of the scalar shape as an explicit finite sum (`lhs_apply`, `rhs_apply`), every entry is
  written as the coercion of a real, the coercion is pushed outward through products and finite sums, and the real identity
  closes the goal.
-/
import proofs.«405684_j1614907703322_1_alg».proof.Proof.Spec
import proofs.«405684_j1614907703322_1_alg».proof.Proof.KSpec
import proofs.«405684_j1614907703322_1_alg».proof.Proof.LibReal
import Idealize.ShloMosaic.Lib.ValueIdx
import Idealize.ShloMosaic.Lib.ValueIdxRank1
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws
import Mathlib.Algebra.BigOperators.Ring.Finset
import Mathlib.Data.EReal.Operations
import Mathlib.Tactic.NormNum

noncomputable section

namespace Cert.Bridge.Logit

open Idealize.ShloMosaic Idealize.ShloMosaic.TcCoe Idealize.ShloMosaic.ValueIdx Idealize.ShloMosaic.RealArr Cert.Bridge Cert.Bridge.Idx

/-! ## The algebra, over the reals -/

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the column sums against the row sums, plus the row count times the bias sum, is the sum of every
    entry of the dense layer's output. -/
theorem real_logit_identity {N K : ℕ} (a : Fin N → Fin K → ℝ) (w : Fin K → Fin K → ℝ) (b : Fin K → ℝ) :
    (∑ k, (∑ i, a i k) * (∑ j, w k j)) + (N : ℝ) * ∑ j, b j = ∑ i, ∑ j, ((∑ k, a i k * w k j) + b j) := by
  have h1 : ∀ i : Fin N, ∑ j, ((∑ k, a i k * w k j) + b j) = (∑ k, a i k * ∑ j, w k j) + ∑ j, b j := by
    intro i
    rw [Finset.sum_add_distrib, Finset.sum_comm]
    congr 1
    exact Finset.sum_congr rfl fun k _ => (Finset.mul_sum _ _ _).symm
  rw [Finset.sum_congr rfl fun i _ => h1 i, Finset.sum_add_distrib, Finset.sum_comm, Finset.sum_const, Finset.card_univ,
    Fintype.card_fin, nsmul_eq_mul]
  congr 1
  exact Finset.sum_congr rfl fun k _ => (Finset.sum_mul _ _ _)

/-! ## The two sides read at the scalar shape's one index -/

/-- The single-precision word `0x47C35000` denotes the real number 100000. -/
theorem ofBits_1e5 : Ideal.ofBits .f32 0x47C35000#32 = ((100000 : ℝ) : EReal) := by
  simp [Ideal.ofBits, Ideal.ieee, -EReal.coe_mul]; norm_num

/-- A sum over the indices of a vector shape is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row sums of a 128 × 128 matrix, read at an index. -/
theorem rowsum_apply (Wp : SW.Idx → EReal) (k : Fin 128) :
    Host.reduceAdd (F := Ideal) (φ := .f32) Wp (constant (F := Ideal) Cert.KernelIdeal.S_ .f32 0x00000000#32)
        Cert.KernelIdeal.Gen.reducesTo_S128x128_S128_d1 Cert.KernelIdeal.Gen.h_S_ (ix1 k)
      = 0 + ∑ j : Fin 128, Wp (ix2 k j) := by
  rw [hostReduceAdd_apply, constant_apply, Ideal.ofBits_zero_f32]
  have hr : Shape.Reduces Cert.KernelIdeal.S128x128 [1] Cert.KernelIdeal.S128 := by decide
  rw [Ideal.hostReduceAdd_single Cert.KernelIdeal.Gen.reducesTo_S128x128_S128_d1 hr]
  refine congrArg (0 + ·) (Finset.sum_congr rfl fun j _ => congrArg Wp ?_)
  funext a; apply Fin.ext
  match a with
  | ⟨0, _⟩ => rfl
  | ⟨1, _⟩ => rfl

/-- The kernel's per-feature factor: the column sum of the encoding times the row sum of the projection. -/
theorem colsum_mul_rowsum_apply (h : SN.Idx → EReal) (Wp : SW.Idx → EReal) (k : Fin 128) :
    mulf (K.flat (F := Ideal) (colsumG h))
        (Host.reduceAdd (F := Ideal) (φ := .f32) Wp (constant (F := Ideal) Cert.KernelIdeal.S_ .f32 0x00000000#32)
          Cert.KernelIdeal.Gen.reducesTo_S128x128_S128_d1 Cert.KernelIdeal.Gen.h_S_) (ix1 k)
      = (∑ i : Fin 100000, h (ix2 i k)) * (0 + ∑ j : Fin 128, Wp (ix2 k j)) := by
  rw [mulf_apply, rowsum_apply]
  unfold K.flat
  rw [shapeCast_1a_a_apply]
  rfl

/-- The kernel side at its one index: the column sums against the row sums, plus 100000 times the bias sum. -/
theorem lhs_apply (h : SN.Idx → EReal) (Wp : SW.Idx → EReal) (bp : Cert.ReferenceIdeal.S128.Idx → EReal)
    (j : Cert.KernelIdeal.S_.Idx) :
    K.logit (F := Ideal) (colsumG h) Wp bp j
      = (0 + ∑ k : Fin 128, (∑ i : Fin 100000, h (ix2 i k)) * (0 + ∑ j : Fin 128, Wp (ix2 k j)))
        + ((100000 : ℝ) : EReal) * (0 + ∑ j : Fin 128, bp (ix1 j)) := by
  unfold K.logit
  rw [addf_apply, mulf_apply, constant_apply, ofBits_1e5, hostReduceAdd_apply, hostReduceAdd_apply,
    constant_apply, Ideal.ofBits_zero_f32,
    Ideal.hostReduceAdd_total _ (fun b => b.elim0), Ideal.hostReduceAdd_total _ (fun b => b.elim0), sum_idx1, sum_idx1,
    Finset.sum_congr rfl fun k _ => colsum_mul_rowsum_apply h Wp k]

/-- A bias vector laid along every row of a 100000 × 128 array reads, at (i, j), its entry j. -/
theorem biasrows_apply (bp : Cert.ReferenceIdeal.S128.Idx → EReal) (i : Fin 100000) (j : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 bp) (ix2 i j)
      = bp (ix1 j) := by
  rw [broadcastInDim_oneRow_apply]
  refine broadcastInDim_apply ![1] _ bp (ix2 (0 : Fin 1) j) (ix1 j) ?_
  intro a
  match a with
  | ⟨0, _⟩ =>
    show j.val = if (128 : ℕ) = 1 then 0 else j.val
    rw [if_neg (by decide)]

/-- The dense layer at an index: the row of the encoding against the column of the weights, plus the bias entry. -/
theorem lin_apply (h : SN.Idx → EReal) (Wp : SW.Idx → EReal) (bp : Cert.ReferenceIdeal.S128.Idx → EReal)
    (i : Fin 100000) (j : Fin 128) :
    Spec.lin (F := Ideal) h Wp bp (ix2 i j) = (∑ k : Fin 128, h (ix2 i k) * Wp (ix2 k j)) + bp (ix1 j) := by
  unfold Spec.lin
  rw [addf_apply, biasrows_apply]
  have e : Cert.ReferenceIdeal.dot_S100000x128_S128x128_S100000x128_1_0_0_1_n_n = DotDims.plain 100000 128 128 := rfl
  rw [e, StackMember.dotGeneral_plain_apply]

/-- The reference side at its one index: the sum of every entry of the dense layer's output. -/
theorem rhs_apply (h : SN.Idx → EReal) (Wp : SW.Idx → EReal) (bp : Cert.ReferenceIdeal.S128.Idx → EReal)
    (j : Cert.ReferenceIdeal.S_.Idx) :
    Spec.logit (F := Ideal) h Wp bp j
      = 0 + ∑ i : Fin 100000, ∑ j : Fin 128, ((∑ k : Fin 128, h (ix2 i k) * Wp (ix2 k j)) + bp (ix1 j)) := by
  unfold Spec.logit
  rw [hostReduceAdd_apply, constant_apply, Ideal.ofBits_zero_f32, Ideal.hostReduceAdd_total _ (fun b => b.elim0), sum_idx2,
    Finset.sum_congr rfl fun i _ => Finset.sum_congr rfl fun j _ => lin_apply h Wp bp i j]

/-! ## The equality on real arrays -/

/-- For real arrays: Σ_k (Σ_i h (i, k)) · (Σ_j Wp (k, j)) + 100000 · Σ_j bp j = Σ_{i, j} (Σ_k h (i, k) · Wp (k, j) + bp j). -/
theorem logit_eq (h : SN.Idx → EReal) (Wp : SW.Idx → EReal) (bp : Cert.ReferenceIdeal.S128.Idx → EReal)
    (hh : IsReal h) (hW : IsReal Wp) (hb : IsReal bp) :
    K.logit (F := Ideal) (colsumG h) Wp bp = Spec.logit (F := Ideal) h Wp bp := by
  funext j
  rw [lhs_apply, rhs_apply]
  choose a ha using hh
  choose w hw using hW
  choose b hb' using hb
  simp only [ha, hw, hb', zero_add, ← EReal.coe_mul, ← coe_finset_sum, ← EReal.coe_add]
  have key := real_logit_identity (N := 100000) (K := 128) (fun i k => a (ix2 i k)) (fun k j => w (ix2 k j))
    (fun j => b (ix1 j))
  rw [Nat.cast_ofNat] at key
  exact congrArg _ key

end Cert.Bridge.Logit

end
-- ==== Proof.EncReal.lean ====
import proofs.«405684_j1614907703322_1_alg».proof.Proof.Spec
import proofs.«405684_j1614907703322_1_alg».proof.Proof.LibReal
import Idealize.ShloMosaic.Lib.ValueIdx
import Idealize.ShloMosaic.PureOps.Ideal.Laws

noncomputable section

namespace Cert.Bridge.EncReal

open Idealize.ShloMosaic Idealize.ShloMosaic.TcCoe Idealize.ShloMosaic.ValueIdx Idealize.ShloMosaic.RealArr Cert.Bridge Cert.ReferenceIdeal

/-! ### Closure of realness under exact arithmetic -/

/-- A finite sum of real numbers is a real number. -/
theorem exists_real_sum {κ : Type} (s : Finset κ) (f : κ → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := h a (Finset.mem_insert_self a s)
    obtain ⟨t, ht⟩ := ih (fun k hk => h k (Finset.mem_insert_of_mem hk))
    exact ⟨r + t, by rw [Finset.sum_insert ha, hr, ht, EReal.coe_add]⟩

/-- A finite sum of nonnegative real numbers is a nonnegative real number. -/
theorem exists_nonneg_real_sum {κ : Type} (s : Finset κ) (f : κ → EReal)
    (h : ∀ k ∈ s, ∃ r : ℝ, 0 ≤ r ∧ f k = (r : EReal)) : ∃ r : ℝ, 0 ≤ r ∧ ∑ k ∈ s, f k = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih (fun k hk => h k (Finset.mem_insert_of_mem hk))
    exact ⟨r + t, add_nonneg hr0 ht0, by rw [Finset.sum_insert ha, hr, ht, EReal.coe_add]⟩

/-- The entrywise sum of real arrays is real. -/
theorem isReal_addf {s : Shape} {x y : FVec Ideal s .f32} (hx : IsReal x) (hy : IsReal y) : IsReal (addf x y) := by
  intro i
  obtain ⟨a, ha⟩ := hx i
  obtain ⟨b, hb⟩ := hy i
  exact ⟨a + b, by show x i + y i = _; rw [ha, hb, EReal.coe_add]⟩

/-- The entrywise product of real arrays is real. -/
theorem isReal_mulf {s : Shape} {x y : FVec Ideal s .f32} (hx : IsReal x) (hy : IsReal y) : IsReal (mulf x y) := by
  intro i
  obtain ⟨a, ha⟩ := hx i
  obtain ⟨b, hb⟩ := hy i
  exact ⟨a * b, by show x i * y i = _; rw [ha, hb, EReal.coe_mul]⟩

/-- The entrywise maximum of real arrays is real: it is one of the two. -/
theorem isReal_maximumf {s : Shape} {x y : FVec Ideal s .f32} (hx : IsReal x) (hy : IsReal y) : IsReal (maximumf x y) := by
  intro i
  show ∃ r : ℝ, max (x i) (y i) = (r : EReal)
  rcases max_choice (x i) (y i) with h | h
  · rw [h]; exact hx i
  · rw [h]; exact hy i

/-- Every entry of a broadcast is an entry of its operand. -/
theorem isReal_broadcastInDim {s : Shape} (t : Shape) (dims : Fin s.rank → Fin t.rank) (h : s.BroadcastsInDim t dims)
    {x : s.Idx → EReal} (hx : IsReal x) : IsReal (broadcastInDim t dims h x) :=
  fun _ => hx _

/-- Every entry of a gather is an entry of its operand, whatever the indices. -/
theorem isReal_gather {s si t : Shape} {w : Nat} (d : GatherDims s si t) {x : s.Idx → EReal} (idx : IVec si w)
    (hx : IsReal x) : IsReal (Host.gather d x idx) :=
  fun _ => hx _

/-- An accumulating scatter of real updates onto a real array is real: each entry is the operand's plus a finite sum of updates. -/
theorem isReal_scatterAdd {s si u : Shape} {w : Nat} (d : ScatterDims s si u) {x : FVec Ideal s .f32} (idx : IVec si w)
    {upd : FVec Ideal u .f32} (hx : IsReal x) (hu : IsReal upd) : IsReal (Host.scatterAdd (F := Ideal) d x idx upd) := by
  intro i
  obtain ⟨a, ha⟩ := hx i
  obtain ⟨b, hb⟩ := exists_real_sum (Finset.univ.filter (fun j => d.resultIdx? j idx = some i)) upd (fun k _ => hu k)
  exact ⟨a + b, by
    show x i + ∑ j ∈ Finset.univ.filter (fun j => d.resultIdx? j idx = some i), upd j = _
    rw [ha, hb, EReal.coe_add]⟩

/-- A contraction of real arrays is real: each entry is a finite sum of products. -/
theorem isReal_dotGeneral {sl sr so : Shape} (d : DotDims sl sr so) (prec : Option ContractPrecision)
    {lhs : FVec Ideal sl .f32} {rhs : FVec Ideal sr .f32} (hl : IsReal lhs) (hr : IsReal rhs) :
    IsReal (Host.dotGeneral (F := Ideal) d prec lhs rhs) := by
  intro j
  show ∃ r : ℝ, FloatOps.dotGeneral d prec .single lhs rhs j = (r : EReal)
  rw [Ideal.dotGeneral_apply]
  exact exists_real_sum _ _ (fun k _ => by
    obtain ⟨a, ha⟩ := hl (d.lhsIdx j k)
    obtain ⟨b, hb⟩ := hr (d.rhsIdx j k)
    exact ⟨a * b, by rw [ha, hb, EReal.coe_mul]⟩)

/-- The splat of the zero word is the real array of zeros. -/
theorem isReal_constant_zero (s : Shape) : IsReal (constant (F := Ideal) s .f32 0x00000000#32) :=
  fun _ => ⟨0, by show Ideal.ofBits .f32 0x00000000#32 = _; rw [Ideal.ofBits_zero_f32]; rfl⟩

/-- The word `0x3F800000` denotes the number one. -/
theorem ofBits_one_f32 : Ideal.ofBits .f32 0x3F800000#32 = 1 := by
  simp [Ideal.ofBits, Ideal.ieee, -EReal.coe_mul]; norm_num

/-! ### The normalisation: the reciprocal square root of a positive count -/

/-- Every entry of `x` is a nonnegative real number. -/
def IsNonnegReal {ι : Type} (x : ι → EReal) : Prop := ∀ i, ∃ r : ℝ, 0 ≤ r ∧ x i = (r : EReal)

/-- A broadcast of a nonnegative real array is one: its entries are the operand's. -/
theorem isNonnegReal_broadcastInDim {s : Shape} (t : Shape) (dims : Fin s.rank → Fin t.rank) (h : s.BroadcastsInDim t dims)
    {x : s.Idx → EReal} (hx : IsNonnegReal x) : IsNonnegReal (broadcastInDim t dims h x) :=
  fun _ => hx _

/-- The splat of the zero word is nonnegative. -/
theorem isNonnegReal_constant_zero (s : Shape) : IsNonnegReal (constant (F := Ideal) s .f32 0x00000000#32) :=
  fun _ => ⟨0, le_refl _, by show Ideal.ofBits .f32 0x00000000#32 = _; rw [Ideal.ofBits_zero_f32]; rfl⟩

/-- The splat of the word of one is nonnegative. -/
theorem isNonnegReal_constant_one (s : Shape) : IsNonnegReal (constant (F := Ideal) s .f32 0x3F800000#32) :=
  fun _ => ⟨1, zero_le_one, by show Ideal.ofBits .f32 0x3F800000#32 = _; rw [ofBits_one_f32]; rfl⟩

/-- An accumulating scatter of nonnegative reals onto nonnegative reals is nonnegative real. -/
theorem isNonnegReal_scatterAdd {s si u : Shape} {w : Nat} (d : ScatterDims s si u) {x : FVec Ideal s .f32} (idx : IVec si w)
    {upd : FVec Ideal u .f32} (hx : IsNonnegReal x) (hu : IsNonnegReal upd) :
    IsNonnegReal (Host.scatterAdd (F := Ideal) d x idx upd) := by
  intro i
  obtain ⟨a, ha0, ha⟩ := hx i
  obtain ⟨b, hb0, hb⟩ := exists_nonneg_real_sum (Finset.univ.filter (fun j => d.resultIdx? j idx = some i)) upd (fun k _ => hu k)
  exact ⟨a + b, add_nonneg ha0 hb0, by
    show x i + ∑ j ∈ Finset.univ.filter (fun j => d.resultIdx? j idx = some i), upd j = _
    rw [ha, hb, EReal.coe_add]⟩

/-- The reciprocal square root of an array of positive reals is real: `(√r)⁻¹` at `r > 0`. -/
theorem isReal_rsqrt_of_pos {s : Shape} {x : FVec Ideal s .f32} (hx : ∀ i, ∃ r : ℝ, 0 < r ∧ x i = (r : EReal)) :
    IsReal (Host.rsqrt (F := Ideal) x) := by
  intro i
  obtain ⟨r, hr0, hr⟩ := hx i
  refine ⟨(Real.sqrt r)⁻¹, ?_⟩
  show Ideal.rsqrt (x i) = _
  rw [hr, Ideal.rsqrt_coe, if_neg (not_lt.mpr hr0.le), if_neg hr0.ne']

/-- A broadcast of a splat reads the splat's word at every index. -/
theorem broadcastInDim_constant_apply {s : Shape} (t : Shape) (dims : Fin s.rank → Fin t.rank) (h : s.BroadcastsInDim t dims)
    (b : BitVec 32) (i : t.Idx) : broadcastInDim t dims h (constant (F := Ideal) s .f32 b) i = Ideal.ofBits .f32 b := rfl

/-- The entrywise sum read at an index. -/
theorem addf_apply {s : Shape} (x y : FVec Ideal s .f32) (i : s.Idx) : addf x y i = x i + y i := rfl

/-- The normalisation is real: the count of incoming edges is a nonnegative real, so the count plus one is positive. -/
theorem norm_real (dst : Spec.IArr (F := Ideal) S1600000) : IsReal (Spec.norm (F := Ideal) dst) := by
  unfold Spec.norm
  apply isReal_rsqrt_of_pos
  have h1 := isNonnegReal_scatterAdd scatter_S100000_S1600000x1_S1600000_n_0_0_1
      (broadcastInDim S1600000x1 ![0] Gen.bcast_S1600000_S1600000x1_0 dst)
      (isNonnegReal_broadcastInDim S100000 ![] Gen.bcast_S_S100000 (isNonnegReal_constant_zero S_))
      (isNonnegReal_broadcastInDim S1600000 ![] Gen.bcast_S_S1600000 (isNonnegReal_constant_one S_))
  have h2 : ∀ i, broadcastInDim S100000 ![] Gen.bcast_S_S100000 (constant (F := Ideal) S_ .f32 0x3F800000#32) i = 1 :=
    fun i => (broadcastInDim_constant_apply (s := S_) S100000 ![] Gen.bcast_S_S100000 0x3F800000#32 i).trans ofBits_one_f32
  intro i
  obtain ⟨r, hr0, hr⟩ := h1 i
  refine ⟨r + 1, by linarith, ?_⟩
  rw [addf_apply, hr, h2 i, EReal.coe_add, EReal.coe_one]

/-! ### The layers -/

/-- The normalisation column of a real normalisation is real. -/
theorem ncol_real {n : Spec.Arr (F := Ideal) S100000} (hn : IsReal n) : IsReal (Spec.ncol (F := Ideal) n) :=
  isReal_broadcastInDim _ _ _ (isReal_broadcastInDim _ _ _ hn)

/-- Normalising, aggregating over the edges and normalising again keeps a real array real. -/
theorem pre_real {x : Spec.Arr (F := Ideal) S100000x128} {n : Spec.Arr (F := Ideal) S100000} (src dst : Spec.IArr (F := Ideal) S1600000)
    (hx : IsReal x) (hn : IsReal n) : IsReal (Spec.pre (F := Ideal) x n src dst) := by
  have hc := ncol_real hn
  have hxn : IsReal (mulf (F := Ideal) (s := S100000x128) (φ := .f32) x (Spec.ncol (F := Ideal) n)) := isReal_mulf hx hc
  unfold Spec.pre Spec.segsum Spec.rows
  exact isReal_mulf (isReal_addf (isReal_scatterAdd _ _ (isReal_broadcastInDim _ _ _ (isReal_constant_zero S_))
    (isReal_gather _ _ hxn)) hxn) hc

/-- The dense layer of real arrays is real. -/
theorem lin_real {y : Spec.Arr (F := Ideal) S100000x128} {W : Spec.Arr (F := Ideal) S128x128} {b : Spec.Arr (F := Ideal) S128}
    (hy : IsReal y) (hW : IsReal W) (hb : IsReal b) : IsReal (Spec.lin (F := Ideal) y W b) := by
  unfold Spec.lin
  exact isReal_addf (isReal_dotGeneral _ _ hy hW) (isReal_broadcastInDim _ _ _ (isReal_broadcastInDim _ _ _ hb))

/-- The positive part of a real array is real. -/
theorem relu_real {y : Spec.Arr (F := Ideal) S100000x128} (hy : IsReal y) : IsReal (Spec.relu (F := Ideal) y) := by
  unfold Spec.relu
  exact isReal_maximumf hy (isReal_broadcastInDim _ _ _ (isReal_constant_zero S_))

/-- The encoder of real features, weights and biases is real: the normalisation is the reciprocal square root of a positive
    count, and every other step is a finite sum or product of reals, or a maximum with zero. -/
theorem enc_real (x : S100000x128.Idx → EReal) (src dst : Spec.IArr (F := Ideal) S1600000)
    (W1 : S128x128.Idx → EReal) (b1 : S128.Idx → EReal) (W2 : S128x128.Idx → EReal) (b2 : S128.Idx → EReal)
    (hx : IsReal x) (hW1 : IsReal W1) (hb1 : IsReal b1) (hW2 : IsReal W2) (hb2 : IsReal b2) :
    IsReal (Spec.enc (F := Ideal) x (Spec.norm (F := Ideal) dst) src dst W1 b1 W2 b2) := by
  have hn := norm_real dst
  unfold Spec.enc
  exact lin_real (pre_real src dst (relu_real (lin_real (pre_real src dst hx hn) hW1 hb1)) hn) hW2 hb2

end Cert.Bridge.EncReal

end
-- ==== Proof.lean ====
/-
  The certificate's claim. The kernel program and the reference compute one function of the ten arguments when every float
  argument is real and every source index is a node (0 ≤ src < 100000):

  · the kernel program's run ends with its result at the last boundary's contents, which the regions' values and the host
    stretches between them make `K.result` of the arguments;
  · the reference's run ends with its result at `Spec.result` of the arguments;
  · with the source indices in range the guarded gather keeps every row, so the two encoders agree array by array; the
    normalisation, the segment sums, the labels and the cross-entropy tail are the same operations;
  · the two logits agree because the encodings are real: Σ_k (Σ_i h i k)·(Σ_j Wp k j) + N·Σ_j bp j = Σ_{i,j} (Σ_k h i k·Wp k j + bp j).

  The three frames are the generated frame certificates and the reference's run with its result dropped; nothing was
  idealized away, so `preserves` has nothing to say.
-/
import proofs.«405684_j1614907703322_1_alg».proof.Defs
import proofs.«405684_j1614907703322_1_alg».proof.Proof.Gen.Kernel
import proofs.«405684_j1614907703322_1_alg».proof.Proof.Gen.Kernel.Skeleton
import proofs.«405684_j1614907703322_1_alg».proof.Proof.Gen.Kernel.Launch
import proofs.«405684_j1614907703322_1_alg».proof.Proof.Gen.Kernel.Points
import proofs.«405684_j1614907703322_1_alg».proof.Proof.Gen.Kernel.Frame
import proofs.«405684_j1614907703322_1_alg».proof.Proof.Gen.KernelIdeal
import proofs.«405684_j1614907703322_1_alg».proof.Proof.Gen.KernelIdeal.Skeleton
import proofs.«405684_j1614907703322_1_alg».proof.Proof.Gen.KernelIdeal.Launch
import proofs.«405684_j1614907703322_1_alg».proof.Proof.Gen.KernelIdeal.Points
import proofs.«405684_j1614907703322_1_alg».proof.Proof.Gen.KernelIdeal.Frame
import proofs.«405684_j1614907703322_1_alg».proof.Proof.Gen.ReferenceIdeal
import proofs.«405684_j1614907703322_1_alg».proof.Proof.Gen.Pre_finite_inputs
import proofs.«405684_j1614907703322_1_alg».proof.Proof.KernelRun
import proofs.«405684_j1614907703322_1_alg».proof.Proof.RefRun
import proofs.«405684_j1614907703322_1_alg».proof.Proof.Chain0
import proofs.«405684_j1614907703322_1_alg».proof.Proof.ChainA
import proofs.«405684_j1614907703322_1_alg».proof.Proof.ChainB
import proofs.«405684_j1614907703322_1_alg».proof.Proof.ChainC
import proofs.«405684_j1614907703322_1_alg».proof.Proof.FormBridge
import proofs.«405684_j1614907703322_1_alg».proof.Proof.TakeRange
import proofs.«405684_j1614907703322_1_alg».proof.Proof.PreDecode
import proofs.«405684_j1614907703322_1_alg».proof.Proof.LogitMath
import proofs.«405684_j1614907703322_1_alg».proof.Proof.EncReal
import Idealize.ShloMosaic.Adequacy
import Idealize.ShloMosaic.Init

noncomputable section

namespace Cert.Proof

open Idealize.ShloMosaic Idealize.ShloMosaic.TcCoe Idealize.SL.Sem Idealize.ShloMosaic.RealArr Cert.Bridge

section Value

open Cert.KernelIdeal Cert.KernelIdeal.Gen Cert.Bridge.Chain

variable (m : (ℓ : Loc nD τ sig) → Buf (Elt Ideal) ℓ) (ρ : Dev nD → PrngReg) (c : Dev nD)

/-- The kernel program's result buffer ends at `K.result` of the ten arguments' launch contents. -/
theorem kernel_value :
    W21 m ρ c (Proc.devRef .tc main_v63)
      = K.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  rw [W21_v63, W17_v35, W17_v21, W17_arg6, W17_arg7, W17_cst, W9_v21, W9_arg1, W9_arg2, W9_arg3, W9_arg4, W9_arg5, W9_arg6, W9_arg7,
    W9_arg8, W9_arg9, W9_v7, W9_cst, W1_v7, W1_cst, W1_arg0, W1_arg1, W1_arg2, W1_arg3, W1_arg4, W1_arg5, W1_arg6, W1_arg7, W1_arg8, W1_arg9]
  rfl

end Value

/-- For real arguments and source indices in range the kernel program's function is the reference's. -/
theorem result_eq (x1 x2 : K.Arr (F := Ideal) Cert.KernelIdeal.S100000x128) (W1 : K.Arr (F := Ideal) Cert.KernelIdeal.S128x128) (b1 : K.Arr (F := Ideal) Cert.KernelIdeal.S128)
    (W2 : K.Arr (F := Ideal) Cert.KernelIdeal.S128x128) (b2 : K.Arr (F := Ideal) Cert.KernelIdeal.S128) (Wp : K.Arr (F := Ideal) Cert.KernelIdeal.S128x128) (bp : K.Arr (F := Ideal) Cert.KernelIdeal.S128)
    (src dst : K.IArr (F := Ideal) Cert.KernelIdeal.S1600000)
    (hx1 : IsReal x1) (hx2 : IsReal x2) (hW1 : IsReal W1) (hb1 : IsReal b1) (hW2 : IsReal W2) (hb2 : IsReal b2) (hWp : IsReal Wp) (hbp : IsReal bp)
    (hsrc : ∀ e, 0 ≤ (src e).toInt ∧ (src e).toInt < 100000) :
    K.result x1 x2 W1 b1 W2 b2 Wp bp src dst = Spec.result (F := Ideal) x1 x2 W1 b1 W2 b2 Wp bp src dst := by
  have htake : ∀ h, K.take (F := Ideal) h src = Spec.rows (F := Ideal) h src := fun h => Take.take_eq_rows src hsrc h
  unfold K.result Spec.result
  rw [Form.norm_eq dst, Form.enc_form x1 _ src dst W1 b1 W2 b2 htake, Form.enc_form x2 _ src dst W1 b1 W2 b2 htake,
    Logit.logit_eq _ Wp bp (EncReal.enc_real x1 src dst W1 b1 W2 b2 hx1 hW1 hb1 hW2 hb2) hWp hbp,
    Logit.logit_eq _ Wp bp (EncReal.enc_real x2 src dst W1 b1 W2 b2 hx2 hW1 hb1 hW2 hb2) hWp hbp,
    Form.bce_eq, Form.labels_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Bridge.Ref.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W21 m ρ c (Proc.devRef .tc Cert.KernelIdeal.main_v63), Cert.KernelIdeal.Run.run m ρ, ?_⟩
  refine (θ_run Cert.ReferenceIdeal.defs _ _).mono (fun _ h c => ⟨(h c).1.trans ?_, (h c).2⟩) (Cert.Bridge.Ref.run (F := Ideal) m' ρ')
  obtain ⟨e0, e1, e2, e3, e4, e5, e6, e7, e8, e9⟩ := hagree c
  obtain ⟨r0, r1, r2, r3, r4, r5, r6, r7⟩ := Pre.real_args m hpre c
  rw [e0, e1, e2, e3, e4, e5, e6, e7, e8, e9]
  exact ((kernel_value m ρ c).trans (result_eq _ _ _ _ _ _ _ _ _ _ r0 r1 r2 r3 r4 r5 r6 r7 (Pre.src_range m hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
